-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S320x512 : Shape := ⟨2, ![320, 512]⟩
abbrev S192x512 : Shape := ⟨2, ![192, 512]⟩
abbrev S8 : Shape := ⟨1, ![8]⟩
abbrev S6 : Shape := ⟨1, ![6]⟩
abbrev S_ : Shape := ⟨0, ![]⟩
abbrev S32x512 : Shape := ⟨2, ![32, 512]⟩
abbrev S64x512 : Shape := ⟨2, ![64, 512]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S512x512, .f32⟩
  | .local _ .vmem, ⟨1, _⟩ => ⟨S512x512, .bf16⟩
  | .local _ .vmem, ⟨2, _⟩ => ⟨S320x512, .bf16⟩
  | .local _ .vmem, ⟨3, _⟩ => ⟨S320x512, .bf16⟩
  | .local _ .vmem, ⟨4, _⟩ => ⟨S192x512, .bf16⟩
  | .local _ .vmem, ⟨5, _⟩ => ⟨S192x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v15 : BitVec 32 := Scalar.muli v2 c2_i32_8
  let v16 : BitVec 32 := Scalar.addi c0_i32 v15
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_9 : BitVec 32 := 1#32
  let v17 : BitVec 32 := Scalar.muli v6 c1_i32_9
  let v18 : BitVec 32 := Scalar.addi v16 v17
  v18.toNat
def k0_dev2 (d0 : Dev nD) : Nat :=
  let c0_i32_12 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_11 : BitVec 32 := 2#32
  let v19 : BitVec 32 := Scalar.muli v7 c2_i32_11
  let v20 : BitVec 32 := Scalar.addi c0_i32_12 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v21 : BitVec 32 := Scalar.muli v5 c1_i32_13
  let v22 : BitVec 32 := Scalar.addi v20 v21
  v22.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c192_i32 : BitVec 32 := 192#32
  let v8 : BitVec 32 := Scalar.muli v2 c192_i32
  let c128_i32 : BitVec 32 := 128#32
  let v9 : BitVec 32 := Scalar.muli v2 c128_i32
  let v23 : BitVec 32 := Scalar.addi v9 c0_i32_14
  let v24 : BitVec 32 := Scalar.addi v8 v23
  let v25 : Index := Scalar.indexCast v24
  let c0 : Index := 0#32
  ![v25.toNat, 0]
def k0_off2 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c128_i32 : BitVec 32 := 128#32
  let v9 : BitVec 32 := Scalar.muli v2 c128_i32
  let v23 : BitVec 32 := Scalar.addi v9 c0_i32_14
  let v29 : Index := Scalar.indexCast v23
  let c0_15 : Index := 0#32
  ![v29.toNat, 0]
def k0_off3 (d0 : Dev nD) (c0_i32_27 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c192_i32 : BitVec 32 := 192#32
  let v8 : BitVec 32 := Scalar.muli v2 c192_i32
  let c1_i32_4 : BitVec 32 := 1#32
  let v10 : BitVec 32 := Scalar.subi c1_i32_4 v2
  let c192_i32_5 : BitVec 32 := 192#32
  let v11 : BitVec 32 := Scalar.muli v10 c192_i32_5
  let v83 : BitVec 32 := Scalar.addi v11 c0_i32_27
  let v84 : BitVec 32 := Scalar.addi v8 v83
  let v85 : Index := Scalar.indexCast v84
  let c0_28 : Index := 0#32
  ![v85.toNat, 0]
def k0_off4 (d0 : Dev nD) (c0_i32_27 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.subi c1_i32_4 v2
  let c192_i32_5 : BitVec 32 := 192#32
  let v11 : BitVec 32 := Scalar.muli v10 c192_i32_5
  let v83 : BitVec 32 := Scalar.addi v11 c0_i32_27
  let v89 : Index := Scalar.indexCast v83
  let c0_29 : Index := 0#32
  ![v89.toNat, 0]
def k0_off5 (d0 : Dev nD) (c0_i32_34 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c128_i32 : BitVec 32 := 128#32
  let v9 : BitVec 32 := Scalar.muli v2 c128_i32
  let v103 : BitVec 32 := Scalar.addi v9 c0_i32_34
  let c0_i32_40 : BitVec 32 := 0#32
  ![v103.toNat, 0]
def k0_dev3 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v104 : BitVec 32 := Scalar.muli v2 c2_i32_37
  let v105 : BitVec 32 := Scalar.addi c0_i32_38 v104
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v106 : BitVec 32 := Scalar.muli v6 c1_i32_39
  let v107 : BitVec 32 := Scalar.addi v105 v106
  v107.toNat
def k0_dev4 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v115 : BitVec 32 := Scalar.muli v2 c2_i32_45
  let v116 : BitVec 32 := Scalar.addi c0_i32_46 v115
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v117 : BitVec 32 := Scalar.muli v6 c1_i32_47
  let v118 : BitVec 32 := Scalar.addi v116 v117
  v118.toNat
def k0_dev5 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v126 : BitVec 32 := Scalar.muli v2 c2_i32_53
  let v127 : BitVec 32 := Scalar.addi c0_i32_54 v126
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v128 : BitVec 32 := Scalar.muli v6 c1_i32_55
  let v129 : BitVec 32 := Scalar.addi v127 v128
  v129.toNat
def k0_dev6 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v137 : BitVec 32 := Scalar.muli v2 c2_i32_60
  let v138 : BitVec 32 := Scalar.addi c0_i32_61 v137
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_62 : BitVec 32 := 1#32
  let v139 : BitVec 32 := Scalar.muli v6 c1_i32_62
  let v140 : BitVec 32 := Scalar.addi v138 v139
  v140.toNat
def k0_dev7 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v148 : BitVec 32 := Scalar.muli v2 c2_i32_67
  let v149 : BitVec 32 := Scalar.addi c0_i32_68 v148
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_69 : BitVec 32 := 1#32
  let v150 : BitVec 32 := Scalar.muli v6 c1_i32_69
  let v151 : BitVec 32 := Scalar.addi v149 v150
  v151.toNat
def k0_dev8 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v159 : BitVec 32 := Scalar.muli v2 c2_i32_74
  let v160 : BitVec 32 := Scalar.addi c0_i32_75 v159
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v161 : BitVec 32 := Scalar.muli v6 c1_i32_76
  let v162 : BitVec 32 := Scalar.addi v160 v161
  v162.toNat
def k0_off6 (d0 : Dev nD) (c0_i32_79 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.subi c1_i32_4 v2
  let c192_i32_5 : BitVec 32 := 192#32
  let v11 : BitVec 32 := Scalar.muli v10 c192_i32_5
  let v169 : BitVec 32 := Scalar.addi v11 c0_i32_79
  let c0_i32_84 : BitVec 32 := 0#32
  ![v169.toNat, 0]
def k0_dev9 (d0 : Dev nD) : Nat :=
  let c0_i32_82 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_81 : BitVec 32 := 2#32
  let v170 : BitVec 32 := Scalar.muli v2 c2_i32_81
  let v171 : BitVec 32 := Scalar.addi c0_i32_82 v170
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_83 : BitVec 32 := 1#32
  let v172 : BitVec 32 := Scalar.muli v6 c1_i32_83
  let v173 : BitVec 32 := Scalar.addi v171 v172
  v173.toNat
def k0_dev10 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_88 : BitVec 32 := 2#32
  let v181 : BitVec 32 := Scalar.muli v2 c2_i32_88
  let v182 : BitVec 32 := Scalar.addi c0_i32_89 v181
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_90 : BitVec 32 := 1#32
  let v183 : BitVec 32 := Scalar.muli v6 c1_i32_90
  let v184 : BitVec 32 := Scalar.addi v182 v183
  v184.toNat
def k0_dev11 (d0 : Dev nD) : Nat :=
  let c0_i32_108 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_107 : BitVec 32 := 2#32
  let v208 : BitVec 32 := Scalar.muli v7 c2_i32_107
  let v209 : BitVec 32 := Scalar.addi c0_i32_108 v208
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_109 : BitVec 32 := 1#32
  let v210 : BitVec 32 := Scalar.muli v5 c1_i32_109
  let v211 : BitVec 32 := Scalar.addi v209 v210
  v211.toNat
def k0_dev12 (d0 : Dev nD) : Nat :=
  let c0_i32_131 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_130 : BitVec 32 := 2#32
  let v239 : BitVec 32 := Scalar.muli v7 c2_i32_130
  let v240 : BitVec 32 := Scalar.addi c0_i32_131 v239
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v241 : BitVec 32 := Scalar.muli v5 c1_i32_132
  let v242 : BitVec 32 := Scalar.addi v240 v241
  v242.toNat
def k0_dev13 (d0 : Dev nD) : Nat :=
  let c0_i32_154 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_153 : BitVec 32 := 2#32
  let v270 : BitVec 32 := Scalar.muli v7 c2_i32_153
  let v271 : BitVec 32 := Scalar.addi c0_i32_154 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v272 : BitVec 32 := Scalar.muli v5 c1_i32_155
  let v273 : BitVec 32 := Scalar.addi v271 v272
  v273.toNat
def k0_dev14 (d0 : Dev nD) : Nat :=
  let c0_i32_177 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_176 : BitVec 32 := 2#32
  let v301 : BitVec 32 := Scalar.muli v7 c2_i32_176
  let v302 : BitVec 32 := Scalar.addi c0_i32_177 v301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v303 : BitVec 32 := Scalar.muli v5 c1_i32_178
  let v304 : BitVec 32 := Scalar.addi v302 v303
  v304.toNat
def k0_dev15 (d0 : Dev nD) : Nat :=
  let c0_i32_200 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_199 : BitVec 32 := 2#32
  let v332 : BitVec 32 := Scalar.muli v7 c2_i32_199
  let v333 : BitVec 32 := Scalar.addi c0_i32_200 v332
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_201 : BitVec 32 := 1#32
  let v334 : BitVec 32 := Scalar.muli v5 c1_i32_201
  let v335 : BitVec 32 := Scalar.addi v333 v334
  v335.toNat
def k0_dev16 (d0 : Dev nD) : Nat :=
  let c0_i32_223 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_222 : BitVec 32 := 2#32
  let v363 : BitVec 32 := Scalar.muli v7 c2_i32_222
  let v364 : BitVec 32 := Scalar.addi c0_i32_223 v363
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_224 : BitVec 32 := 1#32
  let v365 : BitVec 32 := Scalar.muli v5 c1_i32_224
  let v366 : BitVec 32 := Scalar.addi v364 v365
  v366.toNat
def k0_off7 (d0 : Dev nD) (c0_i32_254 : BitVec 32) : Fin 2 → Nat :=
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c320_i32 : BitVec 32 := 320#32
  let v13 : BitVec 32 := Scalar.muli v12 c320_i32
  let v403 : BitVec 32 := Scalar.addi v13 c0_i32_254
  let v404 : Index := Scalar.indexCast v403
  let c0_255 : Index := 0#32
  ![v404.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S32x512 : 0 < S32x512.numel
  shapeCasts_S32x512_S32x512 : S32x512.ShapeCasts S32x512
  bitsLt_bf16_f32 : FTy.bits .bf16 < FTy.bits .f32
  h_S64x512 : 0 < S64x512.numel
  shapeCasts_S64x512_S64x512 : S64x512.ShapeCasts S64x512
  hamt_2 : (2#32 : BitVec 32).msb = false
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S192x512_S32x512_0_0 : ∀ a, (![0, 0] : Fin 2 → Nat) a + S32x512.size a ≤ S192x512.size a
  packedbf16_S192x512_S32x512_0_0 : (Rect.unit (s := S192x512) ![0, 0] S32x512.size inb_S192x512_S32x512_0_0).PackedRows (EltTy.packing .bf16)
  inb_S6_S1_0 : ∀ a, (![0] : Fin 1 → Nat) a + S1.size a ≤ S6.size a
  wordsbf16_S192x512_S32x512_0_0 : (Rect.unit (s := S192x512) ![0, 0] S32x512.size inb_S192x512_S32x512_0_0).WholeWords (EltTy.packing .bf16)
  inb_S192x512_S32x512_32_0 : ∀ a, (![32, 0] : Fin 2 → Nat) a + S32x512.size a ≤ S192x512.size a
  packedbf16_S192x512_S32x512_32_0 : (Rect.unit (s := S192x512) ![32, 0] S32x512.size inb_S192x512_S32x512_32_0).PackedRows (EltTy.packing .bf16)
  inb_S6_S1_1 : ∀ a, (![1] : Fin 1 → Nat) a + S1.size a ≤ S6.size a
  wordsbf16_S192x512_S32x512_32_0 : (Rect.unit (s := S192x512) ![32, 0] S32x512.size inb_S192x512_S32x512_32_0).WholeWords (EltTy.packing .bf16)
  inb_S192x512_S32x512_64_0 : ∀ a, (![64, 0] : Fin 2 → Nat) a + S32x512.size a ≤ S192x512.size a
  packedbf16_S192x512_S32x512_64_0 : (Rect.unit (s := S192x512) ![64, 0] S32x512.size inb_S192x512_S32x512_64_0).PackedRows (EltTy.packing .bf16)
  inb_S6_S1_2 : ∀ a, (![2] : Fin 1 → Nat) a + S1.size a ≤ S6.size a
  wordsbf16_S192x512_S32x512_64_0 : (Rect.unit (s := S192x512) ![64, 0] S32x512.size inb_S192x512_S32x512_64_0).WholeWords (EltTy.packing .bf16)
  inb_S192x512_S32x512_96_0 : ∀ a, (![96, 0] : Fin 2 → Nat) a + S32x512.size a ≤ S192x512.size a
  packedbf16_S192x512_S32x512_96_0 : (Rect.unit (s := S192x512) ![96, 0] S32x512.size inb_S192x512_S32x512_96_0).PackedRows (EltTy.packing .bf16)
  inb_S6_S1_3 : ∀ a, (![3] : Fin 1 → Nat) a + S1.size a ≤ S6.size a
  wordsbf16_S192x512_S32x512_96_0 : (Rect.unit (s := S192x512) ![96, 0] S32x512.size inb_S192x512_S32x512_96_0).WholeWords (EltTy.packing .bf16)
  inb_S192x512_S32x512_128_0 : ∀ a, (![128, 0] : Fin 2 → Nat) a + S32x512.size a ≤ S192x512.size a
  packedbf16_S192x512_S32x512_128_0 : (Rect.unit (s := S192x512) ![128, 0] S32x512.size inb_S192x512_S32x512_128_0).PackedRows (EltTy.packing .bf16)
  inb_S6_S1_4 : ∀ a, (![4] : Fin 1 → Nat) a + S1.size a ≤ S6.size a
  wordsbf16_S192x512_S32x512_128_0 : (Rect.unit (s := S192x512) ![128, 0] S32x512.size inb_S192x512_S32x512_128_0).WholeWords (EltTy.packing .bf16)
  inb_S192x512_S32x512_160_0 : ∀ a, (![160, 0] : Fin 2 → Nat) a + S32x512.size a ≤ S192x512.size a
  packedbf16_S192x512_S32x512_160_0 : (Rect.unit (s := S192x512) ![160, 0] S32x512.size inb_S192x512_S32x512_160_0).PackedRows (EltTy.packing .bf16)
  inb_S6_S1_5 : ∀ a, (![5] : Fin 1 → Nat) a + S1.size a ≤ S6.size a
  wordsbf16_S192x512_S32x512_160_0 : (Rect.unit (s := S192x512) ![160, 0] S32x512.size inb_S192x512_S32x512_160_0).WholeWords (EltTy.packing .bf16)
  hcc0_scratch4 : 2 + S8.numel ≤ 30
  hcc0_scratch5 : 10 + S8.numel ≤ 30
  hcc0_scratch6 : 18 + S6.numel ≤ 30
  hcc0_scratch7 : 24 + S6.numel ≤ 30
  k0_dev1_lt : ∀ d0 : Dev nD, (k0_dev1 d0) < nD
  k0_dev2_lt : ∀ d0 : Dev nD, (k0_dev2 d0) < nD
  k0_off1_inb : ∀ d0 : Dev nD, ∀ (r : Fin 6), ∀ a, (k0_off1 d0 (BitVec.ofNat 32 (32 * r.val))) a + S32x512.size a ≤ S512x512.size a
  k0_off2_inb : ∀ d0 : Dev nD, ∀ (r : Fin 6), ∀ a, (k0_off2 d0 (BitVec.ofNat 32 (32 * r.val))) a + S32x512.size a ≤ S320x512.size a
  k0_off2_packedbf16 : ∀ d0 : Dev nD, ∀ (r : Fin 6), (Rect.unit (s := S320x512) (k0_off2 d0 (BitVec.ofNat 32 (32 * r.val))) S32x512.size (k0_off2_inb d0 r)).PackedRows (EltTy.packing .bf16)
  k0_off3_inb : ∀ d0 : Dev nD, ∀ (r : Fin 2), ∀ a, (k0_off3 d0 (BitVec.ofNat 32 (64 * r.val))) a + S64x512.size a ≤ S512x512.size a
  k0_off4_inb : ∀ d0 : Dev nD, ∀ (r : Fin 2), ∀ a, (k0_off4 d0 (BitVec.ofNat 32 (64 * r.val))) a + S64x512.size a ≤ S320x512.size a
  k0_off4_packedbf16 : ∀ d0 : Dev nD, ∀ (r : Fin 2), (Rect.unit (s := S320x512) (k0_off4 d0 (BitVec.ofNat 32 (64 * r.val))) S64x512.size (k0_off4_inb d0 r)).PackedRows (EltTy.packing .bf16)
  k0_off5_inb : ∀ d0 : Dev nD, ∀ (r : Fin 6), ∀ a, (k0_off5 d0 (BitVec.ofNat 32 (32 * r.val))) a + S32x512.size a ≤ S320x512.size a
  k0_off5_wordsbf16 : ∀ d0 : Dev nD, ∀ (r : Fin 6), (Rect.unit (s := S320x512) (k0_off5 d0 (BitVec.ofNat 32 (32 * r.val))) S32x512.size (k0_off5_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off6_inb : ∀ d0 : Dev nD, ∀ (r : Fin 2), ∀ a, (k0_off6 d0 (BitVec.ofNat 32 (64 * r.val))) a + S64x512.size a ≤ S320x512.size a
  k0_off6_wordsbf16 : ∀ d0 : Dev nD, ∀ (r : Fin 2), (Rect.unit (s := S320x512) (k0_off6 d0 (BitVec.ofNat 32 (64 * r.val))) S64x512.size (k0_off6_inb d0 r)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off1_packedbf16 : ∀ d0 : Dev nD, ∀ (r : Fin 6), (Rect.unit (s := S512x512) (k0_off1 d0 (BitVec.ofNat 32 (32 * r.val))) S32x512.size (k0_off1_inb d0 r)).PackedRows (EltTy.packing .bf16)
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_off3_packedbf16 : ∀ d0 : Dev nD, ∀ (r : Fin 2), (Rect.unit (s := S512x512) (k0_off3 d0 (BitVec.ofNat 32 (64 * r.val))) S64x512.size (k0_off3_inb d0 r)).PackedRows (EltTy.packing .bf16)
  k0_off7_inb : ∀ d0 : Dev nD, ∀ (r : Fin 6), ∀ a, (k0_off7 d0 (BitVec.ofNat 32 (32 * r.val))) a + S32x512.size a ≤ S512x512.size a
  k0_off7_packedbf16 : ∀ d0 : Dev nD, ∀ (r : Fin 6), (Rect.unit (s := S512x512) (k0_off7 d0 (BitVec.ofNat 32 (32 * r.val))) S32x512.size (k0_off7_inb d0 r)).PackedRows (EltTy.packing .bf16)
  hstage0_0 : ∀ j, (stage0_0 j).IsWhole
  hstage0_1 : ∀ j, (stage0_1 j).IsWhole

variable [Facts₀]

abbrev cc0_scratch4 : DmaSems sig S8 := SemArray.consecutive 2 S8 hcc0_scratch4
abbrev cc0_scratch5 : DmaSems sig S8 := SemArray.consecutive 10 S8 hcc0_scratch5
abbrev cc0_scratch6 : DmaSems sig S6 := SemArray.consecutive 18 S6 hcc0_scratch6
abbrev cc0_scratch7 : DmaSems sig S6 := SemArray.consecutive 24 S6 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S1024x512_S2x512x512 : S1024x512.ShapeCasts S2x512x512
  reducesTo_S2x512x512_S512x512_d0 : S2x512x512.ReducesTo [0] S512x512
  h_S_ : 0 < S_.numel
  bitsLt_bf16_f32 : FTy.bits .bf16 < FTy.bits .f32

variable [Facts₀]

class Facts : Prop extends Facts₀ where

variable [Facts]
-- ==== Proof.Mesh.lean ====
/-
  The 2 x 2 mesh as the kernel sees it. Device `c` has coordinates `(c / 2, c % 2)`. Its partner along the second
  axis, `yp c`, holds the OTHER block of the whole input; its partner along the first axis, `xp c`, holds the SAME
  block. Both maps are involutions, and they commute.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two partners of a device -/

def yp (c : Dev nD) : Dev nD := ⟨(2 * (c.val / 2) + 1) - c.val % 2, by revert c; decide⟩
def xp (c : Dev nD) : Dev nD := ⟨(c.val % 2 + 2) - 2 * (c.val / 2), by revert c; decide⟩

theorem yp_yp (c : Dev nD) : yp (yp c) = c := by revert c; decide
theorem xp_xp (c : Dev nD) : xp (xp c) = c := by revert c; decide
theorem yp_xp (c : Dev nD) : yp (xp c) = xp (yp c) := by revert c; decide
theorem yp_ne (c : Dev nD) : yp c ≠ c := by revert c; decide
theorem xp_ne (c : Dev nD) : xp c ≠ c := by revert c; decide
theorem yp_ne_xp (c : Dev nD) : yp c ≠ xp c := by revert c; decide
/-- The first mesh coordinate is shared with the partner along the second axis, and flipped by the other. -/
theorem yp_row (c : Dev nD) : (yp c).val / 2 = c.val / 2 := by revert c; decide
theorem xp_row (c : Dev nD) : (xp c).val / 2 = 1 - c.val / 2 := by revert c; decide
theorem row_le (c : Dev nD) : c.val / 2 ≤ 1 := by revert c; decide

def ypE : Dev nD ≃ Dev nD := ⟨yp, yp, yp_yp, yp_yp⟩
def xpE : Dev nD ≃ Dev nD := ⟨xp, xp, xp_xp, xp_xp⟩

/-- The printed device chains: the first signal and the eight transfers of the first exchange name `yp c`, the
    second signal and the six transfers of the second exchange name `xp c`. -/
theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = xp c := Fin.ext (k0_dev11_eq c)
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = xp c := Fin.ext (k0_dev13_eq c)
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = xp c := Fin.ext (k0_dev15_eq c)
theorem dev16_eq (c : Dev nD) : (⟨k0_dev16 c, k0_dev16_lt c⟩ : Dev nD) = xp c := Fin.ext (k0_dev16_eq c)

end Cert.KernelIdeal.AllReduce

end
-- ==== Proof.Proto.lean ====
/-
  The exchange protocol of the two-stage sum over a 2 x 2 mesh, and what every buffer holds.

  Device `c` casts its block of the input to bf16; the rows `192·(c/2) … 192·(c/2)+320` of that are its SEND buffer. The
  first exchange swaps send buffers between the partners along the second axis, eight row chunks each on its own pair of
  DMA semaphores (six of 32 rows, two of 64). Both partners then hold, for those 320 rows, the sum of the two blocks. 192
  of those rows (the six 32-row chunks) are forwarded, chunk by chunk, to the partner along the first axis, which owns
  the complementary 320 rows; the forwarded rows fill the 192 rows a device does not compute itself. Every device ends
  with all 512 rows of the sum.

  Semaphores as cells: the runtime's barrier semaphore (two duties of one unit: one from each partner, each handing
  over the partner's receive buffer) and 28 DMA semaphores of one duty each: a send cell gives the sender its source
  rows back (it lent them at half share), a receive cell gives the receiver the rows as landed.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy (duties `Unit`) and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Buffers, row chunks, semaphores, cells -/

abbrev xM : Memref sig .tc .vmem S512x512 .f32 := Memref.whole cc0_stg0_0
abbrev oM : Memref sig .tc .vmem S512x512 .bf16 := Memref.whole cc0_stg1_0
abbrev ysM : Memref sig .tc .vmem S320x512 .bf16 := Memref.whole cc0_scratch0
abbrev yrM : Memref sig .tc .vmem S320x512 .bf16 := Memref.whole cc0_scratch1
abbrev rdM : Memref sig .tc .vmem S192x512 .bf16 := Memref.whole cc0_scratch2
abbrev xrM : Memref sig .tc .vmem S192x512 .bf16 := Memref.whole cc0_scratch3

/-- The six 32-row chunks and the two 64-row chunks of the 320 exchanged rows, as the program computes their offsets. -/
abbrev rA (c : Dev nD) (k : Fin 6) : Rect S320x512 :=
  Rect.unit (s := S320x512) (k0_off5 c (BitVec.ofNat 32 (32 * k.val))) S32x512.size (k0_off5_inb c k)
abbrev rB (c : Dev nD) (k : Fin 2) : Rect S320x512 :=
  Rect.unit (s := S320x512) (k0_off6 c (BitVec.ofNat 32 (64 * k.val))) S64x512.size (k0_off6_inb c k)

theorem inbR : ∀ (k : Fin 6), ∀ a, (![32 * k.val, 0] : Fin 2 → Nat) a + S32x512.size a ≤ S192x512.size a := by decide
/-- The six 32-row chunks of the 192 forwarded rows. -/
abbrev rR (k : Fin 6) : Rect S192x512 := Rect.unit (s := S192x512) ![32 * k.val, 0] S32x512.size (inbR k)

abbrev ysA (c : Dev nD) (k : Fin 6) : Memref sig .tc .vmem S32x512 .bf16 := ysM.slice (rA c k) (fun _ => rfl)
abbrev ysB (c : Dev nD) (k : Fin 2) : Memref sig .tc .vmem S64x512 .bf16 := ysM.slice (rB c k) (fun _ => rfl)
abbrev yrA (c : Dev nD) (k : Fin 6) : Memref sig .tc .vmem S32x512 .bf16 := yrM.slice (rA c k) (fun _ => rfl)
abbrev yrB (c : Dev nD) (k : Fin 2) : Memref sig .tc .vmem S64x512 .bf16 := yrM.slice (rB c k) (fun _ => rfl)
abbrev rdC (k : Fin 6) : Memref sig .tc .vmem S32x512 .bf16 := rdM.slice (rR k) (fun _ => rfl)
abbrev xrC (k : Fin 6) : Memref sig .tc .vmem S32x512 .bf16 := xrM.slice (rR k) (fun _ => rfl)

/-- The runtime's barrier semaphore of collective id 0 (not scoped to the launch). -/
abbrev barS : Sem sig := (SemArray.scalar (sig.barrier 0 rfl) : Sems sig S_).sem
/-- The 28 DMA semaphores of the kernel: send and receive of the first exchange (8 + 8), of the second (6 + 6). -/
abbrev ysS (k : Fin 8) : DmaSem sig := ⟨2 + k.val, Nat.lt_of_lt_of_le (Nat.add_lt_add_left k.isLt 2) (by decide)⟩
abbrev yrS (k : Fin 8) : DmaSem sig := ⟨10 + k.val, Nat.lt_of_lt_of_le (Nat.add_lt_add_left k.isLt 10) (by decide)⟩
abbrev xsS (k : Fin 6) : DmaSem sig := ⟨18 + k.val, Nat.lt_of_lt_of_le (Nat.add_lt_add_left k.isLt 18) (by decide)⟩
abbrev xrS (k : Fin 6) : DmaSem sig := ⟨24 + k.val, Nat.lt_of_lt_of_le (Nat.add_lt_add_left k.isLt 24) (by decide)⟩

/-- The same semaphores by chunk family: the six 32-row chunks (A) and the two 64-row chunks (B) of the first exchange. -/
abbrev ysSA (k : Fin 6) : DmaSem sig := ysS ⟨k.val, Nat.lt_of_lt_of_le k.isLt (by decide)⟩
abbrev ysSB (k : Fin 2) : DmaSem sig := ysS ⟨6 + k.val, Nat.lt_of_lt_of_le (Nat.add_lt_add_left k.isLt 6) (by decide)⟩
abbrev yrSA (k : Fin 6) : DmaSem sig := yrS ⟨k.val, Nat.lt_of_lt_of_le k.isLt (by decide)⟩
abbrev yrSB (k : Fin 2) : DmaSem sig := yrS ⟨6 + k.val, Nat.lt_of_lt_of_le (Nat.add_lt_add_left k.isLt 6) (by decide)⟩

abbrev barCell (c : Dev nD) : GSem nD τ sig := ((c : Thread nD τ), .reg barS)
abbrev dCell (c : Dev nD) (q : DmaSem sig) : GSem nD τ sig := ((c : Thread nD τ), .dma q)

/-- A chunk's credit on a DMA semaphore: by chunk size and receiving buffer. -/
abbrev NyA : ℕ := (yrA (0 : Dev nD) 0).view.dmaCredit
abbrev NyB : ℕ := (yrB (0 : Dev nD) 0).view.dmaCredit
abbrev NxA : ℕ := (xrC 0).view.dmaCredit
theorem NyA_pos : 0 < NyA := View.dmaCredit_pos _ (by decide)
theorem NyB_pos : 0 < NyB := View.dmaCredit_pos _ (by decide)
theorem NxA_pos : 0 < NxA := View.dmaCredit_pos _ (by decide)

/-! ## What the buffers hold -/

/-- Device `c`'s block of the input, as staged. -/
def xblk (c : Dev nD) : (cc0_stg0_0 : Ref sig .tc).ty.Contents (Elt F) :=
  (win0_0.blk (0 : Fin 1)).view.read (Elt F) (m ((c : Thread nD τ).loc main_arg0))
/-- The block cast to bf16. -/
def Tx (c : Dev nD) : FVec F S512x512 .bf16 := truncf .bf16 (xblk m c) bitsLt_bf16_f32
/-- The sum of the two blocks as device `c` forms it: its own first. -/
def Sm (c : Dev nD) : FVec F S512x512 .bf16 := addf (Tx m c) (Tx m (yp c))

theorem inbY (c : Dev nD) : ∀ a, (![192 * (c.val / 2), 0] : Fin 2 → Nat) a + S320x512.size a ≤ S512x512.size a := by revert c; decide
theorem inbF (c : Dev nD) : ∀ a, (![320 * (c.val / 2), 0] : Fin 2 → Nat) a + S192x512.size a ≤ S512x512.size a := by revert c; decide
/-- The 320 rows device `c` exchanges, and the 192 of them it forwards, as windows of the block. -/
abbrev wY (c : Dev nD) : Rect S512x512 := Rect.unit (s := S512x512) ![192 * (c.val / 2), 0] S320x512.size (inbY c)
abbrev wF (c : Dev nD) : Rect S512x512 := Rect.unit (s := S512x512) ![320 * (c.val / 2), 0] S192x512.size (inbF c)

/-- The send buffer: rows `192·(c/2) + r` of the cast block. -/
def YS (c : Dev nD) : (cc0_scratch0 : Ref sig .tc).ty.Contents (Elt F) := fun i => Tx m c ((wY c).emb i)
/-- The receive buffer of the first exchange once every chunk has landed: the partner's send buffer. -/
def YR (c : Dev nD) : (cc0_scratch1 : Ref sig .tc).ty.Contents (Elt F) := fun i => Tx m (yp c) ((wY c).emb i)
/-- The forwarded rows: rows `320·(c/2) + r` of the sum. -/
def RD (c : Dev nD) : (cc0_scratch2 : Ref sig .tc).ty.Contents (Elt F) := fun i => Sm m c ((wF c).emb i)
/-- The receive buffer of the second exchange once every chunk has landed: the other partner's forwarded rows. -/
def XR (c : Dev nD) : (cc0_scratch3 : Ref sig .tc).ty.Contents (Elt F) := fun i => Sm m (xp c) ((wF (xp c)).emb i)
/-- The result block: the device's own sum on the 320 rows it exchanged, its partner's on the other 192. -/
def OUT (c : Dev nD) : (cc0_stg1_0 : Ref sig .tc).ty.Contents (Elt F) := fun i =>
  if 192 * (c.val / 2) ≤ (i 0).val ∧ (i 0).val < 192 * (c.val / 2) + 320 then Sm m c i else Sm m (xp c) i

/-! ## The payloads -/

abbrev hs : PosShare TreeShare := fullShare.left

/-- A send cell returns the source rows lent at half share. -/
def pYsA (c : Dev nD) (k : Fin 6) : sProp 𝕄 := (ysA c k).view.loc (c : Thread nD τ) ↦[(ysA c k).view.set]{hs} YS m c
def pYsB (c : Dev nD) (k : Fin 2) : sProp 𝕄 := (ysB c k).view.loc (c : Thread nD τ) ↦[(ysB c k).view.set]{hs} YS m c
def pXs (c : Dev nD) (k : Fin 6) : sProp 𝕄 := (rdC k).view.loc (c : Thread nD τ) ↦[(rdC k).view.set]{hs} RD m c
/-- A receive cell hands over the landed rows. -/
def pYrA (c : Dev nD) (k : Fin 6) : sProp 𝕄 := (yrA c k).view.loc (c : Thread nD τ) ↦[(yrA c k).view.set]{fullShare} YR m c
def pYrB (c : Dev nD) (k : Fin 2) : sProp 𝕄 := (yrB c k).view.loc (c : Thread nD τ) ↦[(yrB c k).view.set]{fullShare} YR m c
def pXr (c : Dev nD) (k : Fin 6) : sProp 𝕄 := (xrC k).view.loc (c : Thread nD τ) ↦[(xrC k).view.set]{fullShare} XR m c
/-- The barrier's two units: from `yp c` its first receive buffer, from `xp c` its second. -/
def pBarY (c : Dev nD) : sProp 𝕄 := iprop(∃ f, (yrM : Memref sig .tc .vmem S320x512 .bf16).view.loc (yp c : Thread nD τ) ↦{fullShare} f)
def pBarX (c : Dev nD) : sProp 𝕄 := iprop(∃ f, (xrM : Memref sig .tc .vmem S192x512 .bf16).view.loc (xp c : Thread nD τ) ↦{fullShare} f)

/-- The payload of DMA cell `q` of device `c`. -/
def dmaPay (c : Dev nD) (q : ℕ) : sProp 𝕄 :=
  match q with
  | 2 => pYsA m c 0 | 3 => pYsA m c 1 | 4 => pYsA m c 2 | 5 => pYsA m c 3 | 6 => pYsA m c 4 | 7 => pYsA m c 5
  | 8 => pYsB m c 0 | 9 => pYsB m c 1
  | 10 => pYrA m c 0 | 11 => pYrA m c 1 | 12 => pYrA m c 2 | 13 => pYrA m c 3 | 14 => pYrA m c 4 | 15 => pYrA m c 5
  | 16 => pYrB m c 0 | 17 => pYrB m c 1
  | 18 => pXs m c 0 | 19 => pXs m c 1 | 20 => pXs m c 2 | 21 => pXs m c 3 | 22 => pXs m c 4 | 23 => pXs m c 5
  | 24 => pXr m c 0 | 25 => pXr m c 1 | 26 => pXr m c 2 | 27 => pXr m c 3 | 28 => pXr m c 4 | 29 => pXr m c 5
  | _ => iprop(emp)

/-- The credit of DMA cell `q`. -/
def dmaAmt (q : ℕ) : ℕ :=
  if q < 2 then 1 else if q < 8 then NyA else if q < 10 then NyB else if q < 16 then NyA else if q < 18 then NyB else NxA

theorem dmaAmt_pos (q : ℕ) : 0 < dmaAmt q := by
  unfold dmaAmt; split_ifs <;> first | exact Nat.one_pos | exact NyA_pos | exact NyB_pos | exact NxA_pos

/-! ## The schedule: one round -/

def sched : Rounds.Schedule (GSem nD τ sig) Bool 𝕄 where
  duties g r :=
    if r = 0 ∧ g.1.2 = .tc then
      (match g.2 with
        | .reg s => if s = barS then Finset.univ else ∅
        | .dma q => if 2 ≤ q.val then {false} else ∅)
    else ∅
  unitless _ := False
  amount g _ _ := match g.2 with | .reg _ => 1 | .dma q => dmaAmt q.val
  payload g _ d := match g.2 with
    | .reg _ => if d then pBarX g.1.1 else pBarY g.1.1
    | .dma q => dmaPay m g.1.1 q.val
  amount_pos g _ _ _ := by
    rcases g with ⟨t, (s | q)⟩
    · exact Nat.one_pos
    · exact dmaAmt_pos _

instance sched_payload_storable (g : GSem nD τ sig) (r : ℕ) (d : Bool) :
    BI.Storable (upEmb : UEmb _ 𝕄) ((sched (F := F) m).payload g r d) := by
  rcases g with ⟨t, (s | q)⟩
  · show BI.Storable upEmb (if d then pBarX t.1 else pBarY t.1)
    unfold pBarX pBarY; split <;> infer_instance
  · show BI.Storable upEmb (dmaPay m t.1 q.val)
    unfold dmaPay pYsA pYsB pXs pYrA pYrB pXr
    split <;> infer_instance

end Cert.KernelIdeal.AllReduce

end
-- ==== Proof.Sched.lean ====
/-
  The schedule's tables read cell by cell, what each device owes at launch and in which order it pays, the levels that
  order the waits (staging and send cells lowest, then the barrier, then the first exchange's receive cells, then the
  second's: a device waits on a cell only while everything it still owes lies strictly above it), the ghost state a
  device's kernel starts from, and the staging pipeline's proof data.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

section Tables
variable (c : Dev nD)

theorem duties_bar : (sched (F := F) m).duties (barCell c) 0 = Finset.univ := by
  dsimp only [sched]; rw [if_pos ⟨rfl, rfl⟩]; exact if_pos rfl
theorem duties_dma (q : DmaSem sig) (hq : 2 ≤ q.val) : (sched (F := F) m).duties (dCell c q) 0 = {false} := by
  dsimp only [sched]; rw [if_pos ⟨rfl, rfl⟩]; exact if_pos hq
theorem duties_later (g : GSem nD τ sig) : ∀ r, 1 ≤ r → (sched (F := F) m).duties g r = ∅ :=
  fun r hr => by dsimp only [sched]; exact if_neg fun h => by omega
theorem amount_bar (d : Bool) : (sched (F := F) m).amount (barCell c) 0 d = 1 := rfl
theorem amount_dma (q : DmaSem sig) (d : Bool) : (sched (F := F) m).amount (dCell c q) 0 d = dmaAmt q.val := rfl
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (hq : 2 ≤ q.val) : (sched (F := F) m).expect (dCell c q) 0 = dmaAmt q.val := by
  unfold Schedule.expect Schedule.amountOf; rw [duties_dma m c q hq, Finset.sum_singleton, amount_dma]
theorem payload_bar_true : (sched (F := F) m).payload (barCell c) 0 true = pBarX c := by dsimp only [sched]; exact if_pos rfl
theorem payload_bar_false : (sched (F := F) m).payload (barCell c) 0 false = pBarY c := by dsimp only [sched]; exact if_neg Bool.false_ne_true
theorem payload_dma (q : DmaSem sig) (d : Bool) : (sched (F := F) m).payload (dCell c q) 0 d = dmaPay m c q.val := rfl

end Tables

/-! ## What a device owes at launch, in the order it pays: last summand first -/

/-- The six forwarded chunks' arrivals at `xp c`. -/
def owedX (c : Dev nD) : CellTallies nD τ sig Unit :=
    tallyAt (dCell (xp c) (xrS 5)) () NxA
    + tallyAt (dCell (xp c) (xrS 4)) () NxA
    + tallyAt (dCell (xp c) (xrS 3)) () NxA
    + tallyAt (dCell (xp c) (xrS 2)) () NxA
    + tallyAt (dCell (xp c) (xrS 1)) () NxA
    + tallyAt (dCell (xp c) (xrS 0)) () NxA
/-- Beside them, the eight exchanged chunks' arrivals at `yp c`. -/
def owedY (c : Dev nD) : CellTallies nD τ sig Unit :=
  owedX c
    + tallyAt (dCell (yp c) (yrS 7)) () NyB
    + tallyAt (dCell (yp c) (yrS 6)) () NyB
    + tallyAt (dCell (yp c) (yrS 5)) () NyA
    + tallyAt (dCell (yp c) (yrS 4)) () NyA
    + tallyAt (dCell (yp c) (yrS 3)) () NyA
    + tallyAt (dCell (yp c) (yrS 2)) () NyA
    + tallyAt (dCell (yp c) (yrS 1)) () NyA
    + tallyAt (dCell (yp c) (yrS 0)) () NyA
def O₁ (c : Dev nD) : CellTallies nD τ sig Unit := owedY c + tallyAt (barCell (xp c)) () 1
def O₀ (c : Dev nD) : CellTallies nD τ sig Unit := O₁ c + tallyAt (barCell (yp c)) () 1

/-! ## Levels -/

def L (g : GSem nD τ sig) : Finset Unit := if g.1.2 = .tc then {()} else ∅
def lv (g : GSem nD τ sig) (_ : Unit) : ℕ :=
  match g.2 with
  | .reg _ => 1
  | .dma q => if q.val < 10 then 0 else if q.val < 18 then 2 else if q.val < 24 then 0 else 3

theorem L_of_ne (g : GSem nD τ sig) (h : g.1.2 ≠ .tc) : L g = ∅ := if_neg h
theorem L_tc (c : Dev nD) (sm : SemLoc sig) : L ((c : Thread nD τ), sm) = {()} := if_pos rfl

/-- A tally all of whose cells lie on TensorCores at a level above `n`. -/
def Above (n : ℕ) (O : CellTallies nD τ sig Unit) : Prop := ∀ (g : GSem nD τ sig) (u : Unit), 0 < O g u → u ∈ L g ∧ n < lv g u

theorem above_zero (n : ℕ) : Above n (0 : CellTallies nD τ sig Unit) := fun g u h => absurd h (Nat.lt_irrefl 0)
theorem above_add {n : ℕ} {A B : CellTallies nD τ sig Unit} (hA : Above n A) (hB : Above n B) : Above n (A + B) :=
  fun g u h => (Pipeline.add_pos_cases h).elim (hA g u) (hB g u)
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨by rw [L_tc]; exact Finset.mem_singleton_self _, h⟩
  · rw [if_neg e] at hg; exact absurd hg (Nat.lt_irrefl 0)
theorem above_mono {n n' : ℕ} (h : n' ≤ n) {O : CellTallies nD τ sig Unit} (hO : Above n O) : Above n' O :=
  fun g u hg => ⟨(hO g u hg).1, Nat.lt_of_le_of_lt h (hO g u hg).2⟩

theorem above_owedX (c : Dev nD) : Above 2 (owedX c) := by
  unfold owedX
  repeat' apply above_add
  all_goals exact above_tally _ _ _ (by dsimp only [lv]; decide)
theorem above_owedY (c : Dev nD) : Above 1 (owedY c) := by
  have hX : Above 1 (owedX c) := above_mono (n := 2) (n' := 1) (by decide) (above_owedX c)
  unfold owedY
  generalize owedX c = X at hX ⊢
  repeat' apply above_add
  · exact hX
  all_goals exact above_tally _ _ _ (by dsimp only [lv]; decide)
theorem above_O₀ (c : Dev nD) : Above 0 (O₀ c) := by
  have hY : Above 0 (owedY c) := above_mono (n := 1) (n' := 0) (by decide) (above_owedY c)
  unfold O₀ O₁
  generalize owedY c = Y at hY ⊢
  repeat' apply above_add
  · exact hY
  all_goals exact above_tally _ _ _ (by dsimp only [lv]; decide)

/-- The wait evidence: a device may wait on one of its cells while all it owes lies above that cell's level. -/
theorem mayWait_above (c : Dev nD) (sm : SemLoc sig) (O : CellTallies nD τ sig Unit) (hO : Above (lv ((c : Thread nD τ), sm) ()) O) :
    (levAts L lv : sProp 𝕄) ⊢ MayWait (c : Thread nD τ) sm () O :=
  Pipeline.mayWait_of_levAts (by rw [L_tc]; exact Finset.mem_singleton_self _) hO

/-! ## The cells of a device, indexed; the ghost state it starts from -/

/-- Cell 0 is the barrier's, cell `j + 1` the DMA semaphore `j + 2`. -/
abbrev csem (j : Fin 29) : SemLoc sig :=
  if j.val = 0 then .reg barS else .dma ⟨j.val + 1, Nat.lt_of_lt_of_le (Nat.add_lt_add_right j.isLt 1) (by decide)⟩
abbrev kcell (cj : Dev nD × Fin 29) : GSem nD τ sig := ((cj.1 : Thread nD τ), csem cj.2)

/-- Every cell's invariant under the names the launch allocated them at, and that every cell's round 0 is reached. -/
def records (K : Dev nD × Fin 29 → ℕ) : sProp 𝕄 :=
  iprop((bigSep Finset.univ fun cj : Dev nD × Fin 29 => cellInv ER (sched m) (K cj) (kcell cj))
    ∗ bigSep Finset.univ fun cj : Dev nD × Fin 29 => reached ER (kcell cj) 0)

instance records_persistent (K : Dev nD × Fin 29 → ℕ) : BI.Persistent (records m K) := by unfold records; infer_instance

/-- A device's positions on its own cells. -/
def ownPos (c : Dev nD) : sProp 𝕄 := bigSep Finset.univ fun j : Fin 29 => atPos ER (kcell (c, j)) 0 ∅ 0
/-- The tokens of the duties a device pays: a unit on each partner's barrier, its own send cells, its partners' receive cells. -/
def payToks (c : Dev nD) : sProp 𝕄 :=
  iprop(dutyTok ER (barCell (yp c)) 0 false ∗ dutyTok ER (barCell (xp c)) 0 true
    ∗ (bigSep Finset.univ fun k : Fin 8 => dutyTok ER (dCell c (ysS k)) 0 false)
    ∗ (bigSep Finset.univ fun k : Fin 8 => dutyTok ER (dCell (yp c) (yrS k)) 0 false)
    ∗ (bigSep Finset.univ fun k : Fin 6 => dutyTok ER (dCell c (xsS k)) 0 false)
    ∗ (bigSep Finset.univ fun k : Fin 6 => dutyTok ER (dCell (xp c) (xrS k)) 0 false))
def ghost (K : Dev nD × Fin 29 → ℕ) (c : Dev nD) : sProp 𝕄 := iprop(records m K ∗ ownPos c ∗ payToks c)

/-- The credit a device is dealt at launch for what its partners owe its cells. -/
def creds (c : Dev nD) : sProp 𝕄 :=
  iprop(cred (tallyAt (barCell c) () 2)
    ∗ (bigSep Finset.univ fun k : Fin 8 => cred (tallyAt (dCell c (yrS k)) () (dmaAmt (10 + k.val))))
    ∗ (bigSep Finset.univ fun k : Fin 6 => cred (tallyAt (dCell c (xrS k)) () NxA)))

def start (c : Dev nD) : sProp 𝕄 := iprop((∃ K, ghost m K c) ∗ creds c ∗ levAts L lv)

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch c)
/-- After the point: the scratch buffers back, the 28 own DMA cells closed at zero. -/
def Φ₁ (c : Dev nD) : sProp 𝕄 :=
  iprop(scratch c ∗ bigSep Finset.univ fun j : Fin 28 => semVal (dCell c ⟨j.val + 2, Nat.lt_of_lt_of_le (Nat.add_lt_add_right j.isLt 2) (by decide)⟩) 0)

/-! ## Reading one cell's invariant and its reached round off the records -/

theorem inv_at (K : Dev nD × Fin 29 → ℕ) (cj : Dev nD × Fin 29) : records m K ⊢ cellInv ER (sched m) (K cj) (kcell cj) := by
  unfold records
  exact (Laws.sep_and.trans and_elimL).trans (bigSep_elim (Finset.mem_univ cj))
theorem reached_at (K : Dev nD × Fin 29 → ℕ) (cj : Dev nD × Fin 29) : records m K ⊢ reached ER (kcell cj) 0 := by
  unfold records
  exact (Laws.sep_and.trans and_elimR).trans (bigSep_elim (Finset.mem_univ cj))

/-! ## The staging pipeline's proof data: the input block fetched, the result block written back -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m c
    | ⟨1, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.AllReduce

end
-- ==== Proof.Steps.lean ====
/-
  One step of the protocol at a time, at a symbolic device and a symbolic chunk: a wait on one of the device's own DMA
  cells for its whole round (it returns the cell's payload: source rows lent, or rows landed), the closing of such a
  cell after its round, and the two barrier signals and the barrier wait.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rest of a DMA cell's one round, nothing taken yet, is its payload; the barrier's is both partners' buffers. -/
theorem rest_dma (c : Dev nD) (q : DmaSem sig) (hq : 2 ≤ q.val) :
    bigSep ((sched (F := F) m).duties (dCell c q) 0 \ ∅) (fun d => (sched (F := F) m).payload (dCell c q) 0 d) = dmaPay m c q.val := by
  rw [Finset.sdiff_empty, duties_dma m c q hq, bigSep_singleton, payload_dma]
theorem rest_bar (c : Dev nD) :
    bigSep ((sched (F := F) m).duties (barCell c) 0 \ ∅) (fun d => (sched (F := F) m).payload (barCell c) 0 d) = iprop(pBarY (F := F) c ∗ pBarX c) := by
  rw [Finset.sdiff_empty, duties_bar, bigSep_univ_eq_bigSepL [false, true] (by decide) (by decide), bigSepL_cons_cons, bigSepL_singleton,
    payload_bar_false, payload_bar_true]
  rfl

/-- Waiting one of the device's own DMA cells for the whole of its one round, while everything the device still owes
    lies above the cell: the cell's payload comes back, and the cell stands at round 1. -/
theorem wait_dma (c : Dev nD) (q : DmaSem sig) (hq : 2 ≤ q.val) (κ : ℕ)
    {s : Shape} {e : EltTy} {src dst : Memref sig .tc .vmem s e} {hs : src.view.WordExact} {hd : dst.view.WordExact}
    (hamt : dst.view.dmaCredit = dmaAmt q.val)
    {α : Type} {Q : α → sProp 𝕄} {kont : PUnit → Prog (TpuEff nD τ sig (Elt F) Λ₀ .tc) α}
    (O : CellTallies nD τ sig Unit) (W : Waits sig Unit) (hO : Above (lv (dCell c q) ()) O) :
    iprop(cellInv ER (sched m) κ (dCell c q) ∗ cred (tallyAt (dCell c q) () (dmaAmt q.val)) ∗ owes (c : Thread nD τ) O W
        ∗ levAts L lv ∗ atPos ER (dCell c q) 0 ∅ 0)
      ⊢ iprop(((owes (c : Thread nD τ) O (insert (SemLoc.dma q, ()) W) ∗ atPos ER (dCell c q) 1 ∅ 0 ∗ reached ER (dCell c q) 1
              ∗ dmaPay m c q.val)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hs hd) kont) Q) := by
  iintro ⟨#HI, Hc, HO, #Hlev, Hat⟩ Hk
  iapply (Rounds.wp_wait_rest_token 𝒱₀ ER (sched m) (c : Thread nD τ) none (κ := κ)
      (wpE_waitDma2_eq 𝒱₀ (c : Thread nD τ) none Set.univ) (Set.mem_univ _) () (O := O) (W := W) (R := 0) (m := 0) (T := ∅)
      (by rw [Nat.zero_add, expect_dma m c q hq]; exact hamt)) $$ [Hc HO Hat]
  · isplitr; · iexact HI
    isplitl [Hc]; · rw [hamt]; iexact Hc
    isplitl [HO]; · iexact HO
    isplitr; · iapply (mayWait_above c (.dma q) O hO); iexact Hlev
    iexact Hat
  iintro ⟨HO, Hat, Hr, Hpay⟩
  ihave Hp := (Entails.of_eq (rest_dma m c q hq)) $$ Hpay
  iapply Hk
  isplitl [HO]; · iexact HO
  isplitl [Hat]; · iexact Hat
  isplitl [Hr]; · iexact Hr
  iexact Hp

/-- After its one round an own DMA cell closes: its counter, at zero, is the device's again. -/
theorem close_dma (c : Dev nD) (q : DmaSem sig) (κ : ℕ) :
    iprop(cellInv ER (sched m) κ (dCell c q) ∗ atPos ER (dCell c q) 1 ∅ 0) ⊢ (|={Set.univ}=> semVal (dCell c q) 0 : sProp 𝕄) := by
  iintro ⟨#HI, Hat⟩
  imod (Rounds.cell_close ER (sched m) (Set.mem_univ κ) (fun h => h) (R := 0 + 1) (duties_later m (dCell c q))) $$ [Hat] with Hz
  · isplitr; · iexact HI
    iexact Hat
  imodintro
  iexact Hz

/-! ## The transfers -/

/-- A 32-row chunk of the first exchange leaves for `yp c`: the source rows are lent at half share to the send cell, the
    destination rows (held outright, any contents) become the receiver's payload with the landed contents. -/
theorem send_yA (c n : Dev nD) (hn : n = yp c) (k : Fin 6) (κ₁ κ₂ : ℕ)
    {hsc : (yrA c k : Memref sig (Dev.tc n : Thread nD τ).2.kind .vmem S32x512 .bf16).view.ref.isScScratch = false}
    {hsrc : (ysA c k).view.WordExact} {hdst : (yrA c k).view.WordExact}
    {hsem : DmaTarget.Typed .vmem (.dma (yrSA k)) (.remote (Dev.tc n : Thread nD τ) (yrA c k) (.dma (ysSA k)) hsc)}
    {α : Type} {Q : α → sProp 𝕄} {kont : PUnit → Prog (TpuEff nD τ sig (Elt F) Λ₀ .tc) α}
    (fd : Buf (Elt F) ((yrA c k).view.loc (yp c : Thread nD τ)))
    (hland : (((yrA c k).view.loc (yp c : Thread nD τ) ↦[(yrA c k).view.set]{fullShare}
        ((yrA c k).view.write (Elt F) fd ((ysA c k).view.read (Elt F) (YS m c)) Finset.univ)) : sProp 𝕄) = pYrA m (yp c) k)
    (O : CellTallies nD τ sig Unit) (W : Waits sig Unit) :
    iprop(cellInv ER (sched m) κ₁ (dCell c (ysSA k)) ∗ cellInv ER (sched m) κ₂ (dCell (yp c) (yrSA k))
        ∗ pYsA m c k ∗ ((yrA c k).view.loc (yp c : Thread nD τ) ↦[(yrA c k).view.set]{fullShare} fd)
        ∗ owes (c : Thread nD τ) (O + tallyAt (dCell (yp c) (yrSA k)) () NyA) W
        ∗ dutyTok ER (dCell c (ysSA k)) 0 false ∗ reached ER (dCell c (ysSA k)) 0
        ∗ dutyTok ER (dCell (yp c) (yrSA k)) 0 false ∗ reached ER (dCell (yp c) (yrSA k)) 0)
      ⊢ iprop(((cred (tallyAt (dCell c (ysSA k)) () NyA) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ysA c k) (.remote (Dev.tc n : Thread nD τ) (yrA c k) (.dma (ysSA k)) hsc) (.dma (yrSA k)) hsrc hdst hsem) kont) Q) := by
  subst hn
  unfold pYsA
  exact Rounds.wp_send_pointsTo 𝒱₀ ER (sched m) (c : Thread nD τ) none (κ₁ := κ₁) (κ₂ := κ₂)
    (r₁ := 0) (r₂ := 0) (d₁ := false) (d₂ := false) (fd := fd)
    (by rw [duties_dma m c _ (Nat.le_add_right 2 _)]; exact Finset.mem_singleton_self _)
    (by rw [duties_dma m (yp c) _ (Nat.le_trans (by decide) (Nat.le_add_right 10 _))]; exact Finset.mem_singleton_self _)
    () () NyA rfl
    (by rw [amount_dma]; fin_cases k <;> rfl) (by rw [amount_dma]; fin_cases k <;> rfl) O rfl (W := W)
    (by rw [payload_dma]; fin_cases k <;> exact BI.Entails.refl _)
    (by rw [payload_dma, hland]; fin_cases k <;> exact BI.Entails.refl _)

/-- A 64-row chunk of the first exchange. -/
theorem send_yB (c n : Dev nD) (hn : n = yp c) (k : Fin 2) (κ₁ κ₂ : ℕ)
    {hsc : (yrB c k : Memref sig (Dev.tc n : Thread nD τ).2.kind .vmem S64x512 .bf16).view.ref.isScScratch = false}
    {hsrc : (ysB c k).view.WordExact} {hdst : (yrB c k).view.WordExact}
    {hsem : DmaTarget.Typed .vmem (.dma (yrSB k)) (.remote (Dev.tc n : Thread nD τ) (yrB c k) (.dma (ysSB k)) hsc)}
    {α : Type} {Q : α → sProp 𝕄} {kont : PUnit → Prog (TpuEff nD τ sig (Elt F) Λ₀ .tc) α}
    (fd : Buf (Elt F) ((yrB c k).view.loc (yp c : Thread nD τ)))
    (hland : (((yrB c k).view.loc (yp c : Thread nD τ) ↦[(yrB c k).view.set]{fullShare}
        ((yrB c k).view.write (Elt F) fd ((ysB c k).view.read (Elt F) (YS m c)) Finset.univ)) : sProp 𝕄) = pYrB m (yp c) k)
    (O : CellTallies nD τ sig Unit) (W : Waits sig Unit) :
    iprop(cellInv ER (sched m) κ₁ (dCell c (ysSB k)) ∗ cellInv ER (sched m) κ₂ (dCell (yp c) (yrSB k))
        ∗ pYsB m c k ∗ ((yrB c k).view.loc (yp c : Thread nD τ) ↦[(yrB c k).view.set]{fullShare} fd)
        ∗ owes (c : Thread nD τ) (O + tallyAt (dCell (yp c) (yrSB k)) () NyB) W
        ∗ dutyTok ER (dCell c (ysSB k)) 0 false ∗ reached ER (dCell c (ysSB k)) 0
        ∗ dutyTok ER (dCell (yp c) (yrSB k)) 0 false ∗ reached ER (dCell (yp c) (yrSB k)) 0)
      ⊢ iprop(((cred (tallyAt (dCell c (ysSB k)) () NyB) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ysB c k) (.remote (Dev.tc n : Thread nD τ) (yrB c k) (.dma (ysSB k)) hsc) (.dma (yrSB k)) hsrc hdst hsem) kont) Q) := by
  subst hn
  unfold pYsB
  exact Rounds.wp_send_pointsTo 𝒱₀ ER (sched m) (c : Thread nD τ) none (κ₁ := κ₁) (κ₂ := κ₂)
    (r₁ := 0) (r₂ := 0) (d₁ := false) (d₂ := false) (fd := fd)
    (by rw [duties_dma m c _ (Nat.le_add_right 2 _)]; exact Finset.mem_singleton_self _)
    (by rw [duties_dma m (yp c) _ (Nat.le_trans (by decide) (Nat.le_add_right 10 _))]; exact Finset.mem_singleton_self _)
    () () NyB rfl
    (by rw [amount_dma]; fin_cases k <;> rfl) (by rw [amount_dma]; fin_cases k <;> rfl) O rfl (W := W)
    (by rw [payload_dma]; fin_cases k <;> exact BI.Entails.refl _)
    (by rw [payload_dma, hland]; fin_cases k <;> exact BI.Entails.refl _)

/-- A forwarded chunk leaves for `xp c`; the source rows need only AGREE with the forwarded rows on the chunk. -/
theorem send_x (c n : Dev nD) (hn : n = xp c) (k : Fin 6) (κ₁ κ₂ : ℕ)
    {hsc : (xrC k : Memref sig (Dev.tc n : Thread nD τ).2.kind .vmem S32x512 .bf16).view.ref.isScScratch = false}
    {hsrc : (rdC k).view.WordExact} {hdst : (xrC k).view.WordExact}
    {hsem : DmaTarget.Typed .vmem (.dma (xrS k)) (.remote (Dev.tc n : Thread nD τ) (xrC k) (.dma (xsS k)) hsc)}
    {α : Type} {Q : α → sProp 𝕄} {kont : PUnit → Prog (TpuEff nD τ sig (Elt F) Λ₀ .tc) α}
    (fd : Buf (Elt F) ((xrC k).view.loc (xp c : Thread nD τ)))
    (hland : (((xrC k).view.loc (xp c : Thread nD τ) ↦[(xrC k).view.set]{fullShare}
        ((xrC k).view.write (Elt F) fd ((rdC k).view.read (Elt F) (RD m c)) Finset.univ)) : sProp 𝕄) = pXr m (xp c) k)
    (O : CellTallies nD τ sig Unit) (W : Waits sig Unit) :
    iprop(cellInv ER (sched m) κ₁ (dCell c (xsS k)) ∗ cellInv ER (sched m) κ₂ (dCell (xp c) (xrS k))
        ∗ pXs m c k ∗ ((xrC k).view.loc (xp c : Thread nD τ) ↦[(xrC k).view.set]{fullShare} fd)
        ∗ owes (c : Thread nD τ) (O + tallyAt (dCell (xp c) (xrS k)) () NxA) W
        ∗ dutyTok ER (dCell c (xsS k)) 0 false ∗ reached ER (dCell c (xsS k)) 0
        ∗ dutyTok ER (dCell (xp c) (xrS k)) 0 false ∗ reached ER (dCell (xp c) (xrS k)) 0)
      ⊢ iprop(((cred (tallyAt (dCell c (xsS k)) () NxA) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rdC k) (.remote (Dev.tc n : Thread nD τ) (xrC k) (.dma (xsS k)) hsc) (.dma (xrS k)) hsrc hdst hsem) kont) Q) := by
  subst hn
  unfold pXs
  exact Rounds.wp_send_pointsTo 𝒱₀ ER (sched m) (c : Thread nD τ) none (κ₁ := κ₁) (κ₂ := κ₂)
    (r₁ := 0) (r₂ := 0) (d₁ := false) (d₂ := false) (fd := fd)
    (by rw [duties_dma m c _ (Nat.le_trans (by decide) (Nat.le_add_right 18 _))]; exact Finset.mem_singleton_self _)
    (by rw [duties_dma m (xp c) _ (Nat.le_trans (by decide) (Nat.le_add_right 24 _))]; exact Finset.mem_singleton_self _)
    () () NxA rfl
    (by rw [amount_dma]; fin_cases k <;> rfl) (by rw [amount_dma]; fin_cases k <;> rfl) O rfl (W := W)
    (by rw [payload_dma]; fin_cases k <;> exact BI.Entails.refl _)
    (by rw [payload_dma, hland]; fin_cases k <;> exact BI.Entails.refl _)

/-! ## The entry handshake -/

/-- The unit on `yp c`'s barrier: it hands `yp c` this device's first receive buffer. -/
theorem signal_y (c n : Dev nD) (hn : n = yp c) (κ : ℕ)
    {α : Type} {Q : α → sProp 𝕄} {kont : PUnit → Prog (TpuEff nD τ sig (Elt F) Λ₀ .tc) α}
    (f : Buf (Elt F) ((c : Thread nD τ).loc cc0_scratch1)) (O : CellTallies nD τ sig Unit) (W : Waits sig Unit) :
    iprop(cellInv ER (sched m) κ (barCell (yp c)) ∗ owes (c : Thread nD τ) (O + tallyAt (barCell (yp c)) () 1) W
        ∗ dutyTok ER (barCell (yp c)) 0 false ∗ (((c : Thread nD τ).loc cc0_scratch1) ↦{fullShare} f) ∗ reached ER (barCell (yp c)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  iintro ⟨#HI, HO, Ht, Hb, #Hr⟩
  iapply (Rounds.wp_signal 𝒱₀ ER (sched m) (c : Thread nD τ) none (dst := (yp c : Thread nD τ)) (κ := κ)
      (d := false) (by rw [duties_bar]; exact Finset.mem_univ _) (amount_bar m (yp c) false) () O rfl) $$ [HO Ht Hb]
  isplitr; · iexact HI
  isplitl [HO]; · iexact HO
  isplitl [Ht]; · iexact Ht
  isplitl [Hb]
  · rw [payload_bar_false]; unfold pBarY; rw [yp_yp]
    iexists f; iexact Hb
  · iexact Hr

/-- The unit on `xp c`'s barrier: it hands `xp c` this device's second receive buffer. -/
theorem signal_x (c n : Dev nD) (hn : n = xp c) (κ : ℕ)
    {α : Type} {Q : α → sProp 𝕄} {kont : PUnit → Prog (TpuEff nD τ sig (Elt F) Λ₀ .tc) α}
    (f : Buf (Elt F) ((c : Thread nD τ).loc cc0_scratch3)) (O : CellTallies nD τ sig Unit) (W : Waits sig Unit) :
    iprop(cellInv ER (sched m) κ (barCell (xp c)) ∗ owes (c : Thread nD τ) (O + tallyAt (barCell (xp c)) () 1) W
        ∗ dutyTok ER (barCell (xp c)) 0 true ∗ (((c : Thread nD τ).loc cc0_scratch3) ↦{fullShare} f) ∗ reached ER (barCell (xp c)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  iintro ⟨#HI, HO, Ht, Hb, #Hr⟩
  iapply (Rounds.wp_signal 𝒱₀ ER (sched m) (c : Thread nD τ) none (dst := (xp c : Thread nD τ)) (κ := κ)
      (d := true) (by rw [duties_bar]; exact Finset.mem_univ _) (amount_bar m (xp c) true) () O rfl) $$ [HO Ht Hb]
  isplitr; · iexact HI
  isplitl [HO]; · iexact HO
  isplitl [Ht]; · iexact Ht
  isplitl [Hb]
  · rw [payload_bar_true]; unfold pBarX; rw [xp_xp]
    iexists f; iexact Hb
  · iexact Hr

/-- The wait for both units, while the device still owes every arrival: both partners' receive buffers come with it. -/
theorem wait_bar (c : Dev nD) (κ : ℕ)
    {α : Type} {Q : α → sProp 𝕄} {kont : PUnit → Prog (TpuEff nD τ sig (Elt F) Λ₀ .tc) α}
    (O : CellTallies nD τ sig Unit) (W : Waits sig Unit) (hO : Above 1 O) :
    iprop(cellInv ER (sched m) κ (barCell c) ∗ cred (tallyAt (barCell c) () 2) ∗ owes (c : Thread nD τ) O W
        ∗ levAts L lv ∗ atPos ER (barCell c) 0 ∅ 0)
      ⊢ iprop(((owes (c : Thread nD τ) O (insert (SemLoc.reg barS, ()) W) ∗ atPos ER (barCell c) 1 ∅ 0 ∗ pBarY c ∗ pBarX c)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 2) kont) Q) := by
  iintro ⟨#HI, Hc, HO, #Hlev, Hat⟩ Hk
  iapply (Rounds.wp_wait_rest_token 𝒱₀ ER (sched m) (c : Thread nD τ) none (κ := κ)
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait_above c (.reg barS) O hO); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

end Cert.KernelIdeal.AllReduce

end
-- ==== Proof.Chunks.lean ====
/-
  The geometry of the row chunks, and what a landing leaves.

  The two 320-row exchange buffers are cut, at the offsets the program itself computes, into six chunks of 32 rows and
  two of 64. With e = c / 2 the first mesh coordinate of the device whose offsets cut the buffer, the 32-row chunk k
  covers the rows 128·e + 32·k … 128·e + 32·k + 32 and the 64-row chunk k the rows 192 − 192·e + 64·k … + 64: for e = 0
  the rows 0 … 192 and 192 … 320, for e = 1 the rows 128 … 320 and 0 … 128. Either way the eight chunks are pairwise
  disjoint and cover the 320 rows, so the buffer's points-to is the separating conjunction of the eight chunks'. The
  two 192-row buffers are cut into six chunks of 32 rows at the rows 32·k.

  A transfer writes, through the destination chunk's view, what the source chunk's view reads. Source and destination
  are the same rectangle of two buffers of one shape, so at every element of the chunk the destination afterwards holds
  the source buffer's value at that very index.
-/
import proofs.«900150_g7700000000000151_dist_ar_v7x_xy2x2_y_m512_n512_bf16_1_alg».proof.Proof.Proto
import Idealize.ShloMosaic.Lib.Pipeline.Value
import Idealize.ShloMosaic.Rules.PointsTo

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows of a chunk -/

/-- Membership in a band of whole rows of a two-dimensional shape is a condition on the row coordinate alone: the
    column coordinate of an index is below the row length anyway. -/
theorem chunk_mem_rows {R C : ℕ} {off size : Fin 2 → ℕ} {inb : ∀ a, off a + size a ≤ (⟨2, ![R, C]⟩ : Shape).size a} {lo n : ℕ}
    (hoff : off = ![lo, 0]) (hsize : size = ![n, C]) (i : (⟨2, ![R, C]⟩ : Shape).Idx) :
    i ∈ (Rect.unit (s := ⟨2, ![R, C]⟩) off size inb).set ↔ lo ≤ (i 0).val ∧ (i 0).val < lo + n := by
  subst hoff hsize
  have h1 : (i 1).val < C := (i 1).isLt
  rw [Rect.mem_set_unit, Fin.forall_fin_two]
  show (lo ≤ (i 0).val ∧ (i 0).val < lo + n) ∧ (0 ≤ (i 1).val ∧ (i 1).val < 0 + C) ↔ _
  omega

/-- The 32-row chunk `k` cut at device `c`'s offsets: the rows from `128·(c/2) + 32·k`. -/
theorem mem_rA (c : Dev nD) (k : Fin 6) (i : S320x512.Idx) :
    i ∈ (rA c k).set ↔ 128 * (c.val / 2) + 32 * k.val ≤ (i 0).val ∧ (i 0).val < 128 * (c.val / 2) + 32 * k.val + 32 :=
  chunk_mem_rows (k0_off5_eq c k) rfl i
/-- The 64-row chunk `k`: the rows from `192 − 192·(c/2) + 64·k`. -/
theorem mem_rB (c : Dev nD) (k : Fin 2) (i : S320x512.Idx) :
    i ∈ (rB c k).set ↔ (64 * k.val + 192) - 192 * (c.val / 2) ≤ (i 0).val ∧ (i 0).val < (64 * k.val + 192) - 192 * (c.val / 2) + 64 :=
  chunk_mem_rows (k0_off6_eq c k) rfl i
/-- The 32-row chunk `k` of a 192-row buffer: the rows from `32·k`. -/
theorem mem_rR (k : Fin 6) (i : S192x512.Idx) :
    i ∈ (rR k).set ↔ 32 * k.val ≤ (i 0).val ∧ (i 0).val < 32 * k.val + 32 :=
  chunk_mem_rows rfl rfl i

/-- The elements under a chunk's view are its rectangle's, whichever of the two buffers of that shape it cuts. -/
theorem ysA_set_rA (c : Dev nD) (k : Fin 6) : (ysA c k).view.set = (rA c k).set := View.set_slice_whole _ _
theorem ysB_set_rB (c : Dev nD) (k : Fin 2) : (ysB c k).view.set = (rB c k).set := View.set_slice_whole _ _
theorem yrA_set_rA (c : Dev nD) (k : Fin 6) : (yrA c k).view.set = (rA c k).set := View.set_slice_whole _ _
theorem yrB_set_rB (c : Dev nD) (k : Fin 2) : (yrB c k).view.set = (rB c k).set := View.set_slice_whole _ _
theorem rdC_set_rR (k : Fin 6) : (rdC k).view.set = (rR k).set := View.set_slice_whole _ _
theorem xrC_set_rR (k : Fin 6) : (xrC k).view.set = (rR k).set := View.set_slice_whole _ _

private theorem v60 : ((0 : Fin 6) : ℕ) = 0 := rfl
private theorem v61 : ((1 : Fin 6) : ℕ) = 1 := rfl
private theorem v62 : ((2 : Fin 6) : ℕ) = 2 := rfl
private theorem v63 : ((3 : Fin 6) : ℕ) = 3 := rfl
private theorem v64 : ((4 : Fin 6) : ℕ) = 4 := rfl
private theorem v65 : ((5 : Fin 6) : ℕ) = 5 := rfl
private theorem v20 : ((0 : Fin 2) : ℕ) = 0 := rfl
private theorem v21 : ((1 : Fin 2) : ℕ) = 1 := rfl

/-! ## The eight chunks of a 320-row buffer, the six of a 192-row buffer: disjoint, and nothing left over -/

section Cover
variable (c : Dev nD)

theorem cover320 : (Finset.univ : Finset S320x512.Idx) = (rA c 0).set ∪ ((rA c 1).set ∪ ((rA c 2).set ∪ ((rA c 3).set ∪ ((rA c 4).set ∪ ((rA c 5).set ∪ ((rB c 0).set ∪ ((rB c 1).set))))))) := by
  ext i
  have hi : (i 0).val < 320 := (i 0).isLt
  have hc := row_le c
  simp only [Finset.mem_univ, Finset.mem_union, mem_rA, mem_rB, v60, v61, v62, v63, v64, v65, v20, v21, true_iff]
  omega
theorem disj320_0 : Disjoint (rA c 0).set ((rA c 1).set ∪ ((rA c 2).set ∪ ((rA c 3).set ∪ ((rA c 4).set ∪ ((rA c 5).set ∪ ((rB c 0).set ∪ ((rB c 1).set))))))) := by
  rw [Finset.disjoint_left]; intro i h h'
  have hc := row_le c
  simp only [Finset.mem_union, mem_rA, mem_rB, v60, v61, v62, v63, v64, v65, v20, v21] at h h'
  omega
theorem disj320_1 : Disjoint (rA c 1).set ((rA c 2).set ∪ ((rA c 3).set ∪ ((rA c 4).set ∪ ((rA c 5).set ∪ ((rB c 0).set ∪ ((rB c 1).set)))))) := by
  rw [Finset.disjoint_left]; intro i h h'
  have hc := row_le c
  simp only [Finset.mem_union, mem_rA, mem_rB, v60, v61, v62, v63, v64, v65, v20, v21] at h h'
  omega
theorem disj320_2 : Disjoint (rA c 2).set ((rA c 3).set ∪ ((rA c 4).set ∪ ((rA c 5).set ∪ ((rB c 0).set ∪ ((rB c 1).set))))) := by
  rw [Finset.disjoint_left]; intro i h h'
  have hc := row_le c
  simp only [Finset.mem_union, mem_rA, mem_rB, v60, v61, v62, v63, v64, v65, v20, v21] at h h'
  omega
theorem disj320_3 : Disjoint (rA c 3).set ((rA c 4).set ∪ ((rA c 5).set ∪ ((rB c 0).set ∪ ((rB c 1).set)))) := by
  rw [Finset.disjoint_left]; intro i h h'
  have hc := row_le c
  simp only [Finset.mem_union, mem_rA, mem_rB, v60, v61, v62, v63, v64, v65, v20, v21] at h h'
  omega
theorem disj320_4 : Disjoint (rA c 4).set ((rA c 5).set ∪ ((rB c 0).set ∪ ((rB c 1).set))) := by
  rw [Finset.disjoint_left]; intro i h h'
  have hc := row_le c
  simp only [Finset.mem_union, mem_rA, mem_rB, v60, v61, v62, v63, v64, v65, v20, v21] at h h'
  omega
theorem disj320_5 : Disjoint (rA c 5).set ((rB c 0).set ∪ ((rB c 1).set)) := by
  rw [Finset.disjoint_left]; intro i h h'
  have hc := row_le c
  simp only [Finset.mem_union, mem_rA, mem_rB, v60, v61, v62, v63, v64, v65, v20, v21] at h h'
  omega
theorem disj320_6 : Disjoint (rB c 0).set ((rB c 1).set) := by
  rw [Finset.disjoint_left]; intro i h h'
  have hc := row_le c
  simp only [Finset.mem_union, mem_rA, mem_rB, v60, v61, v62, v63, v64, v65, v20, v21] at h h'
  omega

theorem cover192 : (Finset.univ : Finset S192x512.Idx) = (rR 0).set ∪ ((rR 1).set ∪ ((rR 2).set ∪ ((rR 3).set ∪ ((rR 4).set ∪ ((rR 5).set))))) := by
  ext i
  have hi : (i 0).val < 192 := (i 0).isLt
  simp only [Finset.mem_univ, Finset.mem_union, mem_rR, v60, v61, v62, v63, v64, v65, true_iff]
  omega
theorem disj192_0 : Disjoint (rR 0).set ((rR 1).set ∪ ((rR 2).set ∪ ((rR 3).set ∪ ((rR 4).set ∪ ((rR 5).set))))) := by
  rw [Finset.disjoint_left]; intro i h h'
  simp only [Finset.mem_union, mem_rR, v60, v61, v62, v63, v64, v65] at h h'
  omega
theorem disj192_1 : Disjoint (rR 1).set ((rR 2).set ∪ ((rR 3).set ∪ ((rR 4).set ∪ ((rR 5).set)))) := by
  rw [Finset.disjoint_left]; intro i h h'
  simp only [Finset.mem_union, mem_rR, v60, v61, v62, v63, v64, v65] at h h'
  omega
theorem disj192_2 : Disjoint (rR 2).set ((rR 3).set ∪ ((rR 4).set ∪ ((rR 5).set))) := by
  rw [Finset.disjoint_left]; intro i h h'
  simp only [Finset.mem_union, mem_rR, v60, v61, v62, v63, v64, v65] at h h'
  omega
theorem disj192_3 : Disjoint (rR 3).set ((rR 4).set ∪ ((rR 5).set)) := by
  rw [Finset.disjoint_left]; intro i h h'
  simp only [Finset.mem_union, mem_rR, v60, v61, v62, v63, v64, v65] at h h'
  omega
theorem disj192_4 : Disjoint (rR 4).set ((rR 5).set) := by
  rw [Finset.disjoint_left]; intro i h h'
  simp only [Finset.mem_union, mem_rR, v60, v61, v62, v63, v64, v65] at h h'
  omega

end Cover

/-! ## A buffer held chunk by chunk -/

theorem pt_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-- A buffer whose elements are the union of 8 sets, each disjoint from the union of the later ones, is held as the
    separating conjunction of the 8 parts. -/
theorem pointsTo_cut8 {ℓ : Loc nD τ sig} {q : PosShare TreeShare} {f : Buf (Elt F) ℓ}
    {S0 S1 S2 S3 S4 S5 S6 S7 : Finset (Idx ℓ)}
    (hcov : (Finset.univ : Finset (Idx ℓ)) = S0 ∪ (S1 ∪ (S2 ∪ (S3 ∪ (S4 ∪ (S5 ∪ (S6 ∪ (S7))))))))
    (h0 : Disjoint S0 (S1 ∪ (S2 ∪ (S3 ∪ (S4 ∪ (S5 ∪ (S6 ∪ (S7))))))))
    (h1 : Disjoint S1 (S2 ∪ (S3 ∪ (S4 ∪ (S5 ∪ (S6 ∪ (S7)))))))
    (h2 : Disjoint S2 (S3 ∪ (S4 ∪ (S5 ∪ (S6 ∪ (S7))))))
    (h3 : Disjoint S3 (S4 ∪ (S5 ∪ (S6 ∪ (S7)))))
    (h4 : Disjoint S4 (S5 ∪ (S6 ∪ (S7))))
    (h5 : Disjoint S5 (S6 ∪ (S7)))
    (h6 : Disjoint S6 (S7)) :
    (ℓ ↦{q} f : sProp 𝕄) = iprop((ℓ ↦[S0]{q} f) ∗ (ℓ ↦[S1]{q} f) ∗ (ℓ ↦[S2]{q} f) ∗ (ℓ ↦[S3]{q} f) ∗ (ℓ ↦[S4]{q} f) ∗ (ℓ ↦[S5]{q} f) ∗ (ℓ ↦[S6]{q} f) ∗ (ℓ ↦[S7]{q} f)) := by
  rw [hcov, pt_union h0, pt_union h1, pt_union h2, pt_union h3, pt_union h4, pt_union h5, pt_union h6]

/-- A buffer whose elements are the union of 6 sets, each disjoint from the union of the later ones, is held as the
    separating conjunction of the 6 parts. -/
theorem pointsTo_cut6 {ℓ : Loc nD τ sig} {q : PosShare TreeShare} {f : Buf (Elt F) ℓ}
    {S0 S1 S2 S3 S4 S5 : Finset (Idx ℓ)}
    (hcov : (Finset.univ : Finset (Idx ℓ)) = S0 ∪ (S1 ∪ (S2 ∪ (S3 ∪ (S4 ∪ (S5))))))
    (h0 : Disjoint S0 (S1 ∪ (S2 ∪ (S3 ∪ (S4 ∪ (S5))))))
    (h1 : Disjoint S1 (S2 ∪ (S3 ∪ (S4 ∪ (S5)))))
    (h2 : Disjoint S2 (S3 ∪ (S4 ∪ (S5))))
    (h3 : Disjoint S3 (S4 ∪ (S5)))
    (h4 : Disjoint S4 (S5)) :
    (ℓ ↦{q} f : sProp 𝕄) = iprop((ℓ ↦[S0]{q} f) ∗ (ℓ ↦[S1]{q} f) ∗ (ℓ ↦[S2]{q} f) ∗ (ℓ ↦[S3]{q} f) ∗ (ℓ ↦[S4]{q} f) ∗ (ℓ ↦[S5]{q} f)) := by
  rw [hcov, pt_union h0, pt_union h1, pt_union h2, pt_union h3, pt_union h4]

/-- The send buffer of the first exchange on device `d`, cut at device `c`'s offsets. -/
theorem ys_chunks (c d : Dev nD) (q : PosShare TreeShare) (f : (cc0_scratch0 : Ref sig .tc).ty.Contents (Elt F)) :
    ((ysM : Memref sig .tc .vmem S320x512 .bf16).view.loc (d : Thread nD τ) ↦{q} f : sProp 𝕄) = iprop(
      ((ysA c 0).view.loc (d : Thread nD τ) ↦[(ysA c 0).view.set]{q} f) ∗
      ((ysA c 1).view.loc (d : Thread nD τ) ↦[(ysA c 1).view.set]{q} f) ∗
      ((ysA c 2).view.loc (d : Thread nD τ) ↦[(ysA c 2).view.set]{q} f) ∗
      ((ysA c 3).view.loc (d : Thread nD τ) ↦[(ysA c 3).view.set]{q} f) ∗
      ((ysA c 4).view.loc (d : Thread nD τ) ↦[(ysA c 4).view.set]{q} f) ∗
      ((ysA c 5).view.loc (d : Thread nD τ) ↦[(ysA c 5).view.set]{q} f) ∗
      ((ysB c 0).view.loc (d : Thread nD τ) ↦[(ysB c 0).view.set]{q} f) ∗
      ((ysB c 1).view.loc (d : Thread nD τ) ↦[(ysB c 1).view.set]{q} f)) := by
  rw [ysA_set_rA, ysA_set_rA, ysA_set_rA, ysA_set_rA, ysA_set_rA, ysA_set_rA, ysB_set_rB, ysB_set_rB]
  exact pointsTo_cut8 (cover320 c) (disj320_0 c) (disj320_1 c) (disj320_2 c) (disj320_3 c) (disj320_4 c) (disj320_5 c) (disj320_6 c)

/-- The receive buffer of the first exchange on device `d`, cut at device `c`'s offsets. -/
theorem yr_chunks (c d : Dev nD) (q : PosShare TreeShare) (f : (cc0_scratch1 : Ref sig .tc).ty.Contents (Elt F)) :
    ((yrM : Memref sig .tc .vmem S320x512 .bf16).view.loc (d : Thread nD τ) ↦{q} f : sProp 𝕄) = iprop(
      ((yrA c 0).view.loc (d : Thread nD τ) ↦[(yrA c 0).view.set]{q} f) ∗
      ((yrA c 1).view.loc (d : Thread nD τ) ↦[(yrA c 1).view.set]{q} f) ∗
      ((yrA c 2).view.loc (d : Thread nD τ) ↦[(yrA c 2).view.set]{q} f) ∗
      ((yrA c 3).view.loc (d : Thread nD τ) ↦[(yrA c 3).view.set]{q} f) ∗
      ((yrA c 4).view.loc (d : Thread nD τ) ↦[(yrA c 4).view.set]{q} f) ∗
      ((yrA c 5).view.loc (d : Thread nD τ) ↦[(yrA c 5).view.set]{q} f) ∗
      ((yrB c 0).view.loc (d : Thread nD τ) ↦[(yrB c 0).view.set]{q} f) ∗
      ((yrB c 1).view.loc (d : Thread nD τ) ↦[(yrB c 1).view.set]{q} f)) := by
  rw [yrA_set_rA, yrA_set_rA, yrA_set_rA, yrA_set_rA, yrA_set_rA, yrA_set_rA, yrB_set_rB, yrB_set_rB]
  exact pointsTo_cut8 (cover320 c) (disj320_0 c) (disj320_1 c) (disj320_2 c) (disj320_3 c) (disj320_4 c) (disj320_5 c) (disj320_6 c)

/-- The send buffer of the second exchange on device `d`. -/
theorem rd_chunks (d : Dev nD) (q : PosShare TreeShare) (f : (cc0_scratch2 : Ref sig .tc).ty.Contents (Elt F)) :
    ((rdM : Memref sig .tc .vmem S192x512 .bf16).view.loc (d : Thread nD τ) ↦{q} f : sProp 𝕄) = iprop(
      ((rdC 0).view.loc (d : Thread nD τ) ↦[(rdC 0).view.set]{q} f) ∗
      ((rdC 1).view.loc (d : Thread nD τ) ↦[(rdC 1).view.set]{q} f) ∗
      ((rdC 2).view.loc (d : Thread nD τ) ↦[(rdC 2).view.set]{q} f) ∗
      ((rdC 3).view.loc (d : Thread nD τ) ↦[(rdC 3).view.set]{q} f) ∗
      ((rdC 4).view.loc (d : Thread nD τ) ↦[(rdC 4).view.set]{q} f) ∗
      ((rdC 5).view.loc (d : Thread nD τ) ↦[(rdC 5).view.set]{q} f)) := by
  rw [rdC_set_rR, rdC_set_rR, rdC_set_rR, rdC_set_rR, rdC_set_rR, rdC_set_rR]
  exact pointsTo_cut6 cover192 disj192_0 disj192_1 disj192_2 disj192_3 disj192_4

/-- The receive buffer of the second exchange on device `d`. -/
theorem xr_chunks (d : Dev nD) (q : PosShare TreeShare) (f : (cc0_scratch3 : Ref sig .tc).ty.Contents (Elt F)) :
    ((xrM : Memref sig .tc .vmem S192x512 .bf16).view.loc (d : Thread nD τ) ↦{q} f : sProp 𝕄) = iprop(
      ((xrC 0).view.loc (d : Thread nD τ) ↦[(xrC 0).view.set]{q} f) ∗
      ((xrC 1).view.loc (d : Thread nD τ) ↦[(xrC 1).view.set]{q} f) ∗
      ((xrC 2).view.loc (d : Thread nD τ) ↦[(xrC 2).view.set]{q} f) ∗
      ((xrC 3).view.loc (d : Thread nD τ) ↦[(xrC 3).view.set]{q} f) ∗
      ((xrC 4).view.loc (d : Thread nD τ) ↦[(xrC 4).view.set]{q} f) ∗
      ((xrC 5).view.loc (d : Thread nD τ) ↦[(xrC 5).view.set]{q} f)) := by
  rw [xrC_set_rR, xrC_set_rR, xrC_set_rR, xrC_set_rR, xrC_set_rR, xrC_set_rR]
  exact pointsTo_cut6 cover192 disj192_0 disj192_1 disj192_2 disj192_3 disj192_4

/-! ## What a landing leaves

A transfer writes through the destination chunk's view what the source chunk's view reads off the source buffer. The two
views are one rectangle of two buffers of one shape, so they place the chunk's indices at the same buffer indices. -/

/-- The first exchange: any rectangle of the send buffer landing in the same rectangle of the receive buffer. -/
theorem landY_apply (r : Rect S320x512) (hr : ∀ a, r.stride a = 1)
    (fd : (cc0_scratch1 : Ref sig .tc).ty.Contents (Elt F)) (fs : (cc0_scratch0 : Ref sig .tc).ty.Contents (Elt F))
    {i : S320x512.Idx} (hi : i ∈ (yrM.slice r hr).view.set) :
    (yrM.slice r hr).view.write (Elt F) fd ((ysM.slice r hr).view.read (Elt F) fs) Finset.univ i = fs i := by
  obtain ⟨x, -, rfl⟩ := Finset.mem_map.mp hi
  rw [View.write_emb_of_mem _ _ (Finset.mem_univ x), View.read_apply, cast_cast, cast_eq]
  rfl

/-- The second exchange: any rectangle of the forwarded rows landing in the same rectangle of their receive buffer. -/
theorem landX_apply (r : Rect S192x512) (hr : ∀ a, r.stride a = 1)
    (fd : (cc0_scratch3 : Ref sig .tc).ty.Contents (Elt F)) (fs : (cc0_scratch2 : Ref sig .tc).ty.Contents (Elt F))
    {i : S192x512.Idx} (hi : i ∈ (xrM.slice r hr).view.set) :
    (xrM.slice r hr).view.write (Elt F) fd ((rdM.slice r hr).view.read (Elt F) fs) Finset.univ i = fs i := by
  obtain ⟨x, -, rfl⟩ := Finset.mem_map.mp hi
  rw [View.write_emb_of_mem _ _ (Finset.mem_univ x), View.read_apply, cast_cast, cast_eq]
  rfl

theorem land_yrA (c : Dev nD) (k : Fin 6)
    (fd : (cc0_scratch1 : Ref sig .tc).ty.Contents (Elt F)) (fs : (cc0_scratch0 : Ref sig .tc).ty.Contents (Elt F))
    {i : S320x512.Idx} (hi : i ∈ (yrA c k).view.set) :
    (yrA c k).view.write (Elt F) fd ((ysA c k).view.read (Elt F) fs) Finset.univ i = fs i := landY_apply _ _ fd fs hi
theorem land_yrB (c : Dev nD) (k : Fin 2)
    (fd : (cc0_scratch1 : Ref sig .tc).ty.Contents (Elt F)) (fs : (cc0_scratch0 : Ref sig .tc).ty.Contents (Elt F))
    {i : S320x512.Idx} (hi : i ∈ (yrB c k).view.set) :
    (yrB c k).view.write (Elt F) fd ((ysB c k).view.read (Elt F) fs) Finset.univ i = fs i := landY_apply _ _ fd fs hi
theorem land_xrC (k : Fin 6)
    (fd : (cc0_scratch3 : Ref sig .tc).ty.Contents (Elt F)) (fs : (cc0_scratch2 : Ref sig .tc).ty.Contents (Elt F))
    {i : S192x512.Idx} (hi : i ∈ (xrC k).view.set) :
    (xrC k).view.write (Elt F) fd ((rdC k).view.read (Elt F) fs) Finset.univ i = fs i := landX_apply _ _ fd fs hi

/-! ## The partner's rectangles, and the partner's contents

The partner along the second axis has the same first coordinate, hence cuts its buffers at the same offsets and exchanges
the same 320 rows; what it receives is what this device sends. The partner along the first axis receives, as its
missing 192 rows, the rows this device forwards. -/

theorem rA_yp (c : Dev nD) (k : Fin 6) : rA (yp c) k = rA c k :=
  Rect.unit_congr (by rw [k0_off5_eq, k0_off5_eq, yp_row]) _ _
theorem rB_yp (c : Dev nD) (k : Fin 2) : rB (yp c) k = rB c k :=
  Rect.unit_congr (by rw [k0_off6_eq, k0_off6_eq, yp_row]) _ _
theorem ysA_yp (c : Dev nD) (k : Fin 6) : ysA (yp c) k = ysA c k :=
  Memref.slice_unit_congr _ (by rw [k0_off5_eq, k0_off5_eq, yp_row]) _ _ _ _
theorem ysB_yp (c : Dev nD) (k : Fin 2) : ysB (yp c) k = ysB c k :=
  Memref.slice_unit_congr _ (by rw [k0_off6_eq, k0_off6_eq, yp_row]) _ _ _ _
theorem yrA_yp (c : Dev nD) (k : Fin 6) : yrA (yp c) k = yrA c k :=
  Memref.slice_unit_congr _ (by rw [k0_off5_eq, k0_off5_eq, yp_row]) _ _ _ _
theorem yrB_yp (c : Dev nD) (k : Fin 2) : yrB (yp c) k = yrB c k :=
  Memref.slice_unit_congr _ (by rw [k0_off6_eq, k0_off6_eq, yp_row]) _ _ _ _

theorem wY_emb_yp (c : Dev nD) (i : S320x512.Idx) : (wY (yp c)).emb i = (wY c).emb i := by
  apply Shape.idx_ext₂
  · show 192 * ((yp c).val / 2) + 1 * (i 0).val = 192 * (c.val / 2) + 1 * (i 0).val
    rw [yp_row]
  · rfl

/-- What the partner along the second axis receives is what this device sends. -/
theorem YR_yp (c : Dev nD) : YR m (yp c) = YS m c := by
  funext i
  show Tx m (yp (yp c)) ((wY (yp c)).emb i) = Tx m c ((wY c).emb i)
  rw [yp_yp, wY_emb_yp]

/-- What the partner along the first axis receives is what this device forwards. -/
theorem XR_xp (c : Dev nD) : XR m (xp c) = RD m c := by
  funext i
  show Sm m (xp (xp c)) ((wF (xp (xp c))).emb i) = Sm m c ((wF c).emb i)
  rw [xp_xp]

/-- Points-tos of equal element sets whose contents agree there are equal. -/
theorem pointsTo_congr_set {ℓ : Loc nD τ sig} {I J : Finset (Idx ℓ)} {q : PosShare TreeShare} {f g : Buf (Elt F) ℓ}
    (hIJ : I = J) (h : ∀ i ∈ I, f i = g i) : (ℓ ↦[I]{q} f : sProp 𝕄) = ℓ ↦[J]{q} g := by
  subst hIJ; exact pointsTo_congr h

/-! ## A landed chunk is the receiver's payload -/

theorem landed_yrA (c : Dev nD) (k : Fin 6) (fd : (cc0_scratch1 : Ref sig .tc).ty.Contents (Elt F)) :
    ((yrA c k).view.loc (yp c : Thread nD τ) ↦[(yrA c k).view.set]{fullShare}
      ((yrA c k).view.write (Elt F) fd ((ysA c k).view.read (Elt F) (YS m c)) Finset.univ) : sProp 𝕄) = pYrA m (yp c) k := by
  unfold pYrA
  exact pointsTo_congr_set (ℓ := (yrM : Memref sig .tc .vmem S320x512 .bf16).view.loc (yp c : Thread nD τ))
    ((yrA_set_rA c k).trans ((congrArg (fun r : Rect S320x512 => r.set) (rA_yp c k).symm).trans (yrA_set_rA (yp c) k).symm))
    fun i hi => (land_yrA c k fd (YS m c) hi).trans (congrFun (YR_yp m c).symm i)

theorem landed_yrB (c : Dev nD) (k : Fin 2) (fd : (cc0_scratch1 : Ref sig .tc).ty.Contents (Elt F)) :
    ((yrB c k).view.loc (yp c : Thread nD τ) ↦[(yrB c k).view.set]{fullShare}
      ((yrB c k).view.write (Elt F) fd ((ysB c k).view.read (Elt F) (YS m c)) Finset.univ) : sProp 𝕄) = pYrB m (yp c) k := by
  unfold pYrB
  exact pointsTo_congr_set (ℓ := (yrM : Memref sig .tc .vmem S320x512 .bf16).view.loc (yp c : Thread nD τ))
    ((yrB_set_rB c k).trans ((congrArg (fun r : Rect S320x512 => r.set) (rB_yp c k).symm).trans (yrB_set_rB (yp c) k).symm))
    fun i hi => (land_yrB c k fd (YS m c) hi).trans (congrFun (YR_yp m c).symm i)

theorem landed_xrC (c : Dev nD) (k : Fin 6) (fd : (cc0_scratch3 : Ref sig .tc).ty.Contents (Elt F))
    (fs : (cc0_scratch2 : Ref sig .tc).ty.Contents (Elt F)) (hfs : ∀ i ∈ (rdC k).view.set, fs i = RD m c i) :
    ((xrC k).view.loc (xp c : Thread nD τ) ↦[(xrC k).view.set]{fullShare}
      ((xrC k).view.write (Elt F) fd ((rdC k).view.read (Elt F) fs) Finset.univ) : sProp 𝕄) = pXr m (xp c) k := by
  unfold pXr
  refine pointsTo_congr fun i hi => (land_xrC k fd fs hi).trans ((hfs i ?_).trans (congrFun (XR_xp m c).symm i))
  rw [xrC_set_rR] at hi; rw [rdC_set_rR]; exact hi

/-! ## Loads and stores through the whole buffer at the chunks' rows

The program also reaches the chunks through the whole buffers, at offset functions of its own with the same closed forms. -/

theorem setOn_whole (b : Ref sig .tc) (M : Finset b.ty.shape.Idx) : (View.whole b : View sig .tc _ _ _).setOn M = M :=
  Finset.map_refl

/-- The program's other spelling of the 32-row and 64-row rectangles. -/
theorem rA_alt (c : Dev nD) (k : Fin 6) :
    Rect.unit (s := S320x512) (k0_off2 c (BitVec.ofNat 32 (32 * k.val))) S32x512.size (k0_off2_inb c k) = rA c k :=
  Rect.unit_congr ((k0_off2_eq c k).trans (k0_off5_eq c k).symm) _ _
theorem rB_alt (c : Dev nD) (k : Fin 2) :
    Rect.unit (s := S320x512) (k0_off4 c (BitVec.ofNat 32 (64 * k.val))) S64x512.size (k0_off4_inb c k) = rB c k :=
  Rect.unit_congr ((k0_off4_eq c k).trans (k0_off6_eq c k).symm) _ _

theorem ys_setOn_A (c : Dev nD) (k : Fin 6) :
    (ysM : Memref sig .tc .vmem S320x512 .bf16).view.setOn
      ((Rect.unit (s := S320x512) (k0_off2 c (BitVec.ofNat 32 (32 * k.val))) S32x512.size (k0_off2_inb c k)).toLoadRect).set
      = (ysA c k).view.set := by
  rw [rA_alt, ysA_set_rA]; exact setOn_whole _ _
theorem yr_setOn_A (c : Dev nD) (k : Fin 6) :
    (yrM : Memref sig .tc .vmem S320x512 .bf16).view.setOn
      ((Rect.unit (s := S320x512) (k0_off2 c (BitVec.ofNat 32 (32 * k.val))) S32x512.size (k0_off2_inb c k)).toLoadRect).set
      = (yrA c k).view.set := by
  rw [rA_alt, yrA_set_rA]; exact setOn_whole _ _
theorem ys_setOn_B (c : Dev nD) (k : Fin 2) :
    (ysM : Memref sig .tc .vmem S320x512 .bf16).view.setOn
      ((Rect.unit (s := S320x512) (k0_off4 c (BitVec.ofNat 32 (64 * k.val))) S64x512.size (k0_off4_inb c k)).toLoadRect).set
      = (ysB c k).view.set := by
  rw [rB_alt, ysB_set_rB]; exact setOn_whole _ _
theorem yr_setOn_B (c : Dev nD) (k : Fin 2) :
    (yrM : Memref sig .tc .vmem S320x512 .bf16).view.setOn
      ((Rect.unit (s := S320x512) (k0_off4 c (BitVec.ofNat 32 (64 * k.val))) S64x512.size (k0_off4_inb c k)).toLoadRect).set
      = (yrB c k).view.set := by
  rw [rB_alt, yrB_set_rB]; exact setOn_whole _ _
theorem rd_setOn (k : Fin 6) :
    (rdM : Memref sig .tc .vmem S192x512 .bf16).view.setOn ((rR k).toLoadRect).set = (rdC k).view.set := by
  rw [rdC_set_rR]; exact setOn_whole _ _
theorem xr_setOn (k : Fin 6) :
    (xrM : Memref sig .tc .vmem S192x512 .bf16).view.setOn ((rR k).toLoadRect).set = (xrC k).view.set := by
  rw [xrC_set_rR]; exact setOn_whole _ _
theorem rd_access_setOn (k : Fin 6) :
    ((rdM : Memref sig .tc .vmem S192x512 .bf16).access (rR k) : View sig .tc _ _ _).setOn Finset.univ = (rdC k).view.set := rfl

theorem ys_setOn_A_sub (c : Dev nD) (k : Fin 6) :
    (ysM : Memref sig .tc .vmem S320x512 .bf16).view.setOn
      ((Rect.unit (s := S320x512) (k0_off2 c (BitVec.ofNat 32 (32 * k.val))) S32x512.size (k0_off2_inb c k)).toLoadRect).set
      ⊆ (ysA c k).view.set := Finset.subset_of_eq (ys_setOn_A c k)
theorem yr_setOn_A_sub (c : Dev nD) (k : Fin 6) :
    (yrM : Memref sig .tc .vmem S320x512 .bf16).view.setOn
      ((Rect.unit (s := S320x512) (k0_off2 c (BitVec.ofNat 32 (32 * k.val))) S32x512.size (k0_off2_inb c k)).toLoadRect).set
      ⊆ (yrA c k).view.set := Finset.subset_of_eq (yr_setOn_A c k)
theorem ys_setOn_B_sub (c : Dev nD) (k : Fin 2) :
    (ysM : Memref sig .tc .vmem S320x512 .bf16).view.setOn
      ((Rect.unit (s := S320x512) (k0_off4 c (BitVec.ofNat 32 (64 * k.val))) S64x512.size (k0_off4_inb c k)).toLoadRect).set
      ⊆ (ysB c k).view.set := Finset.subset_of_eq (ys_setOn_B c k)
theorem yr_setOn_B_sub (c : Dev nD) (k : Fin 2) :
    (yrM : Memref sig .tc .vmem S320x512 .bf16).view.setOn
      ((Rect.unit (s := S320x512) (k0_off4 c (BitVec.ofNat 32 (64 * k.val))) S64x512.size (k0_off4_inb c k)).toLoadRect).set
      ⊆ (yrB c k).view.set := Finset.subset_of_eq (yr_setOn_B c k)
theorem rd_setOn_sub (k : Fin 6) :
    (rdM : Memref sig .tc .vmem S192x512 .bf16).view.setOn ((rR k).toLoadRect).set ⊆ (rdC k).view.set :=
  Finset.subset_of_eq (rd_setOn k)
theorem xr_setOn_sub (k : Fin 6) :
    (xrM : Memref sig .tc .vmem S192x512 .bf16).view.setOn ((rR k).toLoadRect).set ⊆ (xrC k).view.set :=
  Finset.subset_of_eq (xr_setOn k)
theorem rd_access_setOn_sub (k : Fin 6) :
    ((rdM : Memref sig .tc .vmem S192x512 .bf16).access (rR k) : View sig .tc _ _ _).setOn Finset.univ ⊆ (rdC k).view.set :=
  Finset.Subset.refl _

/-- info: 'Cert.KernelIdeal.AllReduce.ys_chunks' depends on axioms: [propext, Classical.choice, Quot.sound] -/
#guard_msgs in #print axioms ys_chunks

/-- info: 'Cert.KernelIdeal.AllReduce.yr_chunks' depends on axioms: [propext, Classical.choice, Quot.sound] -/
#guard_msgs in #print axioms yr_chunks

/-- info: 'Cert.KernelIdeal.AllReduce.rd_chunks' depends on axioms: [propext, Classical.choice, Quot.sound] -/
#guard_msgs in #print axioms rd_chunks

/-- info: 'Cert.KernelIdeal.AllReduce.xr_chunks' depends on axioms: [propext, Classical.choice, Quot.sound] -/
#guard_msgs in #print axioms xr_chunks

/-- info: 'Cert.KernelIdeal.AllReduce.landed_yrA' depends on axioms: [propext, Classical.choice, Quot.sound] -/
#guard_msgs in #print axioms landed_yrA

/-- info: 'Cert.KernelIdeal.AllReduce.landed_yrB' depends on axioms: [propext, Classical.choice, Quot.sound] -/
#guard_msgs in #print axioms landed_yrB

/-- info: 'Cert.KernelIdeal.AllReduce.landed_xrC' depends on axioms: [propext, Classical.choice, Quot.sound] -/
#guard_msgs in #print axioms landed_xrC

end Cert.KernelIdeal.AllReduce

end
-- ==== Proof.StoreValues.lean ====
/-
  What the local stores of the two-stage sum leave, as equations between buffer contents.

  Write x = c / 2 for a device's first mesh coordinate. The send buffer is filled by eight stores: chunk k of the first
  family takes rows 320x + 32k of the staged block, cast, to rows 128x + 32k; chunk k of the second takes rows 192 + 64k
  to rows 192 - 192x + 64k. Row r of the send buffer is to hold row 192x + r of the cast block, and
  192x + (128x + 32k) = 320x + 32k, 192x + (192 - 192x + 64k) = 192 + 64k: every store writes the rows it should. The
  eight bands tile the 320 rows, so after the eight stores the buffer is the 320-row window, whatever it held before.

  Row 32k + j of the forwarded-rows buffer is the pair's sum at row 320x + 32k + j: the store adds row 128x + 32k + j of
  the send buffer to the same row of the receive buffer, and 192x + 128x = 320x.

  The result block is filled by fourteen stores: rows 320x + 32k from the forwarded rows, rows 192 + 64k from the sums
  of the second family, rows 320(1 - x) + 32k from the other pair's forwarded rows. The first two kinds lie among the
  320 rows the device exchanged (192x <= row < 192x + 320), the last outside them; together they tile the 512 rows.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Stores and loads through a whole buffer -/
/-- An unmasked store through a rectangle of a whole buffer leaves the payload under the rectangle, -/
theorem write_whole_emb (b : Ref sig .tc) (r : Rect b.ty.shape) (f : b.ty.Contents (Elt F))
    (w : r.shape.Idx → Elt F b.ty.elt) (x : r.shape.Idx) :
    ((Memref.whole b).access r : View _ _ _ _ _).write (Elt F) f w Finset.univ (r.emb x) = w x :=
  View.read_slice_write_emb (v := View.whole b) r f w (Finset.mem_univ x)
/-- and the old contents everywhere else. -/
theorem write_whole_off (b : Ref sig .tc) (r : Rect b.ty.shape) (f : b.ty.Contents (Elt F))
    (w : r.shape.Idx → Elt F b.ty.elt) {i : b.ty.shape.Idx} (h : i ∉ r.set) :
    ((Memref.whole b).access r : View _ _ _ _ _).write (Elt F) f w Finset.univ i = f i :=
  View.read_slice_write_of_not_mem (v := View.whole b) r f w Finset.univ (by rwa [Rect.map_emb_univ])
/-- A load through a rectangle of a whole buffer sees only the contents under the rectangle. -/
theorem readAt_whole_congr (b : Ref sig .tc) (r : Rect b.ty.shape) {f g : b.ty.Contents (Elt F)}
    (h : ∀ i ∈ r.set, f i = g i) :
    (Memref.whole b).view.readAt (Elt F) r.toLoadRect f = (Memref.whole b).view.readAt (Elt F) r.toLoadRect g :=
  funext fun x => h _ (r.toLoadRect.idx_mem x)
/-- Unmasked stores through rectangles of a whole buffer, each writing one function G's values on its rectangle, the
    rectangles covering the buffer: the buffer ends holding G, whatever it held before and in whatever order. -/
theorem writes_whole_eq (b : Ref sig .tc) (f G : b.ty.Contents (Elt F))
    (L : List (View.Piece (Elt F) b.ty.shape b.ty.elt))
    (hG : ∀ p ∈ L, ∀ x : p.1.shape.Idx, p.2 x = G (p.1.emb x)) (hc : ∀ y : b.ty.shape.Idx, ∃ p ∈ L, y ∈ p.1.set) :
    (Memref.whole b).view.writes (Elt F) f L = G :=
  funext fun y => View.read_writes_apply_of_pieces (View.whole b) f G L hG y (hc y)

/-! ## Bands of whole rows of a two-axis shape -/
/-- Membership in a band of whole rows: only the row matters. -/
theorem mem_rows {R n b : ℕ} {off : Fin 2 → ℕ}
    (p : ∀ a, off a + (![n, 512] : Fin 2 → ℕ) a ≤ (⟨2, ![R, 512]⟩ : Shape).size a)
    (h0 : off 0 = b) (h1 : off 1 = 0) (y : (⟨2, ![R, 512]⟩ : Shape).Idx) :
    y ∈ (Rect.unit (s := ⟨2, ![R, 512]⟩) off ![n, 512] p).set ↔ b ≤ (y 0).val ∧ (y 0).val < b + n := by
  rw [Rect.mem_set_unit]
  constructor
  · intro h
    have h' := h 0
    rw [h0] at h'
    exact h'
  · intro h a
    match a with
    | ⟨0, _⟩ =>
      show off 0 ≤ (y 0).val ∧ (y 0).val < off 0 + n
      rw [h0]; exact h
    | ⟨1, _⟩ =>
      show off 1 ≤ (y 1).val ∧ (y 1).val < off 1 + 512
      rw [h1]; exact ⟨Nat.zero_le _, by rw [Nat.zero_add]; exact (y 1).isLt⟩
/-- A band at row b of the shape, and the band at row b₂ of a window at row b₁: the same placement when b = b₁ + b₂. -/
theorem emb_emb_rows {R R' n : ℕ} {o o₁ o₂ : Fin 2 → ℕ}
    (p : ∀ a, o a + (![n, 512] : Fin 2 → ℕ) a ≤ (⟨2, ![R, 512]⟩ : Shape).size a)
    (p₁ : ∀ a, o₁ a + (![R', 512] : Fin 2 → ℕ) a ≤ (⟨2, ![R, 512]⟩ : Shape).size a)
    (p₂ : ∀ a, o₂ a + (![n, 512] : Fin 2 → ℕ) a ≤ (⟨2, ![R', 512]⟩ : Shape).size a)
    (h0 : o 0 = o₁ 0 + o₂ 0) (h1 : o 1 = 0) (h₁ : o₁ 1 = 0) (h₂ : o₂ 1 = 0)
    (x : (⟨2, ![n, 512]⟩ : Shape).Idx) :
    (Rect.unit (s := ⟨2, ![R, 512]⟩) o ![n, 512] p).emb x
      = (Rect.unit (s := ⟨2, ![R, 512]⟩) o₁ ![R', 512] p₁).emb
          ((Rect.unit (s := ⟨2, ![R', 512]⟩) o₂ ![n, 512] p₂).emb x) := by
  refine Shape.idx_ext₂ ?_ ?_
  · show o 0 + 1 * (x 0).val = o₁ 0 + 1 * (o₂ 0 + 1 * (x 0).val)
    omega
  · show o 1 + 1 * (x 1).val = o₁ 1 + 1 * (o₂ 1 + 1 * (x 1).val)
    omega
/-- The row of a band's element. -/
theorem emb_row {R n : ℕ} {o : Fin 2 → ℕ}
    (p : ∀ a, o a + (![n, 512] : Fin 2 → ℕ) a ≤ (⟨2, ![R, 512]⟩ : Shape).size a)
    (x : (⟨2, ![n, 512]⟩ : Shape).Idx) :
    ((Rect.unit (s := ⟨2, ![R, 512]⟩) o ![n, 512] p).emb x 0).val = o 0 + (x 0).val := by
  show o 0 + 1 * (x 0).val = o 0 + (x 0).val
  omega

/-! ## The program's offsets, coordinate by coordinate -/
theorem off1_0 (c : Dev nD) (k : Fin 6) : k0_off1 c (BitVec.ofNat 32 (32 * k.val)) 0 = 320 * (c.val / 2) + 32 * k.val :=
  congrFun (k0_off1_eq c k) 0
theorem off1_1 (c : Dev nD) (k : Fin 6) : k0_off1 c (BitVec.ofNat 32 (32 * k.val)) 1 = 0 :=
  congrFun (k0_off1_eq c k) 1
theorem off2_0 (c : Dev nD) (k : Fin 6) : k0_off2 c (BitVec.ofNat 32 (32 * k.val)) 0 = 128 * (c.val / 2) + 32 * k.val :=
  congrFun (k0_off2_eq c k) 0
theorem off2_1 (c : Dev nD) (k : Fin 6) : k0_off2 c (BitVec.ofNat 32 (32 * k.val)) 1 = 0 :=
  congrFun (k0_off2_eq c k) 1
theorem off3_0 (c : Dev nD) (k : Fin 2) : k0_off3 c (BitVec.ofNat 32 (64 * k.val)) 0 = 64 * k.val + 192 :=
  congrFun (k0_off3_eq c k) 0
theorem off3_1 (c : Dev nD) (k : Fin 2) : k0_off3 c (BitVec.ofNat 32 (64 * k.val)) 1 = 0 :=
  congrFun (k0_off3_eq c k) 1
theorem off4_0 (c : Dev nD) (k : Fin 2) : k0_off4 c (BitVec.ofNat 32 (64 * k.val)) 0 = (64 * k.val + 192) - 192 * (c.val / 2) :=
  congrFun (k0_off4_eq c k) 0
theorem off4_1 (c : Dev nD) (k : Fin 2) : k0_off4 c (BitVec.ofNat 32 (64 * k.val)) 1 = 0 :=
  congrFun (k0_off4_eq c k) 1
theorem off5_0 (c : Dev nD) (k : Fin 6) : k0_off5 c (BitVec.ofNat 32 (32 * k.val)) 0 = 128 * (c.val / 2) + 32 * k.val :=
  congrFun (k0_off5_eq c k) 0
theorem off5_1 (c : Dev nD) (k : Fin 6) : k0_off5 c (BitVec.ofNat 32 (32 * k.val)) 1 = 0 :=
  congrFun (k0_off5_eq c k) 1
theorem off7_0 (c : Dev nD) (k : Fin 6) : k0_off7 c (BitVec.ofNat 32 (32 * k.val)) 0 = (32 * k.val + 320) - 320 * (c.val / 2) :=
  congrFun (k0_off7_eq c k) 0
theorem off7_1 (c : Dev nD) (k : Fin 6) : k0_off7 c (BitVec.ofNat 32 (32 * k.val)) 1 = 0 :=
  congrFun (k0_off7_eq c k) 1

/-! ## The payloads: a cast, or a sum, between identity shape casts -/
theorem pay1_eq (v : Vec F S32x512 .f32) : k0_pay1 v = truncf .bf16 v bitsLt_bf16_f32 := by
  unfold k0_pay1
  simp only [shapeCast_self]
theorem pay2_eq : @k0_pay2 F _ = k0_pay1 :=
  rfl
theorem pay3_eq : @k0_pay3 F _ = k0_pay1 :=
  rfl
theorem pay4_eq : @k0_pay4 F _ = k0_pay1 :=
  rfl
theorem pay5_eq : @k0_pay5 F _ = k0_pay1 :=
  rfl
theorem pay6_eq : @k0_pay6 F _ = k0_pay1 :=
  rfl
theorem pay7_eq (v : Vec F S64x512 .f32) : k0_pay7 v = truncf .bf16 v bitsLt_bf16_f32 := by
  unfold k0_pay7
  simp only [shapeCast_self]
theorem pay8_eq : @k0_pay8 F _ = k0_pay7 :=
  rfl
theorem pay9_eq (a b : Vec F S32x512 .bf16) : k0_pay9 a b = addf a b := by
  unfold k0_pay9
  simp only [shapeCast_self]
theorem pay10_eq : @k0_pay10 F _ = k0_pay9 :=
  rfl
theorem pay11_eq : @k0_pay11 F _ = k0_pay9 :=
  rfl
theorem pay12_eq : @k0_pay12 F _ = k0_pay9 :=
  rfl
theorem pay13_eq : @k0_pay13 F _ = k0_pay9 :=
  rfl
theorem pay14_eq : @k0_pay14 F _ = k0_pay9 :=
  rfl
theorem pay15_eq (a b : Vec F S64x512 .bf16) : k0_pay15 a b = addf a b :=
  rfl
theorem pay16_eq : @k0_pay16 F _ = k0_pay15 :=
  rfl

/-! ## The rectangles the program's stores and loads name, at its own offsets -/

/-- Rows 320x + 32k of a 512-row buffer (the staged block, the result block). -/
abbrev sXA (c : Dev nD) (k : Fin 6) : Rect S512x512 :=
  Rect.unit (s := S512x512) (k0_off1 c (BitVec.ofNat 32 (32 * k.val))) S32x512.size (k0_off1_inb c k)
/-- Rows 128x + 32k of a 320-row buffer (the send and the receive buffer). -/
abbrev sYA (c : Dev nD) (k : Fin 6) : Rect S320x512 :=
  Rect.unit (s := S320x512) (k0_off2 c (BitVec.ofNat 32 (32 * k.val))) S32x512.size (k0_off2_inb c k)
/-- Rows 192 + 64k of a 512-row buffer. -/
abbrev sXB (c : Dev nD) (k : Fin 2) : Rect S512x512 :=
  Rect.unit (s := S512x512) (k0_off3 c (BitVec.ofNat 32 (64 * k.val))) S64x512.size (k0_off3_inb c k)
/-- Rows 192 - 192x + 64k of a 320-row buffer. -/
abbrev sYB (c : Dev nD) (k : Fin 2) : Rect S320x512 :=
  Rect.unit (s := S320x512) (k0_off4 c (BitVec.ofNat 32 (64 * k.val))) S64x512.size (k0_off4_inb c k)
/-- Rows 320(1 - x) + 32k of the result block. -/
abbrev sXC (c : Dev nD) (k : Fin 6) : Rect S512x512 :=
  Rect.unit (s := S512x512) (k0_off7 c (BitVec.ofNat 32 (32 * k.val))) S32x512.size (k0_off7_inb c k)

/-- The chunk views of the protocol are these rectangles of their buffers. -/
theorem ysA_set (c : Dev nD) (k : Fin 6) : (ysA c k).view.set = (sYA c k).set :=
  (View.set_slice_whole cc0_scratch0 (rA c k)).trans
    (congrArg (fun r : Rect S320x512 => r.set)
      (Rect.unit_congr ((k0_off5_eq c k).trans (k0_off2_eq c k).symm) _ _))
theorem ysB_set (c : Dev nD) (k : Fin 2) : (ysB c k).view.set = (sYB c k).set :=
  (View.set_slice_whole cc0_scratch0 (rB c k)).trans
    (congrArg (fun r : Rect S320x512 => r.set)
      (Rect.unit_congr ((k0_off6_eq c k).trans (k0_off4_eq c k).symm) _ _))
theorem yrA_set (c : Dev nD) (k : Fin 6) : (yrA c k).view.set = (sYA c k).set :=
  (View.set_slice_whole cc0_scratch1 (rA c k)).trans
    (congrArg (fun r : Rect S320x512 => r.set)
      (Rect.unit_congr ((k0_off5_eq c k).trans (k0_off2_eq c k).symm) _ _))
theorem yrB_set (c : Dev nD) (k : Fin 2) : (yrB c k).view.set = (sYB c k).set :=
  (View.set_slice_whole cc0_scratch1 (rB c k)).trans
    (congrArg (fun r : Rect S320x512 => r.set)
      (Rect.unit_congr ((k0_off6_eq c k).trans (k0_off4_eq c k).symm) _ _))
theorem rdC_set (k : Fin 6) : (rdC k).view.set = (rR k).set :=
  View.set_slice_whole cc0_scratch2 (rR k)
theorem xrC_set (k : Fin 6) : (xrC k).view.set = (rR k).set :=
  View.set_slice_whole cc0_scratch3 (rR k)

/-! ## The send buffer: eight stores -/

/-- Chunk k of the first family stored over contents f: rows 320x + 32k of the staged block, cast. -/
abbrev stYA (c : Dev nD) (k : Fin 6) (f : (cc0_scratch0 : Ref sig .tc).ty.Contents (Elt F)) :
    (cc0_scratch0 : Ref sig .tc).ty.Contents (Elt F) :=
  (ysM.access (sYA c k) : View _ _ _ _ _).write (Elt F) f
    (k0_pay1 (xM.view.readAt (Elt F) (sXA c k).toLoadRect (xblk m c))) Finset.univ
/-- Chunk k of the second family stored over contents f: rows 192 + 64k of the staged block, cast. -/
abbrev stYB (c : Dev nD) (k : Fin 2) (f : (cc0_scratch0 : Ref sig .tc).ty.Contents (Elt F)) :
    (cc0_scratch0 : Ref sig .tc).ty.Contents (Elt F) :=
  (ysM.access (sYB c k) : View _ _ _ _ _).write (Elt F) f
    (k0_pay7 (xM.view.readAt (Elt F) (sXB c k).toLoadRect (xblk m c))) Finset.univ

/-- What a first-family store writes is the send buffer's rows: 192x + (128x + 32k) = 320x + 32k. -/
theorem payYA_agree (c : Dev nD) (k : Fin 6) (x : S32x512.Idx) :
    k0_pay1 (xM.view.readAt (Elt F) (sXA c k).toLoadRect (xblk m c)) x = YS m c ((sYA c k).emb x) := by
  have e : (sXA c k).emb x = (wY c).emb ((sYA c k).emb x) :=
    emb_emb_rows (R := 512) (R' := 320) (n := 32) (k0_off1_inb c k) (inbY c) (k0_off2_inb c k)
      (by rw [off1_0, off2_0]; show _ = 192 * (c.val / 2) + _; omega) (off1_1 c k) rfl (off2_1 c k) x
  rw [pay1_eq]
  show truncf .bf16 (xblk m c) bitsLt_bf16_f32 ((sXA c k).emb x)
    = truncf .bf16 (xblk m c) bitsLt_bf16_f32 ((wY c).emb ((sYA c k).emb x))
  exact congrArg (truncf .bf16 (xblk m c) bitsLt_bf16_f32) e
/-- What a second-family store writes is the send buffer's rows: 192x + (192 - 192x + 64k) = 192 + 64k. -/
theorem payYB_agree (c : Dev nD) (k : Fin 2) (x : S64x512.Idx) :
    k0_pay7 (xM.view.readAt (Elt F) (sXB c k).toLoadRect (xblk m c)) x = YS m c ((sYB c k).emb x) := by
  have hX := row_le c
  have e : (sXB c k).emb x = (wY c).emb ((sYB c k).emb x) :=
    emb_emb_rows (R := 512) (R' := 320) (n := 64) (k0_off3_inb c k) (inbY c) (k0_off4_inb c k)
      (by rw [off3_0, off4_0]; show _ = 192 * (c.val / 2) + _; omega) (off3_1 c k) rfl (off4_1 c k) x
  rw [pay7_eq]
  show truncf .bf16 (xblk m c) bitsLt_bf16_f32 ((sXB c k).emb x)
    = truncf .bf16 (xblk m c) bitsLt_bf16_f32 ((wY c).emb ((sYB c k).emb x))
  exact congrArg (truncf .bf16 (xblk m c) bitsLt_bf16_f32) e
/-- A first-family store writes the send buffer's contents on its chunk, -/
theorem stYA_on (c : Dev nD) (k : Fin 6) (f : (cc0_scratch0 : Ref sig .tc).ty.Contents (Elt F)) :
    ∀ i ∈ (ysA c k).view.set, stYA m c k f i = YS m c i := by
  intro i hi
  rw [ysA_set] at hi
  obtain ⟨x, rfl⟩ : ∃ x, (sYA c k).emb x = i := (sYA c k).exists_idx_of_mem hi
  exact (write_whole_emb cc0_scratch0 (sYA c k) f _ x).trans (payYA_agree m c k x)
/-- and changes nothing else. -/
theorem stYA_off (c : Dev nD) (k : Fin 6) (f : (cc0_scratch0 : Ref sig .tc).ty.Contents (Elt F)) :
    ∀ i ∉ (ysA c k).view.set, stYA m c k f i = f i := by
  intro i hi
  rw [ysA_set] at hi
  exact write_whole_off cc0_scratch0 (sYA c k) f _ hi
/-- A second-family store writes the send buffer's contents on its chunk, -/
theorem stYB_on (c : Dev nD) (k : Fin 2) (f : (cc0_scratch0 : Ref sig .tc).ty.Contents (Elt F)) :
    ∀ i ∈ (ysB c k).view.set, stYB m c k f i = YS m c i := by
  intro i hi
  rw [ysB_set] at hi
  obtain ⟨x, rfl⟩ : ∃ x, (sYB c k).emb x = i := (sYB c k).exists_idx_of_mem hi
  exact (write_whole_emb cc0_scratch0 (sYB c k) f _ x).trans (payYB_agree m c k x)
/-- and changes nothing else. -/
theorem stYB_off (c : Dev nD) (k : Fin 2) (f : (cc0_scratch0 : Ref sig .tc).ty.Contents (Elt F)) :
    ∀ i ∉ (ysB c k).view.set, stYB m c k f i = f i := by
  intro i hi
  rw [ysB_set] at hi
  exact write_whole_off cc0_scratch0 (sYB c k) f _ hi

/-- The eight stores as pieces, -/
def ysPiece (c : Dev nD) : Fin 6 ⊕ Fin 2 → View.Piece (Elt F) S320x512 .bf16
  | .inl k => ⟨sYA c k, k0_pay1 (xM.view.readAt (Elt F) (sXA c k).toLoadRect (xblk m c))⟩
  | .inr k => ⟨sYB c k, k0_pay7 (xM.view.readAt (Elt F) (sXB c k).toLoadRect (xblk m c))⟩
/-- in program order, the last store first. -/
def ysOrder : List (Fin 6 ⊕ Fin 2) := [.inr 1, .inr 0, .inl 5, .inl 4, .inl 3, .inl 2, .inl 1, .inl 0]

theorem ysOrder_mem : ∀ t : Fin 6 ⊕ Fin 2, t ∈ ysOrder := by
  intro t
  unfold ysOrder
  rcases t with k | k
  · simp only [List.mem_cons, List.mem_nil_iff, Sum.inl.injEq, Sum.inr.injEq, reduceCtorEq, false_or, or_false]
    omega
  · simp only [List.mem_cons, List.mem_nil_iff, Sum.inl.injEq, Sum.inr.injEq, reduceCtorEq, false_or, or_false]
    omega
theorem ysPiece_agree (c : Dev nD) : ∀ (t : Fin 6 ⊕ Fin 2) (x : (ysPiece m c t).1.shape.Idx),
    (ysPiece m c t).2 x = YS m c ((ysPiece m c t).1.emb x) :=
  fun t => match t with
  | .inl k => fun x => payYA_agree m c k x
  | .inr k => fun x => payYB_agree m c k x
/-- The eight bands tile the 320 rows: 128x .. 128x + 192 by the first family, the other 128 by the second. -/
theorem ys_cover (c : Dev nD) (y : S320x512.Idx) : ∃ t, y ∈ (ysPiece m c t).1.set := by
  have hX := row_le c
  have hy : (y 0).val < 320 := (y 0).isLt
  by_cases h : 128 * (c.val / 2) ≤ (y 0).val ∧ (y 0).val < 128 * (c.val / 2) + 192
  · obtain ⟨q, hq⟩ : ∃ q, q = ((y 0).val - 128 * (c.val / 2)) / 32 := ⟨_, rfl⟩
    have hq6 : q < 6 := by omega
    refine ⟨.inl ⟨q, hq6⟩, ?_⟩
    exact (mem_rows (k0_off2_inb c ⟨q, hq6⟩) (off2_0 c ⟨q, hq6⟩) (off2_1 c ⟨q, hq6⟩) y).mpr
      ⟨by show 128 * (c.val / 2) + 32 * q ≤ (y 0).val; omega,
       by show (y 0).val < 128 * (c.val / 2) + 32 * q + 32; omega⟩
  · obtain ⟨q, hq⟩ : ∃ q, q = ((y 0).val - (192 - 192 * (c.val / 2))) / 64 := ⟨_, rfl⟩
    have hq2 : q < 2 := by omega
    refine ⟨.inr ⟨q, hq2⟩, ?_⟩
    exact (mem_rows (k0_off4_inb c ⟨q, hq2⟩) (off4_0 c ⟨q, hq2⟩) (off4_1 c ⟨q, hq2⟩) y).mpr
      ⟨by show (64 * q + 192) - 192 * (c.val / 2) ≤ (y 0).val; omega,
       by show (y 0).val < (64 * q + 192) - 192 * (c.val / 2) + 64; omega⟩
/-- After the eight stores the send buffer holds its 320 rows of the cast block, whatever it held before. -/
theorem ys_writes (c : Dev nD) (f : (cc0_scratch0 : Ref sig .tc).ty.Contents (Elt F)) :
    ysM.view.writes (Elt F) f (ysOrder.map (ysPiece m c)) = YS m c :=
  writes_whole_eq cc0_scratch0 f (YS m c) (ysOrder.map (ysPiece m c))
    (fun p hp x => by
      obtain ⟨t, -, rfl⟩ := List.mem_map.mp hp
      exact ysPiece_agree m c t x)
    (fun y => by
      obtain ⟨t, ht⟩ := ys_cover m c y
      exact ⟨_, List.mem_map.mpr ⟨t, ysOrder_mem t, rfl⟩, ht⟩)
/-- The same with the stores nested in program order, each over what the one before left. -/
theorem ys_filled (c : Dev nD) (f : (cc0_scratch0 : Ref sig .tc).ty.Contents (Elt F)) :
    stYB m c 1 (stYB m c 0 (stYA m c 5 (stYA m c 4 (stYA m c 3 (stYA m c 2 (stYA m c 1 (stYA m c 0 f))))))) = YS m c :=
  ys_writes m c f

/-! ## The forwarded-rows buffer: six stores -/

/-- Chunk k stored over contents f: the sum of rows 128x + 32k of the send and of the receive buffer. -/
abbrev stRD (c : Dev nD) (k : Fin 6) (f : (cc0_scratch2 : Ref sig .tc).ty.Contents (Elt F)) :
    (cc0_scratch2 : Ref sig .tc).ty.Contents (Elt F) :=
  (rdM.access (rR k) : View _ _ _ _ _).write (Elt F) f
    (k0_pay9 (ysM.view.readAt (Elt F) (sYA c k).toLoadRect (YS m c))
      (yrM.view.readAt (Elt F) (sYA c k).toLoadRect (YR m c))) Finset.univ

/-- What the store writes is the pair's sum at rows 320x + 32k: 192x + (128x + 32k) = 320x + 32k. -/
theorem payRD_agree (c : Dev nD) (k : Fin 6) (x : S32x512.Idx) :
    k0_pay9 (ysM.view.readAt (Elt F) (sYA c k).toLoadRect (YS m c))
      (yrM.view.readAt (Elt F) (sYA c k).toLoadRect (YR m c)) x = RD m c ((rR k).emb x) := by
  have e₁ : (sXA c k).emb x = (wY c).emb ((sYA c k).emb x) :=
    emb_emb_rows (R := 512) (R' := 320) (n := 32) (k0_off1_inb c k) (inbY c) (k0_off2_inb c k)
      (by rw [off1_0, off2_0]; show _ = 192 * (c.val / 2) + _; omega) (off1_1 c k) rfl (off2_1 c k) x
  have e₂ : (sXA c k).emb x = (wF c).emb ((rR k).emb x) :=
    emb_emb_rows (R := 512) (R' := 192) (n := 32) (k0_off1_inb c k) (inbF c) (inbR k)
      (by rw [off1_0]; rfl) (off1_1 c k) rfl rfl x
  rw [pay9_eq]
  show addf (Tx m c) (Tx m (yp c)) ((wY c).emb ((sYA c k).emb x))
    = addf (Tx m c) (Tx m (yp c)) ((wF c).emb ((rR k).emb x))
  exact congrArg (addf (Tx m c) (Tx m (yp c))) (e₁.symm.trans e₂)
/-- The store writes the forwarded rows on its chunk, -/
theorem stRD_on (c : Dev nD) (k : Fin 6) (f : (cc0_scratch2 : Ref sig .tc).ty.Contents (Elt F)) :
    ∀ i ∈ (rdC k).view.set, stRD m c k f i = RD m c i := by
  intro i hi
  rw [rdC_set] at hi
  obtain ⟨x, rfl⟩ : ∃ x, (rR k).emb x = i := (rR k).exists_idx_of_mem hi
  exact (write_whole_emb cc0_scratch2 (rR k) f _ x).trans (payRD_agree m c k x)
/-- and changes nothing else. -/
theorem stRD_off (c : Dev nD) (k : Fin 6) (f : (cc0_scratch2 : Ref sig .tc).ty.Contents (Elt F)) :
    ∀ i ∉ (rdC k).view.set, stRD m c k f i = f i := by
  intro i hi
  rw [rdC_set] at hi
  exact write_whole_off cc0_scratch2 (rR k) f _ hi

/-! ## The result block: fourteen stores -/

/-- Chunk k of the forwarded rows, read back, stored at rows 320x + 32k. -/
abbrev stXA (c : Dev nD) (k : Fin 6) (f : (cc0_stg1_0 : Ref sig .tc).ty.Contents (Elt F)) :
    (cc0_stg1_0 : Ref sig .tc).ty.Contents (Elt F) :=
  (oM.access (sXA c k) : View _ _ _ _ _).write (Elt F) f
    (rdM.view.readAt (Elt F) (rR k).toLoadRect (RD m c)) Finset.univ
/-- The sum of chunk k of the second family stored at rows 192 + 64k. -/
abbrev stXB (c : Dev nD) (k : Fin 2) (f : (cc0_stg1_0 : Ref sig .tc).ty.Contents (Elt F)) :
    (cc0_stg1_0 : Ref sig .tc).ty.Contents (Elt F) :=
  (oM.access (sXB c k) : View _ _ _ _ _).write (Elt F) f
    (k0_pay15 (ysM.view.readAt (Elt F) (sYB c k).toLoadRect (YS m c))
      (yrM.view.readAt (Elt F) (sYB c k).toLoadRect (YR m c))) Finset.univ
/-- Chunk k of the other pair's forwarded rows stored at rows 320(1 - x) + 32k. -/
abbrev stXC (c : Dev nD) (k : Fin 6) (f : (cc0_stg1_0 : Ref sig .tc).ty.Contents (Elt F)) :
    (cc0_stg1_0 : Ref sig .tc).ty.Contents (Elt F) :=
  (oM.access (sXC c k) : View _ _ _ _ _).write (Elt F) f
    (xrM.view.readAt (Elt F) (rR k).toLoadRect (XR m c)) Finset.univ

/-- The result block on the 320 rows the device exchanged, -/
theorem OUT_own (c : Dev nD) (i : S512x512.Idx)
    (h : 192 * (c.val / 2) ≤ (i 0).val ∧ (i 0).val < 192 * (c.val / 2) + 320) : OUT m c i = Sm m c i :=
  if_pos h
/-- and on the other 192. -/
theorem OUT_other (c : Dev nD) (i : S512x512.Idx)
    (h : ¬ (192 * (c.val / 2) ≤ (i 0).val ∧ (i 0).val < 192 * (c.val / 2) + 320)) : OUT m c i = Sm m (xp c) i :=
  if_neg h
/-- Rows 320x + 32k are among the exchanged rows, and hold the pair's sum. -/
theorem payXA_agree (c : Dev nD) (k : Fin 6) (x : S32x512.Idx) :
    rdM.view.readAt (Elt F) (rR k).toLoadRect (RD m c) x = OUT m c ((sXA c k).emb x) := by
  have hX := row_le c
  have hx : (x 0).val < 32 := (x 0).isLt
  have hk : k.val < 6 := k.isLt
  have e : (sXA c k).emb x = (wF c).emb ((rR k).emb x) :=
    emb_emb_rows (R := 512) (R' := 192) (n := 32) (k0_off1_inb c k) (inbF c) (inbR k)
      (by rw [off1_0]; rfl) (off1_1 c k) rfl rfl x
  have hrow : ((sXA c k).emb x 0).val = 320 * (c.val / 2) + 32 * k.val + (x 0).val :=
    (emb_row (R := 512) (n := 32) (k0_off1_inb c k) x).trans (by rw [off1_0])
  rw [OUT_own m c _ ⟨by rw [hrow]; omega, by rw [hrow]; omega⟩, e]
  rfl
/-- Rows 192 + 64k are among the exchanged rows, and the stored sum is the pair's sum there. -/
theorem payXB_agree (c : Dev nD) (k : Fin 2) (x : S64x512.Idx) :
    k0_pay15 (ysM.view.readAt (Elt F) (sYB c k).toLoadRect (YS m c))
      (yrM.view.readAt (Elt F) (sYB c k).toLoadRect (YR m c)) x = OUT m c ((sXB c k).emb x) := by
  have hX := row_le c
  have hx : (x 0).val < 64 := (x 0).isLt
  have hk : k.val < 2 := k.isLt
  have e : (sXB c k).emb x = (wY c).emb ((sYB c k).emb x) :=
    emb_emb_rows (R := 512) (R' := 320) (n := 64) (k0_off3_inb c k) (inbY c) (k0_off4_inb c k)
      (by rw [off3_0, off4_0]; show _ = 192 * (c.val / 2) + _; omega) (off3_1 c k) rfl (off4_1 c k) x
  have hrow : ((sXB c k).emb x 0).val = 64 * k.val + 192 + (x 0).val :=
    (emb_row (R := 512) (n := 64) (k0_off3_inb c k) x).trans (by rw [off3_0])
  rw [OUT_own m c _ ⟨by rw [hrow]; omega, by rw [hrow]; omega⟩, e]
  rfl
/-- Rows 320(1 - x) + 32k are outside the exchanged rows, and hold the other pair's sum. -/
theorem payXC_agree (c : Dev nD) (k : Fin 6) (x : S32x512.Idx) :
    xrM.view.readAt (Elt F) (rR k).toLoadRect (XR m c) x = OUT m c ((sXC c k).emb x) := by
  have hX := row_le c
  have hx : (x 0).val < 32 := (x 0).isLt
  have hk : k.val < 6 := k.isLt
  have e : (sXC c k).emb x = (wF (xp c)).emb ((rR k).emb x) :=
    emb_emb_rows (R := 512) (R' := 192) (n := 32) (k0_off7_inb c k) (inbF (xp c)) (inbR k)
      (by rw [off7_0]; show _ = 320 * ((xp c).val / 2) + 32 * k.val; rw [xp_row]; omega) (off7_1 c k) rfl rfl x
  have hrow : ((sXC c k).emb x 0).val = (32 * k.val + 320) - 320 * (c.val / 2) + (x 0).val :=
    (emb_row (R := 512) (n := 32) (k0_off7_inb c k) x).trans (by rw [off7_0])
  rw [OUT_other m c _ (fun h => by rw [hrow] at h; omega), e]
  rfl
/-- Each store writes the result block's contents on its rows and changes nothing else. -/
theorem stXA_on (c : Dev nD) (k : Fin 6) (f : (cc0_stg1_0 : Ref sig .tc).ty.Contents (Elt F)) :
    ∀ i ∈ (sXA c k).set, stXA m c k f i = OUT m c i := by
  intro i hi
  obtain ⟨x, rfl⟩ : ∃ x, (sXA c k).emb x = i := (sXA c k).exists_idx_of_mem hi
  exact (write_whole_emb cc0_stg1_0 (sXA c k) f _ x).trans (payXA_agree m c k x)
theorem stXA_off (c : Dev nD) (k : Fin 6) (f : (cc0_stg1_0 : Ref sig .tc).ty.Contents (Elt F)) :
    ∀ i ∉ (sXA c k).set, stXA m c k f i = f i :=
  fun i hi => write_whole_off cc0_stg1_0 (sXA c k) f _ hi
/-- The same for the second family's sums, -/
theorem stXB_on (c : Dev nD) (k : Fin 2) (f : (cc0_stg1_0 : Ref sig .tc).ty.Contents (Elt F)) :
    ∀ i ∈ (sXB c k).set, stXB m c k f i = OUT m c i := by
  intro i hi
  obtain ⟨x, rfl⟩ : ∃ x, (sXB c k).emb x = i := (sXB c k).exists_idx_of_mem hi
  exact (write_whole_emb cc0_stg1_0 (sXB c k) f _ x).trans (payXB_agree m c k x)
theorem stXB_off (c : Dev nD) (k : Fin 2) (f : (cc0_stg1_0 : Ref sig .tc).ty.Contents (Elt F)) :
    ∀ i ∉ (sXB c k).set, stXB m c k f i = f i :=
  fun i hi => write_whole_off cc0_stg1_0 (sXB c k) f _ hi
/-- and for the other pair's forwarded rows. -/
theorem stXC_on (c : Dev nD) (k : Fin 6) (f : (cc0_stg1_0 : Ref sig .tc).ty.Contents (Elt F)) :
    ∀ i ∈ (sXC c k).set, stXC m c k f i = OUT m c i := by
  intro i hi
  obtain ⟨x, rfl⟩ : ∃ x, (sXC c k).emb x = i := (sXC c k).exists_idx_of_mem hi
  exact (write_whole_emb cc0_stg1_0 (sXC c k) f _ x).trans (payXC_agree m c k x)
theorem stXC_off (c : Dev nD) (k : Fin 6) (f : (cc0_stg1_0 : Ref sig .tc).ty.Contents (Elt F)) :
    ∀ i ∉ (sXC c k).set, stXC m c k f i = f i :=
  fun i hi => write_whole_off cc0_stg1_0 (sXC c k) f _ hi

/-- The fourteen stores as pieces, -/
def outPiece (c : Dev nD) : Fin 6 ⊕ Fin 2 ⊕ Fin 6 → View.Piece (Elt F) S512x512 .bf16
  | .inl k => ⟨sXA c k, rdM.view.readAt (Elt F) (rR k).toLoadRect (RD m c)⟩
  | .inr (.inl k) => ⟨sXB c k, k0_pay15 (ysM.view.readAt (Elt F) (sYB c k).toLoadRect (YS m c))
      (yrM.view.readAt (Elt F) (sYB c k).toLoadRect (YR m c))⟩
  | .inr (.inr k) => ⟨sXC c k, xrM.view.readAt (Elt F) (rR k).toLoadRect (XR m c)⟩
/-- in program order, the last store first: the six forwarded chunks, then the two sums interleaved with the first two
    received chunks, then the other four. -/
def outOrder : List (Fin 6 ⊕ Fin 2 ⊕ Fin 6) :=
  [.inr (.inr 5), .inr (.inr 4), .inr (.inr 3), .inr (.inr 2), .inr (.inr 1), .inr (.inl 1), .inr (.inr 0), .inr (.inl 0),
   .inl 5, .inl 4, .inl 3, .inl 2, .inl 1, .inl 0]

theorem outOrder_mem : ∀ t : Fin 6 ⊕ Fin 2 ⊕ Fin 6, t ∈ outOrder := by
  intro t
  unfold outOrder
  rcases t with k | k | k
  · simp only [List.mem_cons, List.mem_nil_iff, Sum.inl.injEq, Sum.inr.injEq, reduceCtorEq, false_or, or_false]
    omega
  · simp only [List.mem_cons, List.mem_nil_iff, Sum.inl.injEq, Sum.inr.injEq, reduceCtorEq, false_or, or_false]
    omega
  · simp only [List.mem_cons, List.mem_nil_iff, Sum.inl.injEq, Sum.inr.injEq, reduceCtorEq, false_or, or_false]
    omega
theorem outPiece_agree (c : Dev nD) : ∀ (t : Fin 6 ⊕ Fin 2 ⊕ Fin 6) (x : (outPiece m c t).1.shape.Idx),
    (outPiece m c t).2 x = OUT m c ((outPiece m c t).1.emb x) :=
  fun t => match t with
  | .inl k => fun x => payXA_agree m c k x
  | .inr (.inl k) => fun x => payXB_agree m c k x
  | .inr (.inr k) => fun x => payXC_agree m c k x
/-- The fourteen bands tile the 512 rows: 320x .. 320x + 192, 192 .. 320, 320(1 - x) .. 320(1 - x) + 192. -/
theorem out_cover (c : Dev nD) (y : S512x512.Idx) : ∃ t, y ∈ (outPiece m c t).1.set := by
  have hX := row_le c
  have hy : (y 0).val < 512 := (y 0).isLt
  by_cases hA : 320 * (c.val / 2) ≤ (y 0).val ∧ (y 0).val < 320 * (c.val / 2) + 192
  · obtain ⟨q, hq⟩ : ∃ q, q = ((y 0).val - 320 * (c.val / 2)) / 32 := ⟨_, rfl⟩
    have hq6 : q < 6 := by omega
    refine ⟨.inl ⟨q, hq6⟩, ?_⟩
    exact (mem_rows (k0_off1_inb c ⟨q, hq6⟩) (off1_0 c ⟨q, hq6⟩) (off1_1 c ⟨q, hq6⟩) y).mpr
      ⟨by show 320 * (c.val / 2) + 32 * q ≤ (y 0).val; omega,
       by show (y 0).val < 320 * (c.val / 2) + 32 * q + 32; omega⟩
  · by_cases hB : 192 ≤ (y 0).val ∧ (y 0).val < 320
    · obtain ⟨q, hq⟩ : ∃ q, q = ((y 0).val - 192) / 64 := ⟨_, rfl⟩
      have hq2 : q < 2 := by omega
      refine ⟨.inr (.inl ⟨q, hq2⟩), ?_⟩
      exact (mem_rows (k0_off3_inb c ⟨q, hq2⟩) (off3_0 c ⟨q, hq2⟩) (off3_1 c ⟨q, hq2⟩) y).mpr
        ⟨by show 64 * q + 192 ≤ (y 0).val; omega,
         by show (y 0).val < 64 * q + 192 + 64; omega⟩
    · obtain ⟨q, hq⟩ : ∃ q, q = ((y 0).val - (320 - 320 * (c.val / 2))) / 32 := ⟨_, rfl⟩
      have hq6 : q < 6 := by omega
      refine ⟨.inr (.inr ⟨q, hq6⟩), ?_⟩
      exact (mem_rows (k0_off7_inb c ⟨q, hq6⟩) (off7_0 c ⟨q, hq6⟩) (off7_1 c ⟨q, hq6⟩) y).mpr
        ⟨by show (32 * q + 320) - 320 * (c.val / 2) ≤ (y 0).val; omega,
         by show (y 0).val < (32 * q + 320) - 320 * (c.val / 2) + 32; omega⟩
/-- After the fourteen stores the result block holds the whole sum, whatever it held before. -/
theorem out_writes (c : Dev nD) (f : (cc0_stg1_0 : Ref sig .tc).ty.Contents (Elt F)) :
    oM.view.writes (Elt F) f (outOrder.map (outPiece m c)) = OUT m c :=
  writes_whole_eq cc0_stg1_0 f (OUT m c) (outOrder.map (outPiece m c))
    (fun p hp x => by
      obtain ⟨t, -, rfl⟩ := List.mem_map.mp hp
      exact outPiece_agree m c t x)
    (fun y => by
      obtain ⟨t, ht⟩ := out_cover m c y
      exact ⟨_, List.mem_map.mpr ⟨t, outOrder_mem t, rfl⟩, ht⟩)
/-- The same with the stores nested in program order, each over what the one before left. -/
theorem out_filled (c : Dev nD) (f : (cc0_stg1_0 : Ref sig .tc).ty.Contents (Elt F)) :
    stXC m c 5 (stXC m c 4 (stXC m c 3 (stXC m c 2 (stXC m c 1 (stXB m c 1 (stXC m c 0 (stXB m c 0
      (stXA m c 5 (stXA m c 4 (stXA m c 3 (stXA m c 2 (stXA m c 1 (stXA m c 0 f))))))))))))) = OUT m c :=
  out_writes m c f

/-- info: 'Cert.KernelIdeal.AllReduce.ys_filled' depends on axioms: [propext, Classical.choice, Quot.sound] -/
#guard_msgs in #print axioms ys_filled
/-- info: 'Cert.KernelIdeal.AllReduce.out_filled' depends on axioms: [propext, Classical.choice, Quot.sound] -/
#guard_msgs in #print axioms out_filled
/-- info: 'Cert.KernelIdeal.AllReduce.stRD_on' depends on axioms: [propext, Classical.choice, Quot.sound] -/
#guard_msgs in #print axioms stRD_on

end Cert.KernelIdeal.AllReduce

end
-- ==== Proof.PartDefs.lean ====
/-
  Shorthands shared by the part-by-part account of the kernel body: the words the first part computes and hands on,
  the resources one remote departure consumes, and what a wait on an own DMA cell consumes and returns.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The words the first part computes from the device's id and hands on. -/
abbrev w2 (c : Dev nD) : BitVec 32 := Scalar.remsi (Scalar.divsi (Dev.word c) 2#32) 2#32
abbrev w5 (c : Dev nD) : BitVec 32 := Scalar.remsi (Scalar.divsi (Dev.word c) 1#32) 2#32
abbrev w6 (c : Dev nD) : BitVec 32 := Scalar.subi 1#32 (w5 c)
abbrev w7 (c : Dev nD) : BitVec 32 := Scalar.subi 1#32 (w2 c)
abbrev w8 (c : Dev nD) : BitVec 32 := Scalar.muli (w2 c) 192#32
abbrev w9 (c : Dev nD) : BitVec 32 := Scalar.muli (w2 c) 128#32
abbrev w11 (c : Dev nD) : BitVec 32 := Scalar.muli (Scalar.subi 1#32 (w2 c)) 192#32
abbrev w13 (c : Dev nD) : BitVec 32 := Scalar.muli (Scalar.subi 1#32 (w2 c)) 320#32

/-- One 32-row chunk of the first exchange: what its departure consumes. -/
def yAin (c : Dev nD) (k : Fin 6) (κ₁ κ₂ : ℕ) (fd : Buf (Elt F) ((yrA c k).view.loc (yp c : Thread nD τ))) : sProp 𝕄 :=
  iprop(cellInv ER (sched m) κ₁ (dCell c (ysSA k)) ∗ cellInv ER (sched m) κ₂ (dCell (yp c) (yrSA k))
    ∗ reached ER (dCell c (ysSA k)) 0 ∗ reached ER (dCell (yp c) (yrSA k)) 0
    ∗ dutyTok ER (dCell c (ysSA k)) 0 false ∗ dutyTok ER (dCell (yp c) (yrSA k)) 0 false
    ∗ pYsA m c k ∗ ((yrA c k).view.loc (yp c : Thread nD τ) ↦[(yrA c k).view.set]{fullShare} fd))

/-- What a wait on an own DMA cell consumes: the cell's invariant, its credit, the position at round 0; -/
def waitIn (c : Dev nD) (q : DmaSem sig) (κ : ℕ) : sProp 𝕄 :=
  iprop(cellInv ER (sched m) κ (dCell c q) ∗ cred (tallyAt (dCell c q) () (dmaAmt q.val)) ∗ atPos ER (dCell c q) 0 ∅ 0)
/-- and what it returns: the position at round 1 and the cell's payload. -/
def waitOut (c : Dev nD) (q : DmaSem sig) : sProp 𝕄 := iprop(atPos ER (dCell c q) 1 ∅ 0 ∗ dmaPay m c q.val)

end Cert.KernelIdeal.AllReduce

end
-- ==== Proof.Part1.lean ====
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- Both partners are signalled, each handed one of the device's receive buffers; the first chunk of the send buffer is
    filled. -/
theorem part1 (c : Dev nD) (κ₁ κ₂ : ℕ)
    (Q : (Σ' (d0 : Dev nD) (v2 : BitVec 32) (v5 : BitVec 32) (v6 : BitVec 32) (v7 : BitVec 32) (v8 : BitVec 32) (v9 : BitVec 32) (v11 : BitVec 32) (v13 : BitVec 32), Sems sig S_) → sProp 𝕄)
    (O : CellTallies nD τ sig Unit) (W : Waits sig Unit)
    (f0 : Buf (Elt F) ((c : Thread nD τ).loc cc0_scratch0)) (f1 : Buf (Elt F) ((c : Thread nD τ).loc cc0_scratch1))
    (f3 : Buf (Elt F) ((c : Thread nD τ).loc cc0_scratch3)) :
    iprop(cellInv ER (sched m) κ₁ (barCell (yp c)) ∗ cellInv ER (sched m) κ₂ (barCell (xp c))
        ∗ reached ER (barCell (yp c)) 0 ∗ reached ER (barCell (xp c)) 0
        ∗ dutyTok ER (barCell (yp c)) 0 false ∗ dutyTok ER (barCell (xp c)) 0 true
        ∗ owes (c : Thread nD τ) (O + tallyAt (barCell (xp c)) () 1 + tallyAt (barCell (yp c)) () 1) W
        ∗ (((c : Thread nD τ).loc cc0_scratch1) ↦{fullShare} f1) ∗ (((c : Thread nD τ).loc cc0_scratch3) ↦{fullShare} f3)
        ∗ (((c : Thread nD τ).loc cc0_stg0_0) ↦{fullShare} xblk m c)
        ∗ (((c : Thread nD τ).loc cc0_scratch0) ↦{fullShare} f0))
      ⊢ iprop(((owes (c : Thread nD τ) O W
              ∗ (((c : Thread nD τ).loc cc0_stg0_0) ↦{fullShare} xblk m c)
              ∗ (((c : Thread nD τ).loc cc0_scratch0) ↦{fullShare} stYA m c 0 f0))
            -∗ Q ⟨c, w2 c, w5 c, w6 c, w7 c, w8 c, w9 c, w11 c, w13 c, SemArray.scalar (sig.barrier 0 rfl)⟩)
          -∗ wp frame (wpE (defs₀ (F := F)) 𝒱₀ (c : Thread nD τ) none) Set.univ (k0_part1 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7) Q) := by
  iintro ⟨#HIy, #HIx, #Hry, #Hrx, Hty, Htx, HO, Hyr, Hxr, Hx, Hys⟩ Hk
  rw [k0_part1_eq_skeleton]; unfold k0_part1_skel
  simp only [semSignalWord, Prog.lift, Prog.bind_op, Prog.bind_ret, Prog.pure_eq_ret, wp_deviceId]
  iapply (signal_y m c _ (dev1_eq c) κ₁ f1 _ W) $$ [HO Hty Hyr]
  · isplitr; · iexact HIy
    isplitl [HO]; · iexact HO
    isplitl [Hty]; · iexact Hty
    isplitl [Hyr]; · iexact Hyr
    iexact Hry
  iintro HO
  iapply (signal_x m c _ (dev2_eq c) κ₂ f3 O W) $$ [HO Htx Hxr]
  · isplitr; · iexact HIx
    isplitl [HO]; · iexact HO
    isplitl [Htx]; · iexact Htx
    isplitl [Hxr]; · iexact Hxr
    iexact Hrx
  iintro HO
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYA c 0) (Mk := Finset.univ) (Finset.subset_univ _)) $$ Hys; iintro Hys
  rw [wp_ret]; imodintro
  iapply Hk
  isplitl [HO]; · iexact HO
  isplitl [Hx]; · iexact Hx
  iexact Hys

end Cert.KernelIdeal.AllReduce

end
-- ==== Proof.Part2.lean ====
/-
  The second part of the kernel body: four more 32-row chunks of the device's block are cast and written to the send
  buffer, each to its own rows. Nothing else is touched; the part hands on one word it computes.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- Chunks 1 to 4 of the first family are stored in the send buffer, one over the other's result. -/
theorem part2 (c : Dev nD) (v8 v9 : BitVec 32) (Q : BitVec 32 → sProp 𝕄)
    (f0 : Buf (Elt F) ((c : Thread nD τ).loc cc0_scratch0)) :
    iprop((((c : Thread nD τ).loc cc0_stg0_0) ↦{fullShare} xblk m c)
        ∗ (((c : Thread nD τ).loc cc0_scratch0) ↦{fullShare} f0))
      ⊢ iprop((((((c : Thread nD τ).loc cc0_stg0_0) ↦{fullShare} xblk m c)
              ∗ (((c : Thread nD τ).loc cc0_scratch0) ↦{fullShare} stYA m c 4 (stYA m c 3 (stYA m c 2 (stYA m c 1 f0)))))
            -∗ Q (Scalar.addi v9 160#32))
          -∗ wp frame (wpE (defs₀ (F := F)) 𝒱₀ (c : Thread nD τ) none) Set.univ (k0_part2 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v8 v9) Q) := by
  iintro ⟨Hx, Hys⟩ Hk
  rw [k0_part2_eq_skeleton]; unfold k0_part2_skel
  simp only [Prog.lift, Prog.bind_op, Prog.bind_ret, Prog.pure_eq_ret]
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYA c 1) (Mk := Finset.univ) (Finset.subset_univ _)) $$ Hys; iintro Hys
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYA c 2) (Mk := Finset.univ) (Finset.subset_univ _)) $$ Hys; iintro Hys
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYA c 3) (Mk := Finset.univ) (Finset.subset_univ _)) $$ Hys; iintro Hys
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYA c 4) (Mk := Finset.univ) (Finset.subset_univ _)) $$ Hys; iintro Hys
  rw [wp_ret]; imodintro
  iapply Hk
  isplitl [Hx]; · iexact Hx
  iexact Hys

end Cert.KernelIdeal.AllReduce

end
-- ==== Proof.Part3.lean ====
/-
  The third part of the kernel body: the last 32-row chunk and the two 64-row chunks of the device's block are cast
  and written to the send buffer, which is then full; the device then waits for both units of its barrier semaphore,
  one from each partner, and with them receives each partner's receive buffer. It still owes every arrival it will
  cause, all of them on cells above the barrier's level.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- Chunk 5 of the first family and both chunks of the second are stored in the send buffer; both partners have entered
    the kernel, and their receive buffers are the device's to write. -/
theorem part3 (c : Dev nD) (v2 v6 v8 v9 v11 v73 : BitVec 32) (κ : ℕ) (Q : PUnit → sProp 𝕄)
    (O : CellTallies nD τ sig Unit) (W : Waits sig Unit) (hO : Above 1 O)
    (f0 : Buf (Elt F) ((c : Thread nD τ).loc cc0_scratch0)) :
    iprop(cellInv ER (sched m) κ (barCell c) ∗ levAts L lv
        ∗ cred (tallyAt (barCell c) () 2) ∗ atPos ER (barCell c) 0 ∅ 0
        ∗ owes (c : Thread nD τ) O W
        ∗ (((c : Thread nD τ).loc cc0_stg0_0) ↦{fullShare} xblk m c)
        ∗ (((c : Thread nD τ).loc cc0_scratch0) ↦{fullShare} f0))
      ⊢ iprop(((owes (c : Thread nD τ) O (insert (SemLoc.reg barS, ()) W) ∗ atPos ER (barCell c) 1 ∅ 0
              ∗ pBarY c ∗ pBarX c
              ∗ (((c : Thread nD τ).loc cc0_stg0_0) ↦{fullShare} xblk m c)
              ∗ (((c : Thread nD τ).loc cc0_scratch0) ↦{fullShare} stYB m c 1 (stYB m c 0 (stYA m c 5 f0))))
            -∗ Q ⟨⟩)
          -∗ wp frame (wpE (defs₀ (F := F)) 𝒱₀ (c : Thread nD τ) none) Set.univ (k0_part3 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v6 v8 v9 v11 (SemArray.scalar (sig.barrier 0 rfl)) v73) Q) := by
  iintro ⟨#HI, #Hlev, Hc, Hat, HO, Hx, Hys⟩ Hk
  rw [k0_part3_eq_skeleton]; unfold k0_part3_skel
  simp only [semWaitWord, Prog.lift, Prog.bind_op, Prog.bind_ret, Prog.pure_eq_ret]
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYA c 5) (Mk := Finset.univ) (Finset.subset_univ _)) $$ Hys; iintro Hys
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYB c 0) (Mk := Finset.univ) (Finset.subset_univ _)) $$ Hys; iintro Hys
  iapply (wp_load 𝒱₀ (c : Thread nD τ) none Set.univ (m := xM) (Finset.subset_univ _)) $$ Hx; iintro Hx
  iapply (wp_load 𝒱₀ (c : Thread nD τ) none Set.univ (m := ysM) (Finset.subset_univ _)) $$ Hys; iintro Hys
  iapply (wp_store 𝒱₀ (c : Thread nD τ) none Set.univ (m := ysM) (r := sYB c 1) (Mk := Finset.univ) (Finset.subset_univ _)) $$ Hys; iintro Hys
  iapply (wait_bar m c κ O W hO) $$ [Hc HO Hat]
  · isplitr; · iexact HI
    isplitl [Hc]; · iexact Hc
    isplitl [HO]; · iexact HO
    isplitr; · iexact Hlev
    iexact Hat
  iintro ⟨HO, Hat, HbY, HbX⟩
  rw [wp_ret]; imodintro
  iapply Hk
  isplitl [HO]; · iexact HO
  isplitl [Hat]; · iexact Hat
  isplitl [HbY]; · iexact HbY
  isplitl [HbX]; · iexact HbX
  isplitl [Hx]; · iexact Hx
  iexact Hys

end Cert.KernelIdeal.AllReduce

end
-- ==== Proof.Part4.lean ====
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- The first three 32-row chunks leave for `yp c`. -/
theorem part4 (c : Dev nD) (v2 v6 v9 : BitVec 32) (κ₁ κ₂ : Fin 3 → ℕ)
    (Q : PUnit → sProp 𝕄) (O : CellTallies nD τ sig Unit) (W : Waits sig Unit)
    (fd0 : Buf (Elt F) ((yrA c 0).view.loc (yp c : Thread nD τ))) (fd1 : Buf (Elt F) ((yrA c 1).view.loc (yp c : Thread nD τ)))
    (fd2 : Buf (Elt F) ((yrA c 2).view.loc (yp c : Thread nD τ)))
    (hland : ∀ (k : Fin 6) (fd : Buf (Elt F) ((yrA c k).view.loc (yp c : Thread nD τ))),
      (((yrA c k).view.loc (yp c : Thread nD τ) ↦[(yrA c k).view.set]{fullShare}
        ((yrA c k).view.write (Elt F) fd ((ysA c k).view.read (Elt F) (YS m c)) Finset.univ)) : sProp 𝕄) = pYrA m (yp c) k) :
    iprop(yAin m c 0 (κ₁ 0) (κ₂ 0) fd0 ∗ yAin m c 1 (κ₁ 1) (κ₂ 1) fd1 ∗ yAin m c 2 (κ₁ 2) (κ₂ 2) fd2
        ∗ owes (c : Thread nD τ) (O + tallyAt (dCell (yp c) (yrSA 2)) () NyA + tallyAt (dCell (yp c) (yrSA 1)) () NyA
            + tallyAt (dCell (yp c) (yrSA 0)) () NyA) W)
      ⊢ iprop(((cred (tallyAt (dCell c (ysSA 0)) () NyA) ∗ cred (tallyAt (dCell c (ysSA 1)) () NyA) ∗ cred (tallyAt (dCell c (ysSA 2)) () NyA)
              ∗ owes (c : Thread nD τ) O W) -∗ Q ⟨⟩)
          -∗ wp frame (wpE (defs₀ (F := F)) 𝒱₀ (c : Thread nD τ) none) Set.univ (k0_part4 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v6 v9) Q) := by
  unfold yAin
  iintro ⟨⟨#HI0, #HJ0, #Hr0, #Hs0, Ht0, Hu0, Hsrc0, Hdst0⟩, ⟨#HI1, #HJ1, #Hr1, #Hs1, Ht1, Hu1, Hsrc1, Hdst1⟩,
    ⟨#HI2, #HJ2, #Hr2, #Hs2, Ht2, Hu2, Hsrc2, Hdst2⟩, HO⟩ Hk
  rw [k0_part4_eq_skeleton]; unfold k0_part4_skel
  simp only [Prog.lift, Prog.bind_op, Prog.bind_ret, Prog.pure_eq_ret]
  iapply (send_yA m c _ (dev3_eq c) 0 (κ₁ 0) (κ₂ 0) fd0 (hland 0 fd0) _ W) $$ [Hsrc0 Hdst0 HO Ht0 Hu0]
  · isplitr; · iexact HI0
    isplitr; · iexact HJ0
    isplitl [Hsrc0]; · iexact Hsrc0
    isplitl [Hdst0]; · iexact Hdst0
    isplitl [HO]; · iexact HO
    isplitl [Ht0]; · iexact Ht0
    isplitr; · iexact Hr0
    isplitl [Hu0]; · iexact Hu0
    iexact Hs0
  iintro ⟨Hc0, HO⟩
  iapply (send_yA m c _ (dev4_eq c) 1 (κ₁ 1) (κ₂ 1) fd1 (hland 1 fd1) _ W) $$ [Hsrc1 Hdst1 HO Ht1 Hu1]
  · isplitr; · iexact HI1
    isplitr; · iexact HJ1
    isplitl [Hsrc1]; · iexact Hsrc1
    isplitl [Hdst1]; · iexact Hdst1
    isplitl [HO]; · iexact HO
    isplitl [Ht1]; · iexact Ht1
    isplitr; · iexact Hr1
    isplitl [Hu1]; · iexact Hu1
    iexact Hs1
  iintro ⟨Hc1, HO⟩
  iapply (send_yA m c _ (dev5_eq c) 2 (κ₁ 2) (κ₂ 2) fd2 (hland 2 fd2) O W) $$ [Hsrc2 Hdst2 HO Ht2 Hu2]
  · isplitr; · iexact HI2
    isplitr; · iexact HJ2
    isplitl [Hsrc2]; · iexact Hsrc2
    isplitl [Hdst2]; · iexact Hdst2
    isplitl [HO]; · iexact HO
    isplitl [Ht2]; · iexact Ht2
    isplitr; · iexact Hr2
    isplitl [Hu2]; · iexact Hu2
    iexact Hs2
  iintro ⟨Hc2, HO⟩
  rw [wp_ret]; imodintro
  iapply Hk
  isplitl [Hc0]; · iexact Hc0
  isplitl [Hc1]; · iexact Hc1
  isplitl [Hc2]; · iexact Hc2
  iexact HO

end Cert.KernelIdeal.AllReduce

end
-- ==== Proof.Part5.lean ====
/-
  The fifth part of the kernel body: the last three 32-row chunks of the first exchange leave for the partner along
  the second axis. Each departure lends the chunk's source rows to its send cell at half share, gives the partner's
  rows (held outright since the entry handshake) to the partner's receive cell with the contents that will have
  landed, and discharges the arrival the device owed on that cell.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- Chunks 3, 4 and 5 of the first family leave for `yp c`. -/
theorem part5 (c : Dev nD) (v2 v6 v9 v11 : BitVec 32) (κ₁ κ₂ : Fin 6 → ℕ)
    (Q : PUnit → sProp 𝕄) (O : CellTallies nD τ sig Unit) (W : Waits sig Unit)
    (fd3 : Buf (Elt F) ((yrA c 3).view.loc (yp c : Thread nD τ))) (fd4 : Buf (Elt F) ((yrA c 4).view.loc (yp c : Thread nD τ)))
    (fd5 : Buf (Elt F) ((yrA c 5).view.loc (yp c : Thread nD τ))) :
    iprop(yAin m c 3 (κ₁ 3) (κ₂ 3) fd3 ∗ yAin m c 4 (κ₁ 4) (κ₂ 4) fd4 ∗ yAin m c 5 (κ₁ 5) (κ₂ 5) fd5
        ∗ owes (c : Thread nD τ) (O + tallyAt (dCell (yp c) (yrSA 5)) () NyA + tallyAt (dCell (yp c) (yrSA 4)) () NyA
            + tallyAt (dCell (yp c) (yrSA 3)) () NyA) W)
      ⊢ iprop(((cred (tallyAt (dCell c (ysSA 3)) () NyA) ∗ cred (tallyAt (dCell c (ysSA 4)) () NyA) ∗ cred (tallyAt (dCell c (ysSA 5)) () NyA)
              ∗ owes (c : Thread nD τ) O W) -∗ Q ⟨⟩)
          -∗ wp frame (wpE (defs₀ (F := F)) 𝒱₀ (c : Thread nD τ) none) Set.univ (k0_part5 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v6 v9 v11) Q) := by
  unfold yAin
  iintro ⟨⟨#HI3, #HJ3, #Hr3, #Hs3, Ht3, Hu3, Hsrc3, Hdst3⟩, ⟨#HI4, #HJ4, #Hr4, #Hs4, Ht4, Hu4, Hsrc4, Hdst4⟩,
    ⟨#HI5, #HJ5, #Hr5, #Hs5, Ht5, Hu5, Hsrc5, Hdst5⟩, HO⟩ Hk
  rw [k0_part5_eq_skeleton]; unfold k0_part5_skel
  simp only [Prog.lift, Prog.bind_op, Prog.bind_ret, Prog.pure_eq_ret]
  iapply (send_yA m c _ (dev6_eq c) 3 (κ₁ 3) (κ₂ 3) fd3 (landed_yrA m c 3 fd3) _ W) $$ [Hsrc3 Hdst3 HO Ht3 Hu3]
  · isplitr; · iexact HI3
    isplitr; · iexact HJ3
    isplitl [Hsrc3]; · iexact Hsrc3
    isplitl [Hdst3]; · iexact Hdst3
    isplitl [HO]; · iexact HO
    isplitl [Ht3]; · iexact Ht3
    isplitr; · iexact Hr3
    isplitl [Hu3]; · iexact Hu3
    iexact Hs3
  iintro ⟨Hc3, HO⟩
  iapply (send_yA m c _ (dev7_eq c) 4 (κ₁ 4) (κ₂ 4) fd4 (landed_yrA m c 4 fd4) _ W) $$ [Hsrc4 Hdst4 HO Ht4 Hu4]
  · isplitr; · iexact HI4
    isplitr; · iexact HJ4
    isplitl [Hsrc4]; · iexact Hsrc4
    isplitl [Hdst4]; · iexact Hdst4
    isplitl [HO]; · iexact HO
    isplitl [Ht4]; · iexact Ht4
    isplitr; · iexact Hr4
    isplitl [Hu4]; · iexact Hu4
    iexact Hs4
  iintro ⟨Hc4, HO⟩
  iapply (send_yA m c _ (dev8_eq c) 5 (κ₁ 5) (κ₂ 5) fd5 (landed_yrA m c 5 fd5) O W) $$ [Hsrc5 Hdst5 HO Ht5 Hu5]
  · isplitr; · iexact HI5
    isplitr; · iexact HJ5
    isplitl [Hsrc5]; · iexact Hsrc5
    isplitl [Hdst5]; · iexact Hdst5
    isplitl [HO]; · iexact HO
    isplitl [Ht5]; · iexact Ht5
    isplitr; · iexact Hr5
    isplitl [Hu5]; · iexact Hu5
    iexact Hs5
  iintro ⟨Hc5, HO⟩
  rw [wp_ret]; imodintro
  iapply Hk
  isplitl [Hc3]; · iexact Hc3
  isplitl [Hc4]; · iexact Hc4
  isplitl [Hc5]; · iexact Hc5
  iexact HO

end Cert.KernelIdeal.AllReduce

end
-- ==== Proof.Part6.lean ====
/-
  The sixth part of the kernel body: the two 64-row chunks of the first exchange leave for the partner along the
  second axis; the device then waits for the partner's first 32-row chunk to land, adds it to its own chunk, and
  writes the sum to the first 32 rows of the forwarded-rows buffer. What it still owes at the wait are arrivals on
  the other partner's receive cells, all above the level of the cell it waits on.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One 64-row chunk of the first exchange: what its departure consumes. -/
def p6_yBin (c : Dev nD) (k : Fin 2) (κ₁ κ₂ : ℕ) (fd : Buf (Elt F) ((yrB c k).view.loc (yp c : Thread nD τ))) : sProp 𝕄 :=
  iprop(cellInv ER (sched m) κ₁ (dCell c (ysSB k)) ∗ cellInv ER (sched m) κ₂ (dCell (yp c) (yrSB k))
    ∗ reached ER (dCell c (ysSB k)) 0 ∗ reached ER (dCell (yp c) (yrSB k)) 0
    ∗ dutyTok ER (dCell c (ysSB k)) 0 false ∗ dutyTok ER (dCell (yp c) (yrSB k)) 0 false
    ∗ pYsB m c k ∗ ((yrB c k).view.loc (yp c : Thread nD τ) ↦[(yrB c k).view.set]{fullShare} fd))

set_option maxHeartbeats 1600000 in
/-- Both chunks of the second family leave for `yp c`; chunk 0 of the first family has landed, and its sum with the
    device's own chunk is stored in the forwarded-rows buffer. -/
theorem part6 (c : Dev nD) (v2 v5 v6 v7 v9 v11 : BitVec 32) (κ₁ κ₂ : Fin 2 → ℕ) (κ₃ : ℕ)
    (Q : (Σ' (v191 : BitVec 32) (v209 : BitVec 32), BitVec 32) → sProp 𝕄)
    (O : CellTallies nD τ sig Unit) (W : Waits sig Unit) (hO : Above 2 O)
    (fd0 : Buf (Elt F) ((yrB c 0).view.loc (yp c : Thread nD τ))) (fd1 : Buf (Elt F) ((yrB c 1).view.loc (yp c : Thread nD τ)))
    (r0 : Buf (Elt F) ((c : Thread nD τ).loc cc0_scratch2)) :
    iprop(p6_yBin m c 0 (κ₁ 0) (κ₂ 0) fd0 ∗ p6_yBin m c 1 (κ₁ 1) (κ₂ 1) fd1
        ∗ owes (c : Thread nD τ) (O + tallyAt (dCell (yp c) (yrSB 1)) () NyB + tallyAt (dCell (yp c) (yrSB 0)) () NyB) W
        ∗ levAts L lv ∗ waitIn m c (yrSA 0) κ₃
        ∗ (((c : Thread nD τ).loc cc0_scratch0) ↦{fullShare.right} YS m c)
        ∗ ((rdC 0).view.loc (c : Thread nD τ) ↦[(rdC 0).view.set]{fullShare} r0))
      ⊢ iprop(((cred (tallyAt (dCell c (ysSB 0)) () NyB) ∗ cred (tallyAt (dCell c (ysSB 1)) () NyB)
              ∗ owes (c : Thread nD τ) O (insert (SemLoc.dma (yrSA 0), ()) W)
              ∗ atPos ER (dCell c (yrSA 0)) 1 ∅ 0 ∗ pYrA m c 0
              ∗ (((c : Thread nD τ).loc cc0_scratch0) ↦{fullShare.right} YS m c)
              ∗ ((rdC 0).view.loc (c : Thread nD τ) ↦[(rdC 0).view.set]{fullShare} stRD m c 0 r0))
            -∗ Q ⟨Scalar.addi v9 0#32, Scalar.addi 0#32 (Scalar.muli v7 2#32), Scalar.muli v5 1#32⟩)
          -∗ wp frame (wpE (defs₀ (F := F)) 𝒱₀ (c : Thread nD τ) none) Set.univ (k0_part6 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v9 v11) Q) := by
  unfold p6_yBin waitIn
  iintro ⟨⟨#HI0, #HJ0, #Hr0, #Hs0, Ht0, Hu0, Hsrc0, Hdst0⟩, ⟨#HI1, #HJ1, #Hr1, #Hs1, Ht1, Hu1, Hsrc1, Hdst1⟩,
    HO, #Hlev, ⟨#HIw, Hcw, Haw⟩, Hys, Hrd⟩ Hk
  rw [k0_part6_eq_skeleton]; unfold k0_part6_skel
  simp only [Prog.lift, Prog.bind_op, Prog.bind_ret, Prog.pure_eq_ret]
  iapply (send_yB m c _ (dev9_eq c) 0 (κ₁ 0) (κ₂ 0) fd0 (landed_yrB m c 0 fd0) _ W) $$ [Hsrc0 Hdst0 HO Ht0 Hu0]
  · isplitr; · iexact HI0
    isplitr; · iexact HJ0
    isplitl [Hsrc0]; · iexact Hsrc0
    isplitl [Hdst0]; · iexact Hdst0
    isplitl [HO]; · iexact HO
    isplitl [Ht0]; · iexact Ht0
    isplitr; · iexact Hr0
    isplitl [Hu0]; · iexact Hu0
    iexact Hs0
  iintro ⟨Hc0, HO⟩
  iapply (send_yB m c _ (dev10_eq c) 1 (κ₁ 1) (κ₂ 1) fd1 (landed_yrB m c 1 fd1) O W) $$ [Hsrc1 Hdst1 HO Ht1 Hu1]
  · isplitr; · iexact HI1
    isplitr; · iexact HJ1
    isplitl [Hsrc1]; · iexact Hsrc1
    isplitl [Hdst1]; · iexact Hdst1
    isplitl [HO]; · iexact HO
    isplitl [Ht1]; · iexact Ht1
    isplitr; · iexact Hr1
    isplitl [Hu1]; · iexact Hu1
    iexact Hs1
  iintro ⟨Hc1, HO⟩
  iapply (wait_dma m c (yrSA 0) (by decide) κ₃ (by rfl) O W (above_mono (by dsimp only [lv]; decide) hO)) $$ [Hcw HO Haw]
  · isplitr; · iexact HIw
    isplitl [Hcw]; · iexact Hcw
    isplitl [HO]; · iexact HO
    isplitr; · iexact Hlev
    iexact Haw
  iintro ⟨HO, Haw, -, Hyr⟩
  ihave Hyr := (Entails.of_eq (show dmaPay m c ↑(yrSA 0) = pYrA m c 0 from rfl)) $$ Hyr
  unfold pYrA
  iapply (wp_load 𝒱₀ (c : Thread nD τ) none Set.univ (m := ysM) (Finset.subset_univ _)) $$ Hys; iintro Hys
  iapply (wp_load 𝒱₀ (c : Thread nD τ) none Set.univ (m := yrM) (yr_setOn_A_sub c 0)) $$ Hyr; iintro Hyr
  iapply (wp_load 𝒱₀ (c : Thread nD τ) none Set.univ (m := rdM) (rd_setOn_sub 0)) $$ Hrd; iintro Hrd
  iapply (wp_store 𝒱₀ (c : Thread nD τ) none Set.univ (m := rdM) (r := rR 0) (Mk := Finset.univ) (rd_access_setOn_sub 0)) $$ Hrd; iintro Hrd
  rw [wp_ret]; imodintro
  iapply Hk
  isplitl [Hc0]; · iexact Hc0
  isplitl [Hc1]; · iexact Hc1
  isplitl [HO]; · iexact HO
  isplitl [Haw]; · iexact Haw
  isplitl [Hyr]; · iexact Hyr
  isplitl [Hys]; · iexact Hys
  iexact Hrd

end Cert.KernelIdeal.AllReduce

end
-- ==== Proof.Rejoin.lean ====
/-
  A buffer held whole and the same buffer held chunk by chunk, and a whole share and its two halves.

  A buffer's points-to at the full share is the separating conjunction of its points-tos at the left and at the right
  half share; at one share it is the separating conjunction of the points-tos of disjoint chunks that cover it. So the
  send buffer at the full share is its eight chunks at the left half together with the whole buffer at the right half,
  and the forwarded-rows buffer is, chunk by chunk, a left half and a right half of the chunk. Read one way these
  equations cut a buffer up after the entry handshake; read the other way they put it together again at the end.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import Idealize.ShloMosaic.Lib.Pipeline.Launch
import Idealize.ShloMosaic.Lib.Pipeline.Kit
import Idealize.ShloMosaic.Lib.Tactic
import Idealize.ShloMosaic.Rules.PointsTo

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Two equations of the logic -/

/-- Separating conjunction re-associates. -/
theorem sep_assoc_eq (P Q R : sProp 𝕄) : (iprop((P ∗ Q) ∗ R) : sProp 𝕄) = iprop(P ∗ (Q ∗ R)) :=
  Idealize.SL.BI.Entails.antisymm Idealize.SL.BI.sep_assoc Idealize.SL.BI.sep_assoc'

/-- The full share of some elements is their left half and their right half. -/
theorem full_halves {ℓ : Loc nD τ sig} (I : Finset (Idx ℓ)) (f : Buf (Elt F) ℓ) :
    (ℓ ↦[I]{fullShare} f : sProp 𝕄) = iprop((ℓ ↦[I]{hs} f) ∗ ℓ ↦[I]{fullShare.right} f) :=
  BI.equiv_iff.mp ⟨(pointsTo_share (PosShare.mem_left_op_right fullShare)).1,
    (pointsTo_share (PosShare.mem_left_op_right fullShare)).2⟩

/-! ## The send buffer -/

/-- The send buffer at the full share: its eight chunks at the left half, and all of it at the right half. -/
theorem ys_halves (c : Dev nD) (f : (cc0_scratch0 : Ref sig .tc).ty.Contents (Elt F)) :
    ((ysM : Memref sig .tc .vmem S320x512 .bf16).view.loc (c : Thread nD τ) ↦{fullShare} f : sProp 𝕄) = iprop(
      ((ysA c 0).view.loc (c : Thread nD τ) ↦[(ysA c 0).view.set]{hs} f) ∗
      ((ysA c 1).view.loc (c : Thread nD τ) ↦[(ysA c 1).view.set]{hs} f) ∗
      ((ysA c 2).view.loc (c : Thread nD τ) ↦[(ysA c 2).view.set]{hs} f) ∗
      ((ysA c 3).view.loc (c : Thread nD τ) ↦[(ysA c 3).view.set]{hs} f) ∗
      ((ysA c 4).view.loc (c : Thread nD τ) ↦[(ysA c 4).view.set]{hs} f) ∗
      ((ysA c 5).view.loc (c : Thread nD τ) ↦[(ysA c 5).view.set]{hs} f) ∗
      ((ysB c 0).view.loc (c : Thread nD τ) ↦[(ysB c 0).view.set]{hs} f) ∗
      ((ysB c 1).view.loc (c : Thread nD τ) ↦[(ysB c 1).view.set]{hs} f) ∗
      ((ysM : Memref sig .tc .vmem S320x512 .bf16).view.loc (c : Thread nD τ) ↦{fullShare.right} f)) := by
  rw [full_halves, ys_chunks c c hs f]
  simp only [sep_assoc_eq]

/-! ## The forwarded-rows buffer -/

/-- The forwarded-rows buffer at the full share: chunk by chunk, the chunk's left half and its right half. -/
theorem rd_halves (c : Dev nD) (f : (cc0_scratch2 : Ref sig .tc).ty.Contents (Elt F)) :
    ((rdM : Memref sig .tc .vmem S192x512 .bf16).view.loc (c : Thread nD τ) ↦{fullShare} f : sProp 𝕄) = iprop(
      (((rdC 0).view.loc (c : Thread nD τ) ↦[(rdC 0).view.set]{hs} f) ∗ ((rdC 0).view.loc (c : Thread nD τ) ↦[(rdC 0).view.set]{fullShare.right} f)) ∗
      (((rdC 1).view.loc (c : Thread nD τ) ↦[(rdC 1).view.set]{hs} f) ∗ ((rdC 1).view.loc (c : Thread nD τ) ↦[(rdC 1).view.set]{fullShare.right} f)) ∗
      (((rdC 2).view.loc (c : Thread nD τ) ↦[(rdC 2).view.set]{hs} f) ∗ ((rdC 2).view.loc (c : Thread nD τ) ↦[(rdC 2).view.set]{fullShare.right} f)) ∗
      (((rdC 3).view.loc (c : Thread nD τ) ↦[(rdC 3).view.set]{hs} f) ∗ ((rdC 3).view.loc (c : Thread nD τ) ↦[(rdC 3).view.set]{fullShare.right} f)) ∗
      (((rdC 4).view.loc (c : Thread nD τ) ↦[(rdC 4).view.set]{hs} f) ∗ ((rdC 4).view.loc (c : Thread nD τ) ↦[(rdC 4).view.set]{fullShare.right} f)) ∗
      (((rdC 5).view.loc (c : Thread nD τ) ↦[(rdC 5).view.set]{hs} f) ∗ ((rdC 5).view.loc (c : Thread nD τ) ↦[(rdC 5).view.set]{fullShare.right} f))) := by
  rw [rd_chunks c fullShare f]
  simp only [full_halves]

/-! ## Putting a buffer together again -/

/-- A buffer held whole at the full share is held whole at the full share with some contents. -/
theorem entails_exists_of_eq {ℓ : Loc nD τ sig} {P : sProp 𝕄} (f : Buf (Elt F) ℓ)
    (h : (ℓ ↦{fullShare} f : sProp 𝕄) = P) : P ⊢ iprop(∃ g, ℓ ↦{fullShare} g) := by
  subst h
  exact exists_intro (Φ := fun g => (ℓ ↦{fullShare} g : sProp 𝕄)) f

/-- The send buffer: the eight chunks lent at the left half come back, and join the right half kept. -/
theorem rejoin_ys (c : Dev nD) :
    (iprop(pYsA m c 0 ∗
      pYsA m c 1 ∗
      pYsA m c 2 ∗
      pYsA m c 3 ∗
      pYsA m c 4 ∗
      pYsA m c 5 ∗
      pYsB m c 0 ∗
      pYsB m c 1 ∗
      (((c : Thread nD τ).loc cc0_scratch0) ↦{fullShare.right} YS m c)) : sProp 𝕄)
      ⊢ iprop(∃ f, ((c : Thread nD τ).loc cc0_scratch0) ↦{fullShare} f) :=
  entails_exists_of_eq (YS m c) (ys_halves c (YS m c))

/-- The receive buffer of the first exchange: the eight landed chunks. -/
theorem rejoin_yr (c : Dev nD) :
    (iprop(pYrA m c 0 ∗
      pYrA m c 1 ∗
      pYrA m c 2 ∗
      pYrA m c 3 ∗
      pYrA m c 4 ∗
      pYrA m c 5 ∗
      pYrB m c 0 ∗
      pYrB m c 1) : sProp 𝕄)
      ⊢ iprop(∃ f, ((c : Thread nD τ).loc cc0_scratch1) ↦{fullShare} f) :=
  entails_exists_of_eq (YR m c) (yr_chunks c c fullShare (YR m c))

/-- The forwarded-rows buffer: chunk by chunk, the left half lent and the right half kept. -/
theorem rejoin_rd (c : Dev nD) :
    (iprop((pXs m c 0 ∗ ((rdC 0).view.loc (c : Thread nD τ) ↦[(rdC 0).view.set]{fullShare.right} RD m c)) ∗
      (pXs m c 1 ∗ ((rdC 1).view.loc (c : Thread nD τ) ↦[(rdC 1).view.set]{fullShare.right} RD m c)) ∗
      (pXs m c 2 ∗ ((rdC 2).view.loc (c : Thread nD τ) ↦[(rdC 2).view.set]{fullShare.right} RD m c)) ∗
      (pXs m c 3 ∗ ((rdC 3).view.loc (c : Thread nD τ) ↦[(rdC 3).view.set]{fullShare.right} RD m c)) ∗
      (pXs m c 4 ∗ ((rdC 4).view.loc (c : Thread nD τ) ↦[(rdC 4).view.set]{fullShare.right} RD m c)) ∗
      (pXs m c 5 ∗ ((rdC 5).view.loc (c : Thread nD τ) ↦[(rdC 5).view.set]{fullShare.right} RD m c))) : sProp 𝕄)
      ⊢ iprop(∃ f, ((c : Thread nD τ).loc cc0_scratch2) ↦{fullShare} f) :=
  entails_exists_of_eq (RD m c) (rd_halves c (RD m c))

/-- The receive buffer of the second exchange: the six landed chunks. -/
theorem rejoin_xr (c : Dev nD) :
    (iprop(pXr m c 0 ∗
      pXr m c 1 ∗
      pXr m c 2 ∗
      pXr m c 3 ∗
      pXr m c 4 ∗
      pXr m c 5) : sProp 𝕄)
      ⊢ iprop(∃ f, ((c : Thread nD τ).loc cc0_scratch3) ↦{fullShare} f) :=
  entails_exists_of_eq (XR m c) (xr_chunks c fullShare (XR m c))

/-! ## Cutting a buffer up -/

/-- The send buffer, filled: the eight chunks to lend at the left half, and the right half to keep. -/
theorem split_ys (c : Dev nD) :
    (((c : Thread nD τ).loc cc0_scratch0) ↦{fullShare} YS m c : sProp 𝕄) ⊢ iprop(
      pYsA m c 0 ∗
      pYsA m c 1 ∗
      pYsA m c 2 ∗
      pYsA m c 3 ∗
      pYsA m c 4 ∗
      pYsA m c 5 ∗
      pYsB m c 0 ∗
      pYsB m c 1 ∗
      (((c : Thread nD τ).loc cc0_scratch0) ↦{fullShare.right} YS m c)) :=
  Entails.of_eq (ys_halves c (YS m c))

/-- The partner's first receive buffer, handed over whole, cut at this device's offsets. -/
theorem split_yr (c : Dev nD) (f : (cc0_scratch1 : Ref sig .tc).ty.Contents (Elt F)) :
    ((yrM : Memref sig .tc .vmem S320x512 .bf16).view.loc (yp c : Thread nD τ) ↦{fullShare} f : sProp 𝕄) ⊢ iprop(
      ((yrA c 0).view.loc (yp c : Thread nD τ) ↦[(yrA c 0).view.set]{fullShare} f) ∗
      ((yrA c 1).view.loc (yp c : Thread nD τ) ↦[(yrA c 1).view.set]{fullShare} f) ∗
      ((yrA c 2).view.loc (yp c : Thread nD τ) ↦[(yrA c 2).view.set]{fullShare} f) ∗
      ((yrA c 3).view.loc (yp c : Thread nD τ) ↦[(yrA c 3).view.set]{fullShare} f) ∗
      ((yrA c 4).view.loc (yp c : Thread nD τ) ↦[(yrA c 4).view.set]{fullShare} f) ∗
      ((yrA c 5).view.loc (yp c : Thread nD τ) ↦[(yrA c 5).view.set]{fullShare} f) ∗
      ((yrB c 0).view.loc (yp c : Thread nD τ) ↦[(yrB c 0).view.set]{fullShare} f) ∗
      ((yrB c 1).view.loc (yp c : Thread nD τ) ↦[(yrB c 1).view.set]{fullShare} f)) :=
  Entails.of_eq (yr_chunks c (yp c) fullShare f)

/-- The other partner's second receive buffer, handed over whole, cut into its six chunks. -/
theorem split_xr (c : Dev nD) (f : (cc0_scratch3 : Ref sig .tc).ty.Contents (Elt F)) :
    ((xrM : Memref sig .tc .vmem S192x512 .bf16).view.loc (xp c : Thread nD τ) ↦{fullShare} f : sProp 𝕄) ⊢ iprop(
      ((xrC 0).view.loc (xp c : Thread nD τ) ↦[(xrC 0).view.set]{fullShare} f) ∗
      ((xrC 1).view.loc (xp c : Thread nD τ) ↦[(xrC 1).view.set]{fullShare} f) ∗
      ((xrC 2).view.loc (xp c : Thread nD τ) ↦[(xrC 2).view.set]{fullShare} f) ∗
      ((xrC 3).view.loc (xp c : Thread nD τ) ↦[(xrC 3).view.set]{fullShare} f) ∗
      ((xrC 4).view.loc (xp c : Thread nD τ) ↦[(xrC 4).view.set]{fullShare} f) ∗
      ((xrC 5).view.loc (xp c : Thread nD τ) ↦[(xrC 5).view.set]{fullShare} f)) :=
  Entails.of_eq (xr_chunks (xp c) fullShare f)

/-- The forwarded-rows buffer cut into its six chunks. -/
theorem split_rd (c : Dev nD) (f : (cc0_scratch2 : Ref sig .tc).ty.Contents (Elt F)) :
    ((rdM : Memref sig .tc .vmem S192x512 .bf16).view.loc (c : Thread nD τ) ↦{fullShare} f : sProp 𝕄) ⊢ iprop(
      ((rdC 0).view.loc (c : Thread nD τ) ↦[(rdC 0).view.set]{fullShare} f) ∗
      ((rdC 1).view.loc (c : Thread nD τ) ↦[(rdC 1).view.set]{fullShare} f) ∗
      ((rdC 2).view.loc (c : Thread nD τ) ↦[(rdC 2).view.set]{fullShare} f) ∗
      ((rdC 3).view.loc (c : Thread nD τ) ↦[(rdC 3).view.set]{fullShare} f) ∗
      ((rdC 4).view.loc (c : Thread nD τ) ↦[(rdC 4).view.set]{fullShare} f) ∗
      ((rdC 5).view.loc (c : Thread nD τ) ↦[(rdC 5).view.set]{fullShare} f)) :=
  Entails.of_eq (rd_chunks c fullShare f)

/-- info: 'Cert.KernelIdeal.AllReduce.rejoin_ys' depends on axioms: [propext, Classical.choice, Quot.sound] -/
#guard_msgs in #print axioms rejoin_ys
/-- info: 'Cert.KernelIdeal.AllReduce.rejoin_rd' depends on axioms: [propext, Classical.choice, Quot.sound] -/
#guard_msgs in #print axioms rejoin_rd
/-- info: 'Cert.KernelIdeal.AllReduce.split_ys' depends on axioms: [propext, Classical.choice, Quot.sound] -/
#guard_msgs in #print axioms split_ys

end Cert.KernelIdeal.AllReduce

end
-- ==== Proof.Part7.lean ====
/-
  Part 7 of the kernel body. The first 32-row chunk of the forwarded rows leaves for the partner along the first axis
  (half of its rows lent to the send cell) and is copied into the result block at the rows the device owns; then the
  second chunk of the first exchange is awaited — everything the device still owes lies above that receive cell —,
  summed with the device's own rows, and put in the forwarded-rows buffer.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev p7_body (c : Dev nD) (v2 v5 v6 v7 v8 v9 v191 v209 v210 : BitVec 32) : Prog (TpuEff nD τ sig (Elt F) Λ₀ .tc) (BitVec 32) :=
  k0_part7 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v8 v9 v191 v209 v210

set_option maxHeartbeats 1600000 in
theorem part7 (c : Dev nD) (v2 v5 v6 v7 v8 v9 v191 v209 v210 : BitVec 32) (κ₁ κ₂ κ₃ : ℕ)
    (Q : BitVec 32 → sProp 𝕄) (O : CellTallies nD τ sig Unit) (W : Waits sig Unit) (hO : Above 2 O)
    (fd : Buf (Elt F) ((xrC 0).view.loc (xp c : Thread nD τ)))
    (g : Buf (Elt F) ((c : Thread nD τ).loc cc0_stg1_0)) (r2 : Buf (Elt F) ((c : Thread nD τ).loc cc0_scratch2)) :
    iprop(cellInv ER (sched m) κ₁ (dCell c (xsS 0)) ∗ cellInv ER (sched m) κ₂ (dCell (xp c) (xrS 0)) ∗ cellInv ER (sched m) κ₃ (dCell c (yrSA 1))
        ∗ reached ER (dCell c (xsS 0)) 0 ∗ reached ER (dCell (xp c) (xrS 0)) 0 ∗ levAts L lv
        ∗ dutyTok ER (dCell c (xsS 0)) 0 false ∗ dutyTok ER (dCell (xp c) (xrS 0)) 0 false
        ∗ owes (c : Thread nD τ) (O + tallyAt (dCell (xp c) (xrS 0)) () NxA) W
        ∗ ((rdC 0).view.loc (c : Thread nD τ) ↦[(rdC 0).view.set]{fullShare} RD m c)
        ∗ ((xrC 0).view.loc (xp c : Thread nD τ) ↦[(xrC 0).view.set]{fullShare} fd)
        ∗ (((c : Thread nD τ).loc cc0_stg1_0) ↦{fullShare} g)
        ∗ cred (tallyAt (dCell c (yrSA 1)) () NyA) ∗ atPos ER (dCell c (yrSA 1)) 0 ∅ 0
        ∗ (((c : Thread nD τ).loc cc0_scratch0) ↦{fullShare.right} YS m c)
        ∗ ((rdC 1).view.loc (c : Thread nD τ) ↦[(rdC 1).view.set]{fullShare} r2))
      ⊢ iprop(((cred (tallyAt (dCell c (xsS 0)) () NxA) ∗ owes (c : Thread nD τ) O (insert (SemLoc.dma (yrSA 1), ()) W)
              ∗ ((rdC 0).view.loc (c : Thread nD τ) ↦[(rdC 0).view.set]{fullShare.right} RD m c)
              ∗ (((c : Thread nD τ).loc cc0_stg1_0) ↦{fullShare} stXA m c 0 g)
              ∗ atPos ER (dCell c (yrSA 1)) 1 ∅ 0 ∗ pYrA m c 1
              ∗ (((c : Thread nD τ).loc cc0_scratch0) ↦{fullShare.right} YS m c)
              ∗ ((rdC 1).view.loc (c : Thread nD τ) ↦[(rdC 1).view.set]{fullShare}
                  ((rdM.access (rR 1) : View sig .tc _ _ _).write (Elt F) r2
                    (k0_pay10 (ysM.view.readAt (Elt F) (sYA c 1).toLoadRect (YS m c)) (yrM.view.readAt (Elt F) (sYA c 1).toLoadRect (YR m c))) Finset.univ)))
            -∗ Q (Scalar.addi v9 32#32))
          -∗ wp frame (wpE (defs₀ (F := F)) 𝒱₀ (c : Thread nD τ) none) Set.univ (p7_body c v2 v5 v6 v7 v8 v9 v191 v209 v210) Q) := by
  iintro ⟨#HIxs, #HIxr, #HIyr, #Hrxs, #Hrxr, #Hlev, Htxs, Htxr, HO, Hrd1, Hxr1, Hout, Hcyr, Hayr, Hys, Hrd2⟩ Hk
  unfold p7_body
  rw [k0_part7_eq_skeleton]; unfold k0_part7_skel
  simp only [Prog.lift, Prog.bind_op, Prog.bind_ret, Prog.pure_eq_ret]
  -- the forwarded chunk leaves: half of its rows lent to the send cell
  ihave Hsp := (pointsTo_share (PosShare.mem_left_op_right fullShare)).1 $$ Hrd1
  icases Hsp with ⟨Hrd1L, Hrd1R⟩
  iapply (send_x m c _ (dev11_eq c) 0 κ₁ κ₂ fd (landed_xrC m c 0 fd (RD m c) fun _ _ => rfl) O W) $$ [Hrd1L Hxr1 HO Htxs Htxr]
  · isplitr; · iexact HIxs
    isplitr; · iexact HIxr
    isplitl [Hrd1L]; · unfold pXs; iexact Hrd1L
    isplitl [Hxr1]; · iexact Hxr1
    isplitl [HO]; · iexact HO
    isplitl [Htxs]; · iexact Htxs
    isplitr; · iexact Hrxs
    isplitl [Htxr]; · iexact Htxr
    iexact Hrxr
  iintro ⟨Hcxs, HO⟩
  -- its rows are read back and stored in the result block
  iapply (wp_load 𝒱₀ (c : Thread nD τ) none Set.univ (m := rdM) (rd_setOn_sub 0)) $$ Hrd1R; iintro Hrd1R
  iapply (wp_load 𝒱₀ (c : Thread nD τ) none Set.univ (m := oM) (Finset.subset_univ _)) $$ Hout; iintro Hout
  iapply (wp_store 𝒱₀ (c : Thread nD τ) none Set.univ (m := oM) (r := sXA c 0) (Mk := Finset.univ) (Finset.subset_univ _)) $$ Hout; iintro Hout
  -- the next chunk of the first exchange has landed
  iapply (wait_dma m c (yrSA 1) (by decide) κ₃ (by rfl) O W (above_mono (by dsimp only [lv]; decide) hO)) $$ [Hcyr HO Hayr]
  · isplitr; · iexact HIyr
    isplitl [Hcyr]; · iexact Hcyr
    isplitl [HO]; · iexact HO
    isplitr; · iexact Hlev
    iexact Hayr
  iintro ⟨HO, Hayr, -, Hyr2⟩
  ihave Hyr2 := (Entails.of_eq (show dmaPay m c ↑(yrSA 1) = pYrA m c 1 from rfl)) $$ Hyr2
  unfold pYrA
  iapply (wp_load 𝒱₀ (c : Thread nD τ) none Set.univ (m := ysM) (Finset.subset_univ _)) $$ Hys; iintro Hys
  iapply (wp_load 𝒱₀ (c : Thread nD τ) none Set.univ (m := yrM) (yr_setOn_A_sub c 1)) $$ Hyr2; iintro Hyr2
  iapply (wp_load 𝒱₀ (c : Thread nD τ) none Set.univ (m := rdM) (rd_setOn_sub 1)) $$ Hrd2; iintro Hrd2
  iapply (wp_store 𝒱₀ (c : Thread nD τ) none Set.univ (m := rdM) (r := rR 1) (Mk := Finset.univ) (rd_access_setOn_sub 1)) $$ Hrd2; iintro Hrd2
  rw [wp_ret]; imodintro
  iapply Hk
  isplitl [Hcxs]; · iexact Hcxs
  isplitl [HO]; · iexact HO
  isplitl [Hrd1R]; · iexact Hrd1R
  isplitl [Hout]; · iexact Hout
  isplitl [Hayr]; · iexact Hayr
  isplitl [Hyr2]; · iexact Hyr2
  isplitl [Hys]; · iexact Hys
  iexact Hrd2

end Cert.KernelIdeal.AllReduce

end
-- ==== Proof.Part8.lean ====
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev body8 (c : Dev nD) (v2 v5 v6 v7 v8 v9 v222 : BitVec 32) : Prog (TpuEff nD τ sig (Elt F) Λ₀ .tc) (BitVec 32) :=
  k0_part8 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v8 v9 v222

set_option maxHeartbeats 1600000 in
/-- Chunk 1 of the forwarded rows leaves and is stored; chunk 2 of the first exchange is awaited, summed, and put in the
    forwarded-rows buffer. -/
theorem part8 (c : Dev nD) (v2 v5 v6 v7 v8 v9 v222 : BitVec 32) (κ₁ κ₂ κ₃ : ℕ)
    (Q : BitVec 32 → sProp 𝕄) (O : CellTallies nD τ sig Unit) (W : Waits sig Unit) (hO : Above 2 O)
    (fd : Buf (Elt F) ((xrC 1).view.loc (xp c : Thread nD τ)))
    (hland : (((xrC 1).view.loc (xp c : Thread nD τ) ↦[(xrC 1).view.set]{fullShare}
        ((xrC 1).view.write (Elt F) fd ((rdC 1).view.read (Elt F) (RD m c)) Finset.univ)) : sProp 𝕄) = pXr m (xp c) 1)
    (g : Buf (Elt F) ((c : Thread nD τ).loc cc0_stg1_0)) (r2 : Buf (Elt F) ((c : Thread nD τ).loc cc0_scratch2))
    (hld_rd : (rdM : Memref sig .tc .vmem S192x512 .bf16).view.setOn ((rR 1).toLoadRect).set ⊆ (rdC 1).view.set)
    (hld_yr : (yrM : Memref sig .tc .vmem S320x512 .bf16).view.setOn ((sYA c 2).toLoadRect).set ⊆ (yrA c 2).view.set)
    (hld_rd2 : (rdM : Memref sig .tc .vmem S192x512 .bf16).view.setOn ((rR 2).toLoadRect).set ⊆ (rdC 2).view.set)
    (hst_rd2 : ((rdM : Memref sig .tc .vmem S192x512 .bf16).access (rR 2) : View sig .tc _ _ _).setOn Finset.univ ⊆ (rdC 2).view.set) :
    iprop(cellInv ER (sched m) κ₁ (dCell c (xsS 1)) ∗ cellInv ER (sched m) κ₂ (dCell (xp c) (xrS 1)) ∗ cellInv ER (sched m) κ₃ (dCell c (yrSA 2))
        ∗ reached ER (dCell c (xsS 1)) 0 ∗ reached ER (dCell (xp c) (xrS 1)) 0 ∗ levAts L lv
        ∗ dutyTok ER (dCell c (xsS 1)) 0 false ∗ dutyTok ER (dCell (xp c) (xrS 1)) 0 false
        ∗ owes (c : Thread nD τ) (O + tallyAt (dCell (xp c) (xrS 1)) () NxA) W
        ∗ ((rdC 1).view.loc (c : Thread nD τ) ↦[(rdC 1).view.set]{fullShare} RD m c)
        ∗ ((xrC 1).view.loc (xp c : Thread nD τ) ↦[(xrC 1).view.set]{fullShare} fd)
        ∗ (((c : Thread nD τ).loc cc0_stg1_0) ↦{fullShare} g)
        ∗ cred (tallyAt (dCell c (yrSA 2)) () NyA) ∗ atPos ER (dCell c (yrSA 2)) 0 ∅ 0
        ∗ (((c : Thread nD τ).loc cc0_scratch0) ↦{fullShare.right} YS m c)
        ∗ ((rdC 2).view.loc (c : Thread nD τ) ↦[(rdC 2).view.set]{fullShare} r2))
      ⊢ iprop(((cred (tallyAt (dCell c (xsS 1)) () NxA) ∗ owes (c : Thread nD τ) O (insert (SemLoc.dma (yrSA 2), ()) W)
              ∗ ((rdC 1).view.loc (c : Thread nD τ) ↦[(rdC 1).view.set]{fullShare.right} RD m c)
              ∗ (((c : Thread nD τ).loc cc0_stg1_0) ↦{fullShare}
                  ((oM.access (sXA c 1) : View sig .tc _ _ _).write (Elt F) g (rdM.view.readAt (Elt F) (rR 1).toLoadRect (RD m c)) Finset.univ))
              ∗ atPos ER (dCell c (yrSA 2)) 1 ∅ 0 ∗ pYrA m c 2
              ∗ (((c : Thread nD τ).loc cc0_scratch0) ↦{fullShare.right} YS m c)
              ∗ ((rdC 2).view.loc (c : Thread nD τ) ↦[(rdC 2).view.set]{fullShare}
                  ((rdM.access (rR 2) : View sig .tc _ _ _).write (Elt F) r2
                    (k0_pay11 (ysM.view.readAt (Elt F) (sYA c 2).toLoadRect (YS m c)) (yrM.view.readAt (Elt F) (sYA c 2).toLoadRect (YR m c))) Finset.univ)))
            -∗ Q (Scalar.addi v9 64#32))
          -∗ wp frame (wpE (defs₀ (F := F)) 𝒱₀ (c : Thread nD τ) none) Set.univ (body8 c v2 v5 v6 v7 v8 v9 v222) Q) := by
  iintro ⟨#HIxs, #HIxr, #HIyr, #Hrxs, #Hrxr, #Hlev, Htxs, Htxr, HO, Hrd1, Hxr1, Hout, Hcyr, Hayr, Hys, Hrd2⟩ Hk
  unfold body8
  rw [k0_part8_eq_skeleton]; unfold k0_part8_skel
  simp only [Prog.lift, Prog.bind_op, Prog.bind_ret, Prog.pure_eq_ret]
  -- the forwarded chunk leaves: half of its rows lent to the send cell
  ihave Hsp := (pointsTo_share (PosShare.mem_left_op_right fullShare)).1 $$ Hrd1
  icases Hsp with ⟨Hrd1L, Hrd1R⟩
  iapply (send_x m c _ (dev12_eq c) 1 κ₁ κ₂ fd hland O W) $$ [Hrd1L Hxr1 HO Htxs Htxr]
  · isplitr; · iexact HIxs
    isplitr; · iexact HIxr
    isplitl [Hrd1L]; · unfold pXs; iexact Hrd1L
    isplitl [Hxr1]; · iexact Hxr1
    isplitl [HO]; · iexact HO
    isplitl [Htxs]; · iexact Htxs
    isplitr; · iexact Hrxs
    isplitl [Htxr]; · iexact Htxr
    iexact Hrxr
  iintro ⟨Hcxs, HO⟩
  -- its rows are read back and stored in the result block
  iapply (wp_load 𝒱₀ (c : Thread nD τ) none Set.univ (m := rdM) hld_rd) $$ Hrd1R; iintro Hrd1R
  iapply (wp_load 𝒱₀ (c : Thread nD τ) none Set.univ (m := oM) (Finset.subset_univ _)) $$ Hout; iintro Hout
  iapply (wp_store 𝒱₀ (c : Thread nD τ) none Set.univ (m := oM) (r := sXA c 1) (Mk := Finset.univ) (Finset.subset_univ _)) $$ Hout; iintro Hout
  -- the next chunk of the first exchange has landed
  iapply (wait_dma m c (yrSA 2) (by decide) κ₃ (by rfl) O W (above_mono (by dsimp only [lv]; decide) hO)) $$ [Hcyr HO Hayr]
  · isplitr; · iexact HIyr
    isplitl [Hcyr]; · iexact Hcyr
    isplitl [HO]; · iexact HO
    isplitr; · iexact Hlev
    iexact Hayr
  iintro ⟨HO, Hayr, -, Hyr2⟩
  ihave Hyr2 := (Entails.of_eq (show dmaPay m c ↑(yrSA 2) = pYrA m c 2 from rfl)) $$ Hyr2
  unfold pYrA
  iapply (wp_load 𝒱₀ (c : Thread nD τ) none Set.univ (m := ysM) (Finset.subset_univ _)) $$ Hys; iintro Hys
  iapply (wp_load 𝒱₀ (c : Thread nD τ) none Set.univ (m := yrM) hld_yr) $$ Hyr2; iintro Hyr2
  iapply (wp_load 𝒱₀ (c : Thread nD τ) none Set.univ (m := rdM) hld_rd2) $$ Hrd2; iintro Hrd2
  iapply (wp_store 𝒱₀ (c : Thread nD τ) none Set.univ (m := rdM) (r := rR 2) (Mk := Finset.univ) hst_rd2) $$ Hrd2; iintro Hrd2
  rw [wp_ret]; imodintro
  iapply Hk
  isplitl [Hcxs]; · iexact Hcxs
  isplitl [HO]; · iexact HO
  isplitl [Hrd1R]; · iexact Hrd1R
  isplitl [Hout]; · iexact Hout
  isplitl [Hayr]; · iexact Hayr
  isplitl [Hyr2]; · iexact Hyr2
  isplitl [Hys]; · iexact Hys
  iexact Hrd2

end Cert.KernelIdeal.AllReduce

end
-- ==== Proof.Part9.lean ====
/-
  Part 9 of the kernel body. The third 32-row chunk of the forwarded rows leaves for the partner along the first axis
  (half of its rows lent to the send cell) and is copied into the result block at the rows the device owns; then the
  fourth chunk of the first exchange is awaited — everything the device still owes lies above that receive cell —,
  summed with the device's own rows, and put in the forwarded-rows buffer.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev p9_body (c : Dev nD) (v2 v5 v6 v7 v8 v9 v253 : BitVec 32) : Prog (TpuEff nD τ sig (Elt F) Λ₀ .tc) (BitVec 32) :=
  k0_part9 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v8 v9 v253

set_option maxHeartbeats 1600000 in
theorem part9 (c : Dev nD) (v2 v5 v6 v7 v8 v9 v253 : BitVec 32) (κ₁ κ₂ κ₃ : ℕ)
    (Q : BitVec 32 → sProp 𝕄) (O : CellTallies nD τ sig Unit) (W : Waits sig Unit) (hO : Above 2 O)
    (fd : Buf (Elt F) ((xrC 2).view.loc (xp c : Thread nD τ)))
    (g : Buf (Elt F) ((c : Thread nD τ).loc cc0_stg1_0)) (r2 : Buf (Elt F) ((c : Thread nD τ).loc cc0_scratch2)) :
    iprop(cellInv ER (sched m) κ₁ (dCell c (xsS 2)) ∗ cellInv ER (sched m) κ₂ (dCell (xp c) (xrS 2)) ∗ cellInv ER (sched m) κ₃ (dCell c (yrSA 3))
        ∗ reached ER (dCell c (xsS 2)) 0 ∗ reached ER (dCell (xp c) (xrS 2)) 0 ∗ levAts L lv
        ∗ dutyTok ER (dCell c (xsS 2)) 0 false ∗ dutyTok ER (dCell (xp c) (xrS 2)) 0 false
        ∗ owes (c : Thread nD τ) (O + tallyAt (dCell (xp c) (xrS 2)) () NxA) W
        ∗ ((rdC 2).view.loc (c : Thread nD τ) ↦[(rdC 2).view.set]{fullShare} RD m c)
        ∗ ((xrC 2).view.loc (xp c : Thread nD τ) ↦[(xrC 2).view.set]{fullShare} fd)
        ∗ (((c : Thread nD τ).loc cc0_stg1_0) ↦{fullShare} g)
        ∗ cred (tallyAt (dCell c (yrSA 3)) () NyA) ∗ atPos ER (dCell c (yrSA 3)) 0 ∅ 0
        ∗ (((c : Thread nD τ).loc cc0_scratch0) ↦{fullShare.right} YS m c)
        ∗ ((rdC 3).view.loc (c : Thread nD τ) ↦[(rdC 3).view.set]{fullShare} r2))
      ⊢ iprop(((cred (tallyAt (dCell c (xsS 2)) () NxA) ∗ owes (c : Thread nD τ) O (insert (SemLoc.dma (yrSA 3), ()) W)
              ∗ ((rdC 2).view.loc (c : Thread nD τ) ↦[(rdC 2).view.set]{fullShare.right} RD m c)
              ∗ (((c : Thread nD τ).loc cc0_stg1_0) ↦{fullShare} stXA m c 2 g)
              ∗ atPos ER (dCell c (yrSA 3)) 1 ∅ 0 ∗ pYrA m c 3
              ∗ (((c : Thread nD τ).loc cc0_scratch0) ↦{fullShare.right} YS m c)
              ∗ ((rdC 3).view.loc (c : Thread nD τ) ↦[(rdC 3).view.set]{fullShare}
                  ((rdM.access (rR 3) : View sig .tc _ _ _).write (Elt F) r2
                    (k0_pay12 (ysM.view.readAt (Elt F) (sYA c 3).toLoadRect (YS m c)) (yrM.view.readAt (Elt F) (sYA c 3).toLoadRect (YR m c))) Finset.univ)))
            -∗ Q (Scalar.addi v9 96#32))
          -∗ wp frame (wpE (defs₀ (F := F)) 𝒱₀ (c : Thread nD τ) none) Set.univ (p9_body c v2 v5 v6 v7 v8 v9 v253) Q) := by
  iintro ⟨#HIxs, #HIxr, #HIyr, #Hrxs, #Hrxr, #Hlev, Htxs, Htxr, HO, Hrd1, Hxr1, Hout, Hcyr, Hayr, Hys, Hrd2⟩ Hk
  unfold p9_body
  rw [k0_part9_eq_skeleton]; unfold k0_part9_skel
  simp only [Prog.lift, Prog.bind_op, Prog.bind_ret, Prog.pure_eq_ret]
  -- the forwarded chunk leaves: half of its rows lent to the send cell
  ihave Hsp := (pointsTo_share (PosShare.mem_left_op_right fullShare)).1 $$ Hrd1
  icases Hsp with ⟨Hrd1L, Hrd1R⟩
  iapply (send_x m c _ (dev13_eq c) 2 κ₁ κ₂ fd (landed_xrC m c 2 fd (RD m c) fun _ _ => rfl) O W) $$ [Hrd1L Hxr1 HO Htxs Htxr]
  · isplitr; · iexact HIxs
    isplitr; · iexact HIxr
    isplitl [Hrd1L]; · unfold pXs; iexact Hrd1L
    isplitl [Hxr1]; · iexact Hxr1
    isplitl [HO]; · iexact HO
    isplitl [Htxs]; · iexact Htxs
    isplitr; · iexact Hrxs
    isplitl [Htxr]; · iexact Htxr
    iexact Hrxr
  iintro ⟨Hcxs, HO⟩
  -- its rows are read back and stored in the result block
  iapply (wp_load 𝒱₀ (c : Thread nD τ) none Set.univ (m := rdM) (rd_setOn_sub 2)) $$ Hrd1R; iintro Hrd1R
  iapply (wp_load 𝒱₀ (c : Thread nD τ) none Set.univ (m := oM) (Finset.subset_univ _)) $$ Hout; iintro Hout
  iapply (wp_store 𝒱₀ (c : Thread nD τ) none Set.univ (m := oM) (r := sXA c 2) (Mk := Finset.univ) (Finset.subset_univ _)) $$ Hout; iintro Hout
  -- the next chunk of the first exchange has landed
  iapply (wait_dma m c (yrSA 3) (by decide) κ₃ (by rfl) O W (above_mono (by dsimp only [lv]; decide) hO)) $$ [Hcyr HO Hayr]
  · isplitr; · iexact HIyr
    isplitl [Hcyr]; · iexact Hcyr
    isplitl [HO]; · iexact HO
    isplitr; · iexact Hlev
    iexact Hayr
  iintro ⟨HO, Hayr, -, Hyr2⟩
  ihave Hyr2 := (Entails.of_eq (show dmaPay m c ↑(yrSA 3) = pYrA m c 3 from rfl)) $$ Hyr2
  unfold pYrA
  iapply (wp_load 𝒱₀ (c : Thread nD τ) none Set.univ (m := ysM) (Finset.subset_univ _)) $$ Hys; iintro Hys
  iapply (wp_load 𝒱₀ (c : Thread nD τ) none Set.univ (m := yrM) (yr_setOn_A_sub c 3)) $$ Hyr2; iintro Hyr2
  iapply (wp_load 𝒱₀ (c : Thread nD τ) none Set.univ (m := rdM) (rd_setOn_sub 3)) $$ Hrd2; iintro Hrd2
  iapply (wp_store 𝒱₀ (c : Thread nD τ) none Set.univ (m := rdM) (r := rR 3) (Mk := Finset.univ) (rd_access_setOn_sub 3)) $$ Hrd2; iintro Hrd2
  rw [wp_ret]; imodintro
  iapply Hk
  isplitl [Hcxs]; · iexact Hcxs
  isplitl [HO]; · iexact HO
  isplitl [Hrd1R]; · iexact Hrd1R
  isplitl [Hout]; · iexact Hout
  isplitl [Hayr]; · iexact Hayr
  isplitl [Hyr2]; · iexact Hyr2
  isplitl [Hys]; · iexact Hys
  iexact Hrd2

end Cert.KernelIdeal.AllReduce

end
-- ==== Proof.Part10.lean ====
/-
  Part 10 of the kernel body. The fourth 32-row chunk of the forwarded rows leaves for the partner along the first axis
  (half of its rows lent to the send cell) and is copied into the result block at the rows the device owns; then the
  fifth chunk of the first exchange is awaited — everything the device still owes lies above that receive cell —,
  summed with the device's own rows, and put in the forwarded-rows buffer.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev p10_body (c : Dev nD) (v2 v5 v6 v7 v8 v9 v284 : BitVec 32) : Prog (TpuEff nD τ sig (Elt F) Λ₀ .tc) (BitVec 32) :=
  k0_part10 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v8 v9 v284

set_option maxHeartbeats 1600000 in
theorem part10 (c : Dev nD) (v2 v5 v6 v7 v8 v9 v284 : BitVec 32) (κ₁ κ₂ κ₃ : ℕ)
    (Q : BitVec 32 → sProp 𝕄) (O : CellTallies nD τ sig Unit) (W : Waits sig Unit) (hO : Above 2 O)
    (fd : Buf (Elt F) ((xrC 3).view.loc (xp c : Thread nD τ)))
    (g : Buf (Elt F) ((c : Thread nD τ).loc cc0_stg1_0)) (r2 : Buf (Elt F) ((c : Thread nD τ).loc cc0_scratch2)) :
    iprop(cellInv ER (sched m) κ₁ (dCell c (xsS 3)) ∗ cellInv ER (sched m) κ₂ (dCell (xp c) (xrS 3)) ∗ cellInv ER (sched m) κ₃ (dCell c (yrSA 4))
        ∗ reached ER (dCell c (xsS 3)) 0 ∗ reached ER (dCell (xp c) (xrS 3)) 0 ∗ levAts L lv
        ∗ dutyTok ER (dCell c (xsS 3)) 0 false ∗ dutyTok ER (dCell (xp c) (xrS 3)) 0 false
        ∗ owes (c : Thread nD τ) (O + tallyAt (dCell (xp c) (xrS 3)) () NxA) W
        ∗ ((rdC 3).view.loc (c : Thread nD τ) ↦[(rdC 3).view.set]{fullShare} RD m c)
        ∗ ((xrC 3).view.loc (xp c : Thread nD τ) ↦[(xrC 3).view.set]{fullShare} fd)
        ∗ (((c : Thread nD τ).loc cc0_stg1_0) ↦{fullShare} g)
        ∗ cred (tallyAt (dCell c (yrSA 4)) () NyA) ∗ atPos ER (dCell c (yrSA 4)) 0 ∅ 0
        ∗ (((c : Thread nD τ).loc cc0_scratch0) ↦{fullShare.right} YS m c)
        ∗ ((rdC 4).view.loc (c : Thread nD τ) ↦[(rdC 4).view.set]{fullShare} r2))
      ⊢ iprop(((cred (tallyAt (dCell c (xsS 3)) () NxA) ∗ owes (c : Thread nD τ) O (insert (SemLoc.dma (yrSA 4), ()) W)
              ∗ ((rdC 3).view.loc (c : Thread nD τ) ↦[(rdC 3).view.set]{fullShare.right} RD m c)
              ∗ (((c : Thread nD τ).loc cc0_stg1_0) ↦{fullShare} stXA m c 3 g)
              ∗ atPos ER (dCell c (yrSA 4)) 1 ∅ 0 ∗ pYrA m c 4
              ∗ (((c : Thread nD τ).loc cc0_scratch0) ↦{fullShare.right} YS m c)
              ∗ ((rdC 4).view.loc (c : Thread nD τ) ↦[(rdC 4).view.set]{fullShare}
                  ((rdM.access (rR 4) : View sig .tc _ _ _).write (Elt F) r2
                    (k0_pay13 (ysM.view.readAt (Elt F) (sYA c 4).toLoadRect (YS m c)) (yrM.view.readAt (Elt F) (sYA c 4).toLoadRect (YR m c))) Finset.univ)))
            -∗ Q (Scalar.addi v9 128#32))
          -∗ wp frame (wpE (defs₀ (F := F)) 𝒱₀ (c : Thread nD τ) none) Set.univ (p10_body c v2 v5 v6 v7 v8 v9 v284) Q) := by
  iintro ⟨#HIxs, #HIxr, #HIyr, #Hrxs, #Hrxr, #Hlev, Htxs, Htxr, HO, Hrd1, Hxr1, Hout, Hcyr, Hayr, Hys, Hrd2⟩ Hk
  unfold p10_body
  rw [k0_part10_eq_skeleton]; unfold k0_part10_skel
  simp only [Prog.lift, Prog.bind_op, Prog.bind_ret, Prog.pure_eq_ret]
  -- the forwarded chunk leaves: half of its rows lent to the send cell
  ihave Hsp := (pointsTo_share (PosShare.mem_left_op_right fullShare)).1 $$ Hrd1
  icases Hsp with ⟨Hrd1L, Hrd1R⟩
  iapply (send_x m c _ (dev14_eq c) 3 κ₁ κ₂ fd (landed_xrC m c 3 fd (RD m c) fun _ _ => rfl) O W) $$ [Hrd1L Hxr1 HO Htxs Htxr]
  · isplitr; · iexact HIxs
    isplitr; · iexact HIxr
    isplitl [Hrd1L]; · unfold pXs; iexact Hrd1L
    isplitl [Hxr1]; · iexact Hxr1
    isplitl [HO]; · iexact HO
    isplitl [Htxs]; · iexact Htxs
    isplitr; · iexact Hrxs
    isplitl [Htxr]; · iexact Htxr
    iexact Hrxr
  iintro ⟨Hcxs, HO⟩
  -- its rows are read back and stored in the result block
  iapply (wp_load 𝒱₀ (c : Thread nD τ) none Set.univ (m := rdM) (rd_setOn_sub 3)) $$ Hrd1R; iintro Hrd1R
  iapply (wp_load 𝒱₀ (c : Thread nD τ) none Set.univ (m := oM) (Finset.subset_univ _)) $$ Hout; iintro Hout
  iapply (wp_store 𝒱₀ (c : Thread nD τ) none Set.univ (m := oM) (r := sXA c 3) (Mk := Finset.univ) (Finset.subset_univ _)) $$ Hout; iintro Hout
  -- the next chunk of the first exchange has landed
  iapply (wait_dma m c (yrSA 4) (by decide) κ₃ (by rfl) O W (above_mono (by dsimp only [lv]; decide) hO)) $$ [Hcyr HO Hayr]
  · isplitr; · iexact HIyr
    isplitl [Hcyr]; · iexact Hcyr
    isplitl [HO]; · iexact HO
    isplitr; · iexact Hlev
    iexact Hayr
  iintro ⟨HO, Hayr, -, Hyr2⟩
  ihave Hyr2 := (Entails.of_eq (show dmaPay m c ↑(yrSA 4) = pYrA m c 4 from rfl)) $$ Hyr2
  unfold pYrA
  iapply (wp_load 𝒱₀ (c : Thread nD τ) none Set.univ (m := ysM) (Finset.subset_univ _)) $$ Hys; iintro Hys
  iapply (wp_load 𝒱₀ (c : Thread nD τ) none Set.univ (m := yrM) (yr_setOn_A_sub c 4)) $$ Hyr2; iintro Hyr2
  iapply (wp_load 𝒱₀ (c : Thread nD τ) none Set.univ (m := rdM) (rd_setOn_sub 4)) $$ Hrd2; iintro Hrd2
  iapply (wp_store 𝒱₀ (c : Thread nD τ) none Set.univ (m := rdM) (r := rR 4) (Mk := Finset.univ) (rd_access_setOn_sub 4)) $$ Hrd2; iintro Hrd2
  rw [wp_ret]; imodintro
  iapply Hk
  isplitl [Hcxs]; · iexact Hcxs
  isplitl [HO]; · iexact HO
  isplitl [Hrd1R]; · iexact Hrd1R
  isplitl [Hout]; · iexact Hout
  isplitl [Hayr]; · iexact Hayr
  isplitl [Hyr2]; · iexact Hyr2
  isplitl [Hys]; · iexact Hys
  iexact Hrd2

end Cert.KernelIdeal.AllReduce

end
-- ==== Proof.Part11.lean ====
/-
  Part 11 of the kernel body. The fifth 32-row chunk of the forwarded rows leaves for the partner along the first axis
  (half of its rows lent to the send cell) and is copied into the result block at the rows the device owns; then the
  sixth chunk of the first exchange is awaited — everything the device still owes lies above that receive cell —,
  summed with the device's own rows, and put in the forwarded-rows buffer.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev p11_body (c : Dev nD) (v2 v5 v6 v7 v8 v9 v315 : BitVec 32) : Prog (TpuEff nD τ sig (Elt F) Λ₀ .tc) (BitVec 32) :=
  k0_part11 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v8 v9 v315

set_option maxHeartbeats 1600000 in
theorem part11 (c : Dev nD) (v2 v5 v6 v7 v8 v9 v315 : BitVec 32) (κ₁ κ₂ κ₃ : ℕ)
    (Q : BitVec 32 → sProp 𝕄) (O : CellTallies nD τ sig Unit) (W : Waits sig Unit) (hO : Above 2 O)
    (fd : Buf (Elt F) ((xrC 4).view.loc (xp c : Thread nD τ)))
    (g : Buf (Elt F) ((c : Thread nD τ).loc cc0_stg1_0)) (r2 : Buf (Elt F) ((c : Thread nD τ).loc cc0_scratch2)) :
    iprop(cellInv ER (sched m) κ₁ (dCell c (xsS 4)) ∗ cellInv ER (sched m) κ₂ (dCell (xp c) (xrS 4)) ∗ cellInv ER (sched m) κ₃ (dCell c (yrSA 5))
        ∗ reached ER (dCell c (xsS 4)) 0 ∗ reached ER (dCell (xp c) (xrS 4)) 0 ∗ levAts L lv
        ∗ dutyTok ER (dCell c (xsS 4)) 0 false ∗ dutyTok ER (dCell (xp c) (xrS 4)) 0 false
        ∗ owes (c : Thread nD τ) (O + tallyAt (dCell (xp c) (xrS 4)) () NxA) W
        ∗ ((rdC 4).view.loc (c : Thread nD τ) ↦[(rdC 4).view.set]{fullShare} RD m c)
        ∗ ((xrC 4).view.loc (xp c : Thread nD τ) ↦[(xrC 4).view.set]{fullShare} fd)
        ∗ (((c : Thread nD τ).loc cc0_stg1_0) ↦{fullShare} g)
        ∗ cred (tallyAt (dCell c (yrSA 5)) () NyA) ∗ atPos ER (dCell c (yrSA 5)) 0 ∅ 0
        ∗ (((c : Thread nD τ).loc cc0_scratch0) ↦{fullShare.right} YS m c)
        ∗ ((rdC 5).view.loc (c : Thread nD τ) ↦[(rdC 5).view.set]{fullShare} r2))
      ⊢ iprop(((cred (tallyAt (dCell c (xsS 4)) () NxA) ∗ owes (c : Thread nD τ) O (insert (SemLoc.dma (yrSA 5), ()) W)
              ∗ ((rdC 4).view.loc (c : Thread nD τ) ↦[(rdC 4).view.set]{fullShare.right} RD m c)
              ∗ (((c : Thread nD τ).loc cc0_stg1_0) ↦{fullShare} stXA m c 4 g)
              ∗ atPos ER (dCell c (yrSA 5)) 1 ∅ 0 ∗ pYrA m c 5
              ∗ (((c : Thread nD τ).loc cc0_scratch0) ↦{fullShare.right} YS m c)
              ∗ ((rdC 5).view.loc (c : Thread nD τ) ↦[(rdC 5).view.set]{fullShare}
                  ((rdM.access (rR 5) : View sig .tc _ _ _).write (Elt F) r2
                    (k0_pay14 (ysM.view.readAt (Elt F) (sYA c 5).toLoadRect (YS m c)) (yrM.view.readAt (Elt F) (sYA c 5).toLoadRect (YR m c))) Finset.univ)))
            -∗ Q (Scalar.addi v9 160#32))
          -∗ wp frame (wpE (defs₀ (F := F)) 𝒱₀ (c : Thread nD τ) none) Set.univ (p11_body c v2 v5 v6 v7 v8 v9 v315) Q) := by
  iintro ⟨#HIxs, #HIxr, #HIyr, #Hrxs, #Hrxr, #Hlev, Htxs, Htxr, HO, Hrd1, Hxr1, Hout, Hcyr, Hayr, Hys, Hrd2⟩ Hk
  unfold p11_body
  rw [k0_part11_eq_skeleton]; unfold k0_part11_skel
  simp only [Prog.lift, Prog.bind_op, Prog.bind_ret, Prog.pure_eq_ret]
  -- the forwarded chunk leaves: half of its rows lent to the send cell
  ihave Hsp := (pointsTo_share (PosShare.mem_left_op_right fullShare)).1 $$ Hrd1
  icases Hsp with ⟨Hrd1L, Hrd1R⟩
  iapply (send_x m c _ (dev15_eq c) 4 κ₁ κ₂ fd (landed_xrC m c 4 fd (RD m c) fun _ _ => rfl) O W) $$ [Hrd1L Hxr1 HO Htxs Htxr]
  · isplitr; · iexact HIxs
    isplitr; · iexact HIxr
    isplitl [Hrd1L]; · unfold pXs; iexact Hrd1L
    isplitl [Hxr1]; · iexact Hxr1
    isplitl [HO]; · iexact HO
    isplitl [Htxs]; · iexact Htxs
    isplitr; · iexact Hrxs
    isplitl [Htxr]; · iexact Htxr
    iexact Hrxr
  iintro ⟨Hcxs, HO⟩
  -- its rows are read back and stored in the result block
  iapply (wp_load 𝒱₀ (c : Thread nD τ) none Set.univ (m := rdM) (rd_setOn_sub 4)) $$ Hrd1R; iintro Hrd1R
  iapply (wp_load 𝒱₀ (c : Thread nD τ) none Set.univ (m := oM) (Finset.subset_univ _)) $$ Hout; iintro Hout
  iapply (wp_store 𝒱₀ (c : Thread nD τ) none Set.univ (m := oM) (r := sXA c 4) (Mk := Finset.univ) (Finset.subset_univ _)) $$ Hout; iintro Hout
  -- the next chunk of the first exchange has landed
  iapply (wait_dma m c (yrSA 5) (by decide) κ₃ (by rfl) O W (above_mono (by dsimp only [lv]; decide) hO)) $$ [Hcyr HO Hayr]
  · isplitr; · iexact HIyr
    isplitl [Hcyr]; · iexact Hcyr
    isplitl [HO]; · iexact HO
    isplitr; · iexact Hlev
    iexact Hayr
  iintro ⟨HO, Hayr, -, Hyr2⟩
  ihave Hyr2 := (Entails.of_eq (show dmaPay m c ↑(yrSA 5) = pYrA m c 5 from rfl)) $$ Hyr2
  unfold pYrA
  iapply (wp_load 𝒱₀ (c : Thread nD τ) none Set.univ (m := ysM) (Finset.subset_univ _)) $$ Hys; iintro Hys
  iapply (wp_load 𝒱₀ (c : Thread nD τ) none Set.univ (m := yrM) (yr_setOn_A_sub c 5)) $$ Hyr2; iintro Hyr2
  iapply (wp_load 𝒱₀ (c : Thread nD τ) none Set.univ (m := rdM) (rd_setOn_sub 5)) $$ Hrd2; iintro Hrd2
  iapply (wp_store 𝒱₀ (c : Thread nD τ) none Set.univ (m := rdM) (r := rR 5) (Mk := Finset.univ) (rd_access_setOn_sub 5)) $$ Hrd2; iintro Hrd2
  rw [wp_ret]; imodintro
  iapply Hk
  isplitl [Hcxs]; · iexact Hcxs
  isplitl [HO]; · iexact HO
  isplitl [Hrd1R]; · iexact Hrd1R
  isplitl [Hout]; · iexact Hout
  isplitl [Hayr]; · iexact Hayr
  isplitl [Hyr2]; · iexact Hyr2
  isplitl [Hys]; · iexact Hys
  iexact Hrd2

end Cert.KernelIdeal.AllReduce

end
-- ==== Proof.Part12.lean ====
/-
  Part 12 of the kernel body. The sixth and last 32-row chunk of the forwarded rows leaves for the partner along the first
  axis and is copied into the result block; from here on the device owes nothing. Then the first 64-row chunk of the
  first exchange is awaited, summed with the device's own rows, and stored in the result block at rows 192 to 255.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem part12 (c : Dev nD) (v2 v5 v6 v7 v8 v11 v346 : BitVec 32) (κ₁ κ₂ κ₃ : ℕ)
    (Q : PUnit → sProp 𝕄) (W : Waits sig Unit)
    (fd : Buf (Elt F) ((xrC 5).view.loc (xp c : Thread nD τ)))
    (g : Buf (Elt F) ((c : Thread nD τ).loc cc0_stg1_0)) :
    iprop(cellInv ER (sched m) κ₁ (dCell c (xsS 5)) ∗ cellInv ER (sched m) κ₂ (dCell (xp c) (xrS 5)) ∗ cellInv ER (sched m) κ₃ (dCell c (yrSB 0))
        ∗ reached ER (dCell c (xsS 5)) 0 ∗ reached ER (dCell (xp c) (xrS 5)) 0 ∗ levAts L lv
        ∗ dutyTok ER (dCell c (xsS 5)) 0 false ∗ dutyTok ER (dCell (xp c) (xrS 5)) 0 false
        ∗ owes (c : Thread nD τ) (tallyAt (dCell (xp c) (xrS 5)) () NxA) W
        ∗ ((rdC 5).view.loc (c : Thread nD τ) ↦[(rdC 5).view.set]{fullShare} RD m c)
        ∗ ((xrC 5).view.loc (xp c : Thread nD τ) ↦[(xrC 5).view.set]{fullShare} fd)
        ∗ (((c : Thread nD τ).loc cc0_stg1_0) ↦{fullShare} g)
        ∗ cred (tallyAt (dCell c (yrSB 0)) () NyB) ∗ atPos ER (dCell c (yrSB 0)) 0 ∅ 0
        ∗ (((c : Thread nD τ).loc cc0_scratch0) ↦{fullShare.right} YS m c))
      ⊢ iprop(((cred (tallyAt (dCell c (xsS 5)) () NxA) ∗ owes (c : Thread nD τ) 0 (insert (SemLoc.dma (yrSB 0), ()) W)
              ∗ ((rdC 5).view.loc (c : Thread nD τ) ↦[(rdC 5).view.set]{fullShare.right} RD m c)
              ∗ (((c : Thread nD τ).loc cc0_stg1_0) ↦{fullShare} stXB m c 0 (stXA m c 5 g))
              ∗ atPos ER (dCell c (yrSB 0)) 1 ∅ 0 ∗ pYrB m c 0
              ∗ (((c : Thread nD τ).loc cc0_scratch0) ↦{fullShare.right} YS m c))
            -∗ Q ⟨⟩)
          -∗ wp frame (wpE (defs₀ (F := F)) 𝒱₀ (c : Thread nD τ) none) Set.univ
              (k0_part12 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v8 v11 v346) Q) := by
  iintro ⟨#HIxs, #HIxr, #HIyr, #Hrxs, #Hrxr, #Hlev, Htxs, Htxr, HO, Hrd1, Hxr1, Hout, Hcyr, Hayr, Hys⟩ Hk
  rw [k0_part12_eq_skeleton]; unfold k0_part12_skel
  simp only [Prog.lift, Prog.bind_op, Prog.bind_ret, Prog.pure_eq_ret]
  -- the last forwarded chunk leaves: half of its rows lent to the send cell; nothing is owed after it
  ihave HO := (Entails.of_eq (show (owes (c : Thread nD τ) (tallyAt (dCell (xp c) (xrS 5)) () NxA) W : sProp 𝕄)
      = owes (c : Thread nD τ) (0 + tallyAt (dCell (xp c) (xrS 5)) () NxA) W from by rw [zero_add])) $$ HO
  ihave Hsp := (pointsTo_share (PosShare.mem_left_op_right fullShare)).1 $$ Hrd1
  icases Hsp with ⟨Hrd1L, Hrd1R⟩
  iapply (send_x m c _ (dev16_eq c) 5 κ₁ κ₂ fd (landed_xrC m c 5 fd (RD m c) fun _ _ => rfl) 0 W) $$ [Hrd1L Hxr1 HO Htxs Htxr]
  · isplitr; · iexact HIxs
    isplitr; · iexact HIxr
    isplitl [Hrd1L]; · unfold pXs; iexact Hrd1L
    isplitl [Hxr1]; · iexact Hxr1
    isplitl [HO]; · iexact HO
    isplitl [Htxs]; · iexact Htxs
    isplitr; · iexact Hrxs
    isplitl [Htxr]; · iexact Htxr
    iexact Hrxr
  iintro ⟨Hcxs, HO⟩
  -- its rows are read back and stored in the result block
  iapply (wp_load 𝒱₀ (c : Thread nD τ) none Set.univ (m := rdM) (rd_setOn_sub 5)) $$ Hrd1R; iintro Hrd1R
  iapply (wp_load 𝒱₀ (c : Thread nD τ) none Set.univ (m := oM) (Finset.subset_univ _)) $$ Hout; iintro Hout
  iapply (wp_store 𝒱₀ (c : Thread nD τ) none Set.univ (m := oM) (r := sXA c 5) (Mk := Finset.univ) (Finset.subset_univ _)) $$ Hout; iintro Hout
  -- the first 64-row chunk of the first exchange has landed
  iapply (wait_dma m c (yrSB 0) (by decide) κ₃ (by rfl) 0 W (above_zero _)) $$ [Hcyr HO Hayr]
  · isplitr; · iexact HIyr
    isplitl [Hcyr]; · iexact Hcyr
    isplitl [HO]; · iexact HO
    isplitr; · iexact Hlev
    iexact Hayr
  iintro ⟨HO, Hayr, -, Hyr⟩
  ihave Hyr := (Entails.of_eq (show dmaPay m c ↑(yrSB 0) = pYrB m c 0 from rfl)) $$ Hyr
  unfold pYrB
  iapply (wp_load 𝒱₀ (c : Thread nD τ) none Set.univ (m := ysM) (Finset.subset_univ _)) $$ Hys; iintro Hys
  iapply (wp_load 𝒱₀ (c : Thread nD τ) none Set.univ (m := yrM) (yr_setOn_B_sub c 0)) $$ Hyr; iintro Hyr
  iapply (wp_load 𝒱₀ (c : Thread nD τ) none Set.univ (m := oM) (Finset.subset_univ _)) $$ Hout; iintro Hout
  iapply (wp_store 𝒱₀ (c : Thread nD τ) none Set.univ (m := oM) (r := sXB c 0) (Mk := Finset.univ) (Finset.subset_univ _)) $$ Hout; iintro Hout
  rw [wp_ret]; imodintro
  iapply Hk
  isplitl [Hcxs]; · iexact Hcxs
  isplitl [HO]; · iexact HO
  isplitl [Hrd1R]; · iexact Hrd1R
  isplitl [Hout]; · iexact Hout
  isplitl [Hayr]; · iexact Hayr
  isplitl [Hyr]; · iexact Hyr
  iexact Hys

end Cert.KernelIdeal.AllReduce

end
-- ==== Proof.Part13.lean ====
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- The first forwarded chunk of the partner lands and is stored; the last chunk of the first exchange lands, is summed and
    stored; the second forwarded chunk lands. -/
theorem part13 (c : Dev nD) (v2 v5 v6 v7 v8 v11 v13 : BitVec 32) (κ₀ κ₁ κ₂ : ℕ)
    (Q : PUnit → sProp 𝕄) (W : Waits sig Unit)
    (g : Buf (Elt F) ((c : Thread nD τ).loc cc0_stg1_0))
    (hld_x0 : (xrM : Memref sig .tc .vmem S192x512 .bf16).view.setOn ((rR 0).toLoadRect).set ⊆ (xrC 0).view.set)
    (hld_yr : (yrM : Memref sig .tc .vmem S320x512 .bf16).view.setOn ((sYB c 1).toLoadRect).set ⊆ (yrB c 1).view.set) :
    iprop(levAts L lv ∗ owes (c : Thread nD τ) 0 W
        ∗ waitIn m c (xrS 0) κ₀ ∗ waitIn m c (yrSB 1) κ₁ ∗ waitIn m c (xrS 1) κ₂
        ∗ (((c : Thread nD τ).loc cc0_stg1_0) ↦{fullShare} g)
        ∗ (((c : Thread nD τ).loc cc0_scratch0) ↦{fullShare.right} YS m c))
      ⊢ iprop((((∃ W', owes (c : Thread nD τ) 0 W')
              ∗ atPos ER (dCell c (xrS 0)) 1 ∅ 0 ∗ atPos ER (dCell c (yrSB 1)) 1 ∅ 0 ∗ atPos ER (dCell c (xrS 1)) 1 ∅ 0
              ∗ pXr m c 0 ∗ pYrB m c 1 ∗ pXr m c 1
              ∗ (((c : Thread nD τ).loc cc0_stg1_0) ↦{fullShare}
                  ((oM.access (sXB c 1) : View sig .tc _ _ _).write (Elt F)
                    ((oM.access (sXC c 0) : View sig .tc _ _ _).write (Elt F) g (xrM.view.readAt (Elt F) (rR 0).toLoadRect (XR m c)) Finset.univ)
                    (k0_pay16 (ysM.view.readAt (Elt F) (sYB c 1).toLoadRect (YS m c)) (yrM.view.readAt (Elt F) (sYB c 1).toLoadRect (YR m c))) Finset.univ))
              ∗ (((c : Thread nD τ).loc cc0_scratch0) ↦{fullShare.right} YS m c)) -∗ Q ⟨⟩)
          -∗ wp frame (wpE (defs₀ (F := F)) 𝒱₀ (c : Thread nD τ) none) Set.univ (k0_part13 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v2 v5 v6 v7 v8 v11 v13) Q) := by
  unfold waitIn
  iintro ⟨#Hlev, HO, ⟨#HI0, Hc0, Ha0⟩, ⟨#HI1, Hc1, Ha1⟩, ⟨#HI2, Hc2, Ha2⟩, Hout, Hys⟩ Hk
  rw [k0_part13_eq_skeleton]; unfold k0_part13_skel
  simp only [Prog.lift, Prog.bind_op, Prog.bind_ret, Prog.pure_eq_ret]
  iapply (wait_dma m c (xrS 0) (by decide) κ₀ (by rfl) 0 _ (above_zero _)) $$ [Hc0 HO Ha0]
  · isplitr; · iexact HI0
    isplitl [Hc0]; · iexact Hc0
    isplitl [HO]; · iexact HO
    isplitr; · iexact Hlev
    iexact Ha0
  iintro ⟨HO, Ha0, -, Hx0⟩
  ihave Hx0 := (Entails.of_eq (show dmaPay m c ↑(xrS 0) = pXr m c 0 from rfl)) $$ Hx0
  unfold pXr
  iapply (wp_load 𝒱₀ (c : Thread nD τ) none Set.univ (m := xrM) hld_x0) $$ Hx0; iintro Hx0
  iapply (wp_load 𝒱₀ (c : Thread nD τ) none Set.univ (m := oM) (Finset.subset_univ _)) $$ Hout; iintro Hout
  iapply (wp_store 𝒱₀ (c : Thread nD τ) none Set.univ (m := oM) (r := sXC c 0) (Mk := Finset.univ) (Finset.subset_univ _)) $$ Hout; iintro Hout
  iapply (wait_dma m c (yrSB 1) (by decide) κ₁ (by rfl) 0 _ (above_zero _)) $$ [Hc1 HO Ha1]
  · isplitr; · iexact HI1
    isplitl [Hc1]; · iexact Hc1
    isplitl [HO]; · iexact HO
    isplitr; · iexact Hlev
    iexact Ha1
  iintro ⟨HO, Ha1, -, Hy1⟩
  ihave Hy1 := (Entails.of_eq (show dmaPay m c ↑(yrSB 1) = pYrB m c 1 from rfl)) $$ Hy1
  unfold pYrB
  iapply (wp_load 𝒱₀ (c : Thread nD τ) none Set.univ (m := ysM) (Finset.subset_univ _)) $$ Hys; iintro Hys
  iapply (wp_load 𝒱₀ (c : Thread nD τ) none Set.univ (m := yrM) hld_yr) $$ Hy1; iintro Hy1
  iapply (wp_load 𝒱₀ (c : Thread nD τ) none Set.univ (m := oM) (Finset.subset_univ _)) $$ Hout; iintro Hout
  iapply (wp_store 𝒱₀ (c : Thread nD τ) none Set.univ (m := oM) (r := sXB c 1) (Mk := Finset.univ) (Finset.subset_univ _)) $$ Hout; iintro Hout
  iapply (wait_dma m c (xrS 1) (by decide) κ₂ (by rfl) 0 _ (above_zero _)) $$ [Hc2 HO Ha2]
  · isplitr; · iexact HI2
    isplitl [Hc2]; · iexact Hc2
    isplitl [HO]; · iexact HO
    isplitr; · iexact Hlev
    iexact Ha2
  iintro ⟨HO, Ha2, -, Hx1⟩
  ihave Hx1 := (Entails.of_eq (show dmaPay m c ↑(xrS 1) = pXr m c 1 from rfl)) $$ Hx1
  unfold pXr
  rw [wp_ret]; imodintro
  iapply Hk
  isplitl [HO]; · iexists _; iexact HO
  isplitl [Ha0]; · iexact Ha0
  isplitl [Ha1]; · iexact Ha1
  isplitl [Ha2]; · iexact Ha2
  isplitl [Hx0]; · iexact Hx0
  isplitl [Hy1]; · iexact Hy1
  isplitl [Hx1]; · iexact Hx1
  isplitl [Hout]; · iexact Hout
  iexact Hys

end Cert.KernelIdeal.AllReduce

end
-- ==== Proof.Part14.lean ====
/-
  The second exchange's arrivals, continued: the partner's forwarded chunk 1, already landed, is read and stored in the
  rows of the result block this device does not compute itself; chunks 2 and 3 are awaited in turn, chunk 2 stored, and
  chunk 3 read: its rows are what this part hands on.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- Chunks 1 and 2 of the partner's forwarded rows are stored in the result block; chunk 3 has landed and is read. -/
theorem part14 (c : Dev nD) (v5 v7 v13 : BitVec 32) (κ₂ κ₃ : ℕ)
    (Q : Vec F S32x512 .bf16 → sProp 𝕄) (W : Waits sig Unit)
    (g : Buf (Elt F) ((c : Thread nD τ).loc cc0_stg1_0)) :
    iprop(levAts L lv ∗ owes (c : Thread nD τ) 0 W
        ∗ pXr m c 1 ∗ waitIn m c (xrS 2) κ₂ ∗ waitIn m c (xrS 3) κ₃
        ∗ (((c : Thread nD τ).loc cc0_stg1_0) ↦{fullShare} g))
      ⊢ iprop((((∃ W', owes (c : Thread nD τ) 0 W')
              ∗ atPos ER (dCell c (xrS 2)) 1 ∅ 0 ∗ atPos ER (dCell c (xrS 3)) 1 ∅ 0
              ∗ pXr m c 1 ∗ pXr m c 2 ∗ pXr m c 3
              ∗ (((c : Thread nD τ).loc cc0_stg1_0) ↦{fullShare} stXC m c 2 (stXC m c 1 g)))
            -∗ Q (xrM.view.readAt (Elt F) (rR 3).toLoadRect (XR m c)))
          -∗ wp frame (wpE (defs₀ (F := F)) 𝒱₀ (c : Thread nD τ) none) Set.univ (k0_part14 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v5 v7 v13) Q) := by
  unfold waitIn
  iintro ⟨#Hlev, HO, Hx1, ⟨#HI2, Hc2, Ha2⟩, ⟨#HI3, Hc3, Ha3⟩, Hout⟩ Hk
  rw [k0_part14_eq_skeleton]; unfold k0_part14_skel
  simp only [Prog.lift, Prog.bind_op, Prog.bind_ret, Prog.pure_eq_ret]
  unfold pXr
  iapply (wp_load 𝒱₀ (c : Thread nD τ) none Set.univ (m := xrM) (xr_setOn_sub 1)) $$ Hx1; iintro Hx1
  iapply (wp_load 𝒱₀ (c : Thread nD τ) none Set.univ (m := oM) (Finset.subset_univ _)) $$ Hout; iintro Hout
  iapply (wp_store 𝒱₀ (c : Thread nD τ) none Set.univ (m := oM) (r := sXC c 1) (Mk := Finset.univ) (Finset.subset_univ _)) $$ Hout; iintro Hout
  iapply (wait_dma m c (xrS 2) (by decide) κ₂ (by rfl) 0 _ (above_zero _)) $$ [Hc2 HO Ha2]
  · isplitr; · iexact HI2
    isplitl [Hc2]; · iexact Hc2
    isplitl [HO]; · iexact HO
    isplitr; · iexact Hlev
    iexact Ha2
  iintro ⟨HO, Ha2, -, Hx2⟩
  ihave Hx2 := (Entails.of_eq (show dmaPay m c ↑(xrS 2) = pXr m c 2 from rfl)) $$ Hx2
  unfold pXr
  iapply (wp_load 𝒱₀ (c : Thread nD τ) none Set.univ (m := xrM) (xr_setOn_sub 2)) $$ Hx2; iintro Hx2
  iapply (wp_load 𝒱₀ (c : Thread nD τ) none Set.univ (m := oM) (Finset.subset_univ _)) $$ Hout; iintro Hout
  iapply (wp_store 𝒱₀ (c : Thread nD τ) none Set.univ (m := oM) (r := sXC c 2) (Mk := Finset.univ) (Finset.subset_univ _)) $$ Hout; iintro Hout
  iapply (wait_dma m c (xrS 3) (by decide) κ₃ (by rfl) 0 _ (above_zero _)) $$ [Hc3 HO Ha3]
  · isplitr; · iexact HI3
    isplitl [Hc3]; · iexact Hc3
    isplitl [HO]; · iexact HO
    isplitr; · iexact Hlev
    iexact Ha3
  iintro ⟨HO, Ha3, -, Hx3⟩
  ihave Hx3 := (Entails.of_eq (show dmaPay m c ↑(xrS 3) = pXr m c 3 from rfl)) $$ Hx3
  unfold pXr
  iapply (wp_load 𝒱₀ (c : Thread nD τ) none Set.univ (m := xrM) (xr_setOn_sub 3)) $$ Hx3; iintro Hx3
  rw [wp_ret]; imodintro
  iapply Hk
  isplitl [HO]; · iexists _; iexact HO
  isplitl [Ha2]; · iexact Ha2
  isplitl [Ha3]; · iexact Ha3
  isplitl [Hx1]; · iexact Hx1
  isplitl [Hx2]; · iexact Hx2
  isplitl [Hx3]; · iexact Hx3
  iexact Hout

end Cert.KernelIdeal.AllReduce

end
-- ==== Proof.Part15.lean ====
/-
  The second exchange's arrivals, concluded: the rows read from the partner's forwarded chunk 3 are stored in the result
  block; chunks 4 and 5 are awaited in turn, read and stored. With this the result block has received its last rows.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- The handed-on rows are stored at the place of chunk 3; chunks 4 and 5 of the partner's forwarded rows land and are
    stored. -/
theorem part15 (c : Dev nD) (v5 v7 v13 : BitVec 32) (v455 : Vec F S32x512 .bf16) (κ₄ κ₅ : ℕ)
    (Q : PUnit → sProp 𝕄) (W : Waits sig Unit)
    (g : Buf (Elt F) ((c : Thread nD τ).loc cc0_stg1_0)) :
    iprop(levAts L lv ∗ owes (c : Thread nD τ) 0 W
        ∗ waitIn m c (xrS 4) κ₄ ∗ waitIn m c (xrS 5) κ₅
        ∗ (((c : Thread nD τ).loc cc0_stg1_0) ↦{fullShare} g))
      ⊢ iprop((((∃ W', owes (c : Thread nD τ) 0 W')
              ∗ atPos ER (dCell c (xrS 4)) 1 ∅ 0 ∗ atPos ER (dCell c (xrS 5)) 1 ∅ 0
              ∗ pXr m c 4 ∗ pXr m c 5
              ∗ (((c : Thread nD τ).loc cc0_stg1_0) ↦{fullShare}
                  stXC m c 5 (stXC m c 4 ((oM.access (sXC c 3) : View sig .tc _ _ _).write (Elt F) g v455 Finset.univ))))
            -∗ Q ⟨⟩)
          -∗ wp frame (wpE (defs₀ (F := F)) 𝒱₀ (c : Thread nD τ) none) Set.univ (k0_part15 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c v5 v7 v13 v455) Q) := by
  unfold waitIn
  iintro ⟨#Hlev, HO, ⟨#HI4, Hc4, Ha4⟩, ⟨#HI5, Hc5, Ha5⟩, Hout⟩ Hk
  rw [k0_part15_eq_skeleton]; unfold k0_part15_skel
  simp only [Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := sXC c 3) (Mk := Finset.univ) (Finset.subset_univ _)) $$ Hout; iintro Hout
  iapply (wait_dma m c (xrS 4) (by decide) κ₄ (by rfl) 0 _ (above_zero _)) $$ [Hc4 HO Ha4]
  · isplitr; · iexact HI4
    isplitl [Hc4]; · iexact Hc4
    isplitl [HO]; · iexact HO
    isplitr; · iexact Hlev
    iexact Ha4
  iintro ⟨HO, Ha4, -, Hx4⟩
  ihave Hx4 := (Entails.of_eq (show dmaPay m c ↑(xrS 4) = pXr m c 4 from rfl)) $$ Hx4
  unfold pXr
  iapply (wp_load 𝒱₀ (c : Thread nD τ) none Set.univ (m := xrM) (xr_setOn_sub 4)) $$ Hx4; iintro Hx4
  iapply (wp_load 𝒱₀ (c : Thread nD τ) none Set.univ (m := oM) (Finset.subset_univ _)) $$ Hout; iintro Hout
  iapply (wp_store 𝒱₀ (c : Thread nD τ) none Set.univ (m := oM) (r := sXC c 4) (Mk := Finset.univ) (Finset.subset_univ _)) $$ Hout; iintro Hout
  iapply (wait_dma m c (xrS 5) (by decide) κ₅ (by rfl) 0 _ (above_zero _)) $$ [Hc5 HO Ha5]
  · isplitr; · iexact HI5
    isplitl [Hc5]; · iexact Hc5
    isplitl [HO]; · iexact HO
    isplitr; · iexact Hlev
    iexact Ha5
  iintro ⟨HO, Ha5, -, Hx5⟩
  ihave Hx5 := (Entails.of_eq (show dmaPay m c ↑(xrS 5) = pXr m c 5 from rfl)) $$ Hx5
  unfold pXr
  iapply (wp_load 𝒱₀ (c : Thread nD τ) none Set.univ (m := xrM) (xr_setOn_sub 5)) $$ Hx5; iintro Hx5
  iapply (wp_load 𝒱₀ (c : Thread nD τ) none Set.univ (m := oM) (Finset.subset_univ _)) $$ Hout; iintro Hout
  iapply (wp_store 𝒱₀ (c : Thread nD τ) none Set.univ (m := oM) (r := sXC c 5) (Mk := Finset.univ) (Finset.subset_univ _)) $$ Hout; iintro Hout
  rw [wp_ret]; imodintro
  iapply Hk
  isplitl [HO]; · iexists _; iexact HO
  isplitl [Ha4]; · iexact Ha4
  isplitl [Ha5]; · iexact Ha5
  isplitl [Hx4]; · iexact Hx4
  isplitl [Hx5]; · iexact Hx5
  iexact Hout

end Cert.KernelIdeal.AllReduce

end
-- ==== Proof.Part16.lean ====
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- The six 32-row departures of the first exchange are waited: their source rows come back. -/
theorem part16 (c : Dev nD) (κ : Fin 6 → ℕ) (Q : PUnit → sProp 𝕄) (W : Waits sig Unit) :
    iprop(levAts L lv ∗ owes (c : Thread nD τ) 0 W
        ∗ waitIn m c (ysSA 0) (κ 0) ∗ waitIn m c (ysSA 1) (κ 1) ∗ waitIn m c (ysSA 2) (κ 2)
        ∗ waitIn m c (ysSA 3) (κ 3) ∗ waitIn m c (ysSA 4) (κ 4) ∗ waitIn m c (ysSA 5) (κ 5))
      ⊢ iprop((((∃ W', owes (c : Thread nD τ) 0 W')
              ∗ waitOut m c (ysSA 0) ∗ waitOut m c (ysSA 1) ∗ waitOut m c (ysSA 2)
              ∗ waitOut m c (ysSA 3) ∗ waitOut m c (ysSA 4) ∗ waitOut m c (ysSA 5)) -∗ Q ⟨⟩)
          -∗ wp frame (wpE (defs₀ (F := F)) 𝒱₀ (c : Thread nD τ) none) Set.univ (k0_part16 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c) Q) := by
  unfold waitIn waitOut
  iintro ⟨#Hlev, HO, ⟨#HI0, Hc0, Ha0⟩, ⟨#HI1, Hc1, Ha1⟩, ⟨#HI2, Hc2, Ha2⟩, ⟨#HI3, Hc3, Ha3⟩, ⟨#HI4, Hc4, Ha4⟩, ⟨#HI5, Hc5, Ha5⟩⟩ Hk
  rw [k0_part16_eq_skeleton]; unfold k0_part16_skel
  simp only [Prog.lift, Prog.bind_op, Prog.bind_ret, Prog.pure_eq_ret]
  iapply (wait_dma m c (ysSA 0) (by decide) (κ 0) (by rfl) 0 _ (above_zero _)) $$ [Hc0 HO Ha0]
  · isplitr; · iexact HI0
    isplitl [Hc0]; · iexact Hc0
    isplitl [HO]; · iexact HO
    isplitr; · iexact Hlev
    iexact Ha0
  iintro ⟨HO, Ha0, -, Hp0⟩
  iapply (wait_dma m c (ysSA 1) (by decide) (κ 1) (by rfl) 0 _ (above_zero _)) $$ [Hc1 HO Ha1]
  · isplitr; · iexact HI1
    isplitl [Hc1]; · iexact Hc1
    isplitl [HO]; · iexact HO
    isplitr; · iexact Hlev
    iexact Ha1
  iintro ⟨HO, Ha1, -, Hp1⟩
  iapply (wait_dma m c (ysSA 2) (by decide) (κ 2) (by rfl) 0 _ (above_zero _)) $$ [Hc2 HO Ha2]
  · isplitr; · iexact HI2
    isplitl [Hc2]; · iexact Hc2
    isplitl [HO]; · iexact HO
    isplitr; · iexact Hlev
    iexact Ha2
  iintro ⟨HO, Ha2, -, Hp2⟩
  iapply (wait_dma m c (ysSA 3) (by decide) (κ 3) (by rfl) 0 _ (above_zero _)) $$ [Hc3 HO Ha3]
  · isplitr; · iexact HI3
    isplitl [Hc3]; · iexact Hc3
    isplitl [HO]; · iexact HO
    isplitr; · iexact Hlev
    iexact Ha3
  iintro ⟨HO, Ha3, -, Hp3⟩
  iapply (wait_dma m c (ysSA 4) (by decide) (κ 4) (by rfl) 0 _ (above_zero _)) $$ [Hc4 HO Ha4]
  · isplitr; · iexact HI4
    isplitl [Hc4]; · iexact Hc4
    isplitl [HO]; · iexact HO
    isplitr; · iexact Hlev
    iexact Ha4
  iintro ⟨HO, Ha4, -, Hp4⟩
  iapply (wait_dma m c (ysSA 5) (by decide) (κ 5) (by rfl) 0 _ (above_zero _)) $$ [Hc5 HO Ha5]
  · isplitr; · iexact HI5
    isplitl [Hc5]; · iexact Hc5
    isplitl [HO]; · iexact HO
    isplitr; · iexact Hlev
    iexact Ha5
  iintro ⟨HO, Ha5, -, Hp5⟩
  rw [wp_ret]; imodintro
  iapply Hk
  isplitl [HO]; · iexists _; iexact HO
  isplitl [Ha0 Hp0]; · isplitl [Ha0] <;> iassumption
  isplitl [Ha1 Hp1]; · isplitl [Ha1] <;> iassumption
  isplitl [Ha2 Hp2]; · isplitl [Ha2] <;> iassumption
  isplitl [Ha3 Hp3]; · isplitl [Ha3] <;> iassumption
  isplitl [Ha4 Hp4]; · isplitl [Ha4] <;> iassumption
  isplitl [Ha5] <;> iassumption

end Cert.KernelIdeal.AllReduce

end
-- ==== Proof.Part17.lean ====
/-
  The departures' send cells, continued: the two 64-row departures of the first exchange and the first three departures of
  the second are waited; each wait returns the source rows the departure had been lent.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- The two 64-row departures of the first exchange and three departures of the second are waited: their source rows
    come back. -/
theorem part17 (c : Dev nD) (κ : Fin 5 → ℕ) (Q : PUnit → sProp 𝕄) (W : Waits sig Unit) :
    iprop(levAts L lv ∗ owes (c : Thread nD τ) 0 W
        ∗ waitIn m c (ysSB 0) (κ 0) ∗ waitIn m c (ysSB 1) (κ 1)
        ∗ waitIn m c (xsS 0) (κ 2) ∗ waitIn m c (xsS 1) (κ 3) ∗ waitIn m c (xsS 2) (κ 4))
      ⊢ iprop((((∃ W', owes (c : Thread nD τ) 0 W')
              ∗ waitOut m c (ysSB 0) ∗ waitOut m c (ysSB 1)
              ∗ waitOut m c (xsS 0) ∗ waitOut m c (xsS 1) ∗ waitOut m c (xsS 2)) -∗ Q ⟨⟩)
          -∗ wp frame (wpE (defs₀ (F := F)) 𝒱₀ (c : Thread nD τ) none) Set.univ (k0_part17 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c) Q) := by
  unfold waitIn waitOut
  iintro ⟨#Hlev, HO, ⟨#HI0, Hc0, Ha0⟩, ⟨#HI1, Hc1, Ha1⟩, ⟨#HI2, Hc2, Ha2⟩, ⟨#HI3, Hc3, Ha3⟩, ⟨#HI4, Hc4, Ha4⟩⟩ Hk
  rw [k0_part17_eq_skeleton]; unfold k0_part17_skel
  simp only [Prog.lift, Prog.bind_op, Prog.bind_ret, Prog.pure_eq_ret]
  iapply (wait_dma m c (ysSB 0) (by decide) (κ 0) (by rfl) 0 _ (above_zero _)) $$ [Hc0 HO Ha0]
  · isplitr; · iexact HI0
    isplitl [Hc0]; · iexact Hc0
    isplitl [HO]; · iexact HO
    isplitr; · iexact Hlev
    iexact Ha0
  iintro ⟨HO, Ha0, -, Hp0⟩
  iapply (wait_dma m c (ysSB 1) (by decide) (κ 1) (by rfl) 0 _ (above_zero _)) $$ [Hc1 HO Ha1]
  · isplitr; · iexact HI1
    isplitl [Hc1]; · iexact Hc1
    isplitl [HO]; · iexact HO
    isplitr; · iexact Hlev
    iexact Ha1
  iintro ⟨HO, Ha1, -, Hp1⟩
  iapply (wait_dma m c (xsS 0) (by decide) (κ 2) (by rfl) 0 _ (above_zero _)) $$ [Hc2 HO Ha2]
  · isplitr; · iexact HI2
    isplitl [Hc2]; · iexact Hc2
    isplitl [HO]; · iexact HO
    isplitr; · iexact Hlev
    iexact Ha2
  iintro ⟨HO, Ha2, -, Hp2⟩
  iapply (wait_dma m c (xsS 1) (by decide) (κ 3) (by rfl) 0 _ (above_zero _)) $$ [Hc3 HO Ha3]
  · isplitr; · iexact HI3
    isplitl [Hc3]; · iexact Hc3
    isplitl [HO]; · iexact HO
    isplitr; · iexact Hlev
    iexact Ha3
  iintro ⟨HO, Ha3, -, Hp3⟩
  iapply (wait_dma m c (xsS 2) (by decide) (κ 4) (by rfl) 0 _ (above_zero _)) $$ [Hc4 HO Ha4]
  · isplitr; · iexact HI4
    isplitl [Hc4]; · iexact Hc4
    isplitl [HO]; · iexact HO
    isplitr; · iexact Hlev
    iexact Ha4
  iintro ⟨HO, Ha4, -, Hp4⟩
  rw [wp_ret]; imodintro
  iapply Hk
  isplitl [HO]; · iexists _; iexact HO
  isplitl [Ha0 Hp0]; · isplitl [Ha0] <;> iassumption
  isplitl [Ha1 Hp1]; · isplitl [Ha1] <;> iassumption
  isplitl [Ha2 Hp2]; · isplitl [Ha2] <;> iassumption
  isplitl [Ha3 Hp3]; · isplitl [Ha3] <;> iassumption
  isplitl [Ha4] <;> iassumption

end Cert.KernelIdeal.AllReduce

end
-- ==== Proof.PartTail.lean ====
/-
  The end of the kernel body: the last three departures of the second exchange are waited, each wait returning the
  forwarded rows the departure had been lent, and the body returns.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's last statements, after its last printed part: three waits on the send cells of the forwarded chunks 3, 4
    and 5, at the whole buffers the body is applied to. -/
abbrev tailProg : Prog (TpuEff nD τ sig (Elt F) Λ₀ .tc) PUnit := do
  let v529 : Memref sig .tc .vmem S32x512 .bf16 := (Memref.whole cc0_scratch2).slice (Rect.unit (s := S192x512) ![96, 0] S32x512.size inb_S192x512_S32x512_96_0) (fun _ => rfl)
  let v530 : Memref sig .tc .vmem S32x512 .bf16 := (Memref.whole cc0_scratch3).slice (Rect.unit (s := S192x512) ![96, 0] S32x512.size inb_S192x512_S32x512_96_0) (fun _ => rfl)
  let v527 : DmaSems sig S1 := cc0_scratch6.slice (Rect.unit (s := S6) ![3] S1.size inb_S6_S1_3)
  let v528 : DmaSems sig S_ := v527.squeeze S_ squeezes_S1_S_
  Prog.lift (.waitDma2 v528.sem v530 v529 ((Memref.isWhole_whole cc0_scratch3).wordExact_slice rfl _ wordsbf16_S192x512_S32x512_96_0) ((Memref.isWhole_whole cc0_scratch2).wordExact_slice rfl _ wordsbf16_S192x512_S32x512_96_0))
  let v533 : Memref sig .tc .vmem S32x512 .bf16 := (Memref.whole cc0_scratch2).slice (Rect.unit (s := S192x512) ![128, 0] S32x512.size inb_S192x512_S32x512_128_0) (fun _ => rfl)
  let v534 : Memref sig .tc .vmem S32x512 .bf16 := (Memref.whole cc0_scratch3).slice (Rect.unit (s := S192x512) ![128, 0] S32x512.size inb_S192x512_S32x512_128_0) (fun _ => rfl)
  let v531 : DmaSems sig S1 := cc0_scratch6.slice (Rect.unit (s := S6) ![4] S1.size inb_S6_S1_4)
  let v532 : DmaSems sig S_ := v531.squeeze S_ squeezes_S1_S_
  Prog.lift (.waitDma2 v532.sem v534 v533 ((Memref.isWhole_whole cc0_scratch3).wordExact_slice rfl _ wordsbf16_S192x512_S32x512_128_0) ((Memref.isWhole_whole cc0_scratch2).wordExact_slice rfl _ wordsbf16_S192x512_S32x512_128_0))
  let v537 : Memref sig .tc .vmem S32x512 .bf16 := (Memref.whole cc0_scratch2).slice (Rect.unit (s := S192x512) ![160, 0] S32x512.size inb_S192x512_S32x512_160_0) (fun _ => rfl)
  let v538 : Memref sig .tc .vmem S32x512 .bf16 := (Memref.whole cc0_scratch3).slice (Rect.unit (s := S192x512) ![160, 0] S32x512.size inb_S192x512_S32x512_160_0) (fun _ => rfl)
  let v535 : DmaSems sig S1 := cc0_scratch6.slice (Rect.unit (s := S6) ![5] S1.size inb_S6_S1_5)
  let v536 : DmaSems sig S_ := v535.squeeze S_ squeezes_S1_S_
  Prog.lift (.waitDma2 v536.sem v538 v537 ((Memref.isWhole_whole cc0_scratch3).wordExact_slice rfl _ wordsbf16_S192x512_S32x512_160_0) ((Memref.isWhole_whole cc0_scratch2).wordExact_slice rfl _ wordsbf16_S192x512_S32x512_160_0))
  pure ⟨⟩

set_option maxHeartbeats 1600000 in
/-- The last three departures of the second exchange are waited: their source rows come back. -/
theorem partTail (c : Dev nD) (κ : Fin 3 → ℕ) (Q : PUnit → sProp 𝕄) (W : Waits sig Unit) :
    iprop(levAts L lv ∗ owes (c : Thread nD τ) 0 W
        ∗ waitIn m c (xsS 3) (κ 0) ∗ waitIn m c (xsS 4) (κ 1) ∗ waitIn m c (xsS 5) (κ 2))
      ⊢ iprop((((∃ W', owes (c : Thread nD τ) 0 W')
              ∗ waitOut m c (xsS 3) ∗ waitOut m c (xsS 4) ∗ waitOut m c (xsS 5)) -∗ Q ⟨⟩)
          -∗ wp frame (wpE (defs₀ (F := F)) 𝒱₀ (c : Thread nD τ) none) Set.univ (tailProg (F := F)) Q) := by
  unfold waitIn waitOut
  iintro ⟨#Hlev, HO, ⟨#HI0, Hc0, Ha0⟩, ⟨#HI1, Hc1, Ha1⟩, ⟨#HI2, Hc2, Ha2⟩⟩ Hk
  unfold tailProg
  simp only [Prog.lift, Prog.bind_op, Prog.bind_ret, Prog.pure_eq_ret]
  iapply (wait_dma m c (xsS 3) (by decide) (κ 0) (by rfl) 0 _ (above_zero _)) $$ [Hc0 HO Ha0]
  · isplitr; · iexact HI0
    isplitl [Hc0]; · iexact Hc0
    isplitl [HO]; · iexact HO
    isplitr; · iexact Hlev
    iexact Ha0
  iintro ⟨HO, Ha0, -, Hp0⟩
  iapply (wait_dma m c (xsS 4) (by decide) (κ 1) (by rfl) 0 _ (above_zero _)) $$ [Hc1 HO Ha1]
  · isplitr; · iexact HI1
    isplitl [Hc1]; · iexact Hc1
    isplitl [HO]; · iexact HO
    isplitr; · iexact Hlev
    iexact Ha1
  iintro ⟨HO, Ha1, -, Hp1⟩
  iapply (wait_dma m c (xsS 5) (by decide) (κ 2) (by rfl) 0 _ (above_zero _)) $$ [Hc2 HO Ha2]
  · isplitr; · iexact HI2
    isplitl [Hc2]; · iexact Hc2
    isplitl [HO]; · iexact HO
    isplitr; · iexact Hlev
    iexact Ha2
  iintro ⟨HO, Ha2, -, Hp2⟩
  rw [wp_ret]; imodintro
  iapply Hk
  isplitl [HO]; · iexists _; iexact HO
  isplitl [Ha0 Hp0]; · isplitl [Ha0] <;> iassumption
  isplitl [Ha1 Hp1]; · isplitl [Ha1] <;> iassumption
  isplitl [Ha2] <;> iassumption

/-- The body, at the buffers it is applied to, is its seventeen printed parts in turn and then those three waits. -/
theorem cc0_body_skel_parts_tail :
    cc0_body_skel (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 = (do
      let ⟨d0, v2, v5, v6, v7, v8, v9, v11, v13, v14⟩ : Σ' (d0 : Dev nD) (v2 : BitVec 32) (v5 : BitVec 32) (v6 : BitVec 32) (v7 : BitVec 32) (v8 : BitVec 32) (v9 : BitVec 32) (v11 : BitVec 32) (v13 : BitVec 32), Sems sig S_ ← k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
      let v73 : BitVec 32 ← k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v8 v9
      k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v6 v8 v9 v11 v14 v73
      k0_part4 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v6 v9
      k0_part5 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v6 v9 v11
      let ⟨v191, v209, v210⟩ : Σ' (v191 : BitVec 32) (v209 : BitVec 32), BitVec 32 ← k0_part6 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v9 v11
      let v222 : BitVec 32 ← k0_part7 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v8 v9 v191 v209 v210
      let v253 : BitVec 32 ← k0_part8 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v8 v9 v222
      let v284 : BitVec 32 ← k0_part9 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v8 v9 v253
      let v315 : BitVec 32 ← k0_part10 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v8 v9 v284
      let v346 : BitVec 32 ← k0_part11 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v8 v9 v315
      k0_part12 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v8 v11 v346
      k0_part13 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v5 v6 v7 v8 v11 v13
      let v455 : Vec F S32x512 .bf16 ← k0_part14 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v5 v7 v13
      k0_part15 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v5 v7 v13 v455
      k0_part16 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0
      k0_part17 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0
      tailProg) := rfl

end Cert.KernelIdeal.AllReduce

end
-- ==== Proof.BodyDefs.lean ====
/-
  What one device's kernel body starts from and what it must hand back, as the staging pipeline states them, and the
  finite conjunctions over the cells of a device written out.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.PartDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_W (Φ : Fin cfg0.W → sProp 𝕄) : bigSep Finset.univ Φ = iprop(Φ (0 : Fin 2) ∗ Φ (1 : Fin 2)) := bigSep_W0 Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin28 (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ
theorem bigSep_fin29 (Φ : Fin 29 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28) :=
  bigSep_univ_eq_bigSepL [0, 1, 2, 3, 4, 5, 6, 7, 8, 9, 10, 11, 12, 13, 14, 15, 16, 17, 18, 19, 20, 21, 22, 23, 24, 25, 26, 27, 28] (by decide) (by decide) Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xblk m c) ∗ stg c cc0_stg1_0 (OUT m c))

end Cert.KernelIdeal.AllReduce

end
-- ==== Proof.Launch.lean ====
/-
  The launch of the two-stage sum over the 2 x 2 mesh.

  Every device has 29 cells: its barrier cell (the one semaphore that is not scoped to the launch) and its 28 DMA
  semaphores. The launch element funds all 4 · 29 cells at round 0 and mints the 4 · 30 duty tokens; one global step
  puts every counter, at zero, into its cell's invariant and deals the tokens to the devices that PAY the duties: a
  barrier's two units go to the two partners, a first-exchange receive cell's duty to the partner along the second
  axis, a second-exchange receive cell's duty to the partner along the first axis, a send cell's duty stays at home.
  Both partner maps are involutions of the mesh, so the dealing is a reindexing of the devices. What the devices owe
  one another at launch, summed over the payers, is each device's launch credit: two units on its barrier cell and
  one chunk's credit on each of its fourteen receive cells.
-/
import proofs.«900150_g7700000000000151_dist_ar_v7x_xy2x2_y_m512_n512_bf16_1_alg».proof.Proof.Sched
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index sets -/

/-- A semaphore's number: 0 for a regular semaphore, two more than its index for a DMA semaphore. -/
def semNum : SemLoc sig → ℕ
  | .reg _ => 0
  | .dma q => q.val + 2

/-- All of `Fin (n + 1)`: the first, then the successors. -/
theorem bigSep_fin_succ {n : ℕ} (Φ : Fin (n + 1) → sProp 𝕄) :
    bigSep Finset.univ Φ = iprop(Φ 0 ∗ bigSep Finset.univ fun k : Fin n => Φ k.succ) := by
  have h0 : (0 : Fin (n + 1)) ∉ Finset.map ⟨Fin.succ, Fin.succ_injective n⟩ Finset.univ := by simp [Fin.succ_ne_zero]
  rw [Fin.univ_succ, Finset.cons_eq_insert, bigSep_insert h0, bigSep_map]
  first | done | rfl

/-- The kernel's own 28 semaphores: DMA semaphores 2 to 29. -/
abbrev osem (j : Fin 28) : SemLoc sig := .dma ⟨j.val + 2, Nat.lt_of_lt_of_le (Nat.add_lt_add_right j.isLt 2) (by decide)⟩

theorem csem_zero : csem (0 : Fin 29) = .reg barS := rfl
theorem csem_succ (j : Fin 28) : csem j.succ = osem j := by
  unfold csem osem
  rw [if_neg (by rw [Fin.val_succ]; exact Nat.succ_ne_zero _)]
  first | done | rfl
theorem semNum_csem (j : Fin 29) : semNum (csem j) = if j.val = 0 then 0 else j.val + 3 := by
  unfold csem; split_ifs <;> rfl

theorem kcell_injective : Function.Injective (kcell : Dev nD × Fin 29 → GSem nD τ sig) := by
  rintro ⟨c, j⟩ ⟨c', j'⟩ h
  have h1 : c = c' := by have := congrArg (fun g : GSem nD τ sig => g.1.1) h; exact this
  subst h1
  have h2 : csem j = csem j' := congrArg Prod.snd h
  have h3 := congrArg semNum h2
  rw [semNum_csem, semNum_csem] at h3
  have : j = j' := Fin.ext (by split_ifs at h3 <;> omega)
  subst this; rfl

/-- The 4 · 29 cells. -/
def xCells : Finset (GSem nD τ sig) := Finset.univ.map ⟨kcell, kcell_injective⟩

/-- The 30 duties on a device's cells: the barrier's two, then one per send cell of the first exchange, per receive cell
    of the first, per send cell of the second, per receive cell of the second. -/
abbrev TI : Type := Unit ⊕ Unit ⊕ Fin 8 ⊕ Fin 8 ⊕ Fin 6 ⊕ Fin 6

def tsem : TI → SemLoc sig
  | .inl _ => .reg barS
  | .inr (.inl _) => .reg barS
  | .inr (.inr (.inl k)) => .dma (ysS k)
  | .inr (.inr (.inr (.inl k))) => .dma (yrS k)
  | .inr (.inr (.inr (.inr (.inl k)))) => .dma (xsS k)
  | .inr (.inr (.inr (.inr (.inr k)))) => .dma (xrS k)
def tdut : TI → Bool
  | .inl _ => false
  | .inr (.inl _) => true
  | .inr (.inr (.inl _)) => false
  | .inr (.inr (.inr (.inl _))) => false
  | .inr (.inr (.inr (.inr (.inl _)))) => false
  | .inr (.inr (.inr (.inr (.inr _)))) => false
/-- A duty's key: its semaphore's number, one more for the barrier's second duty. -/
def tnum : TI → ℕ
  | .inl _ => 0
  | .inr (.inl _) => 1
  | .inr (.inr (.inl k)) => 2 + k.val + 2
  | .inr (.inr (.inr (.inl k))) => 10 + k.val + 2
  | .inr (.inr (.inr (.inr (.inl k)))) => 18 + k.val + 2
  | .inr (.inr (.inr (.inr (.inr k)))) => 24 + k.val + 2

theorem tnum_eq (t : TI) : tnum t = semNum (tsem t) + (if tdut t then 1 else 0) := by
  rcases t with u | u | k | k | k | k <;> rfl

theorem tnum_injective : Function.Injective tnum := by
  rintro (u | u | k | k | k | k) (u' | u' | k' | k' | k' | k') h
  all_goals (try simp only [tnum] at h)
  all_goals first
    | rfl
    | (exfalso; omega)
    | (exfalso; have := k.isLt; omega)
    | (exfalso; have := k'.isLt; omega)
    | (exfalso; have := k.isLt; have := k'.isLt; omega)
    | (have e : k = k' := Fin.ext (by omega); subst e; rfl)

abbrev tokOf (ct : Dev nD × TI) : GSem nD τ sig × ℕ × Bool := (((ct.1 : Thread nD τ), tsem ct.2), 0, tdut ct.2)

theorem tokOf_injective : Function.Injective (tokOf : Dev nD × TI → GSem nD τ sig × ℕ × Bool) := by
  rintro ⟨c, t⟩ ⟨c', t'⟩ h
  have h1 : c = c' := by have := congrArg (fun x : GSem nD τ sig × ℕ × Bool => x.1.1.1) h; exact this
  subst h1
  have hs : tsem t = tsem t' := congrArg (fun x : GSem nD τ sig × ℕ × Bool => x.1.2) h
  have hd : tdut t = tdut t' := congrArg (fun x : GSem nD τ sig × ℕ × Bool => x.2.2) h
  have : t = t' := tnum_injective (by rw [tnum_eq, tnum_eq, hs, hd])
  subst this; rfl

/-- The 4 · 30 duty tokens. -/
def xToks : Finset (GSem nD τ sig × ℕ × Bool) := Finset.univ.map ⟨tokOf, tokOf_injective⟩

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf xCells xToks)

/-- The duty tokens of device `c`'s own cells, as minted, -/
def toks (c : Dev nD) : sProp 𝕄 := bigSep Finset.univ fun t : TI => dutyTok ER ((c : Thread nD τ), tsem t) 0 (tdut t)

/-- and group by group. -/
def tokB (c : Dev nD) (d : Bool) : sProp 𝕄 := dutyTok ER (barCell c) 0 d
def tokYs (c : Dev nD) : sProp 𝕄 := bigSep Finset.univ fun k : Fin 8 => dutyTok ER (dCell c (ysS k)) 0 false
def tokYr (c : Dev nD) : sProp 𝕄 := bigSep Finset.univ fun k : Fin 8 => dutyTok ER (dCell c (yrS k)) 0 false
def tokXs (c : Dev nD) : sProp 𝕄 := bigSep Finset.univ fun k : Fin 6 => dutyTok ER (dCell c (xsS k)) 0 false
def tokXr (c : Dev nD) : sProp 𝕄 := bigSep Finset.univ fun k : Fin 6 => dutyTok ER (dCell c (xrS k)) 0 false

theorem toks_eq (c : Dev nD) :
    toks (F := F) c = iprop(tokB c false ∗ tokB c true ∗ tokYs c ∗ tokYr c ∗ tokXs c ∗ tokXr c) := by
  unfold toks
  rw [bigSep_univ_sum, bigSep_univ_sum, bigSep_univ_sum, bigSep_univ_sum, bigSep_univ_sum,
    bigSep_univ_of_subsingleton (), bigSep_univ_of_subsingleton ()]
  first | done | rfl

/-- What the launch element deals device `c` (the theorem's `G`): its 29 cells' round states at counter zero, its
    positions on them, that round 0 of each is reached, and the tokens of its own cells' duties. -/
def G (c : Dev nD) : sProp 𝕄 :=
  iprop((bigSep Finset.univ fun k : Fin 29 => roundState ER (sched m) (kcell (c, k)) 0)
    ∗ (bigSep Finset.univ fun k : Fin 29 => iprop(atPos ER (kcell (c, k)) 0 ∅ 0 ∗ reached ER (kcell (c, k)) 0)) ∗ toks c)

/-- What the global step makes of it (`G'`). -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 29 => Φ (kcell (c, k)) := by
    unfold xCells; rw [bigSep_map, bigSep_univ_prod]; first | done | rfl
  have hT : bigSep xToks (fun x => (dutyTok ER x.1 x.2.1 x.2.2 : sProp 𝕄)) = bigSep Finset.univ fun c : Dev nD => toks c := by
    unfold xToks; rw [bigSep_map, bigSep_univ_prod]; first | done | rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own 28 semaphores at zero are its 28 DMA cells at zero; -/
theorem ownSems0_eq (c : Dev nD) : (Pipeline.ownSems0 (Ix := Unit) (Name := ℕ) (U := UU) (Lvl := ℕ) (Val := Elt F) (τ := τ) osem c : sProp 𝕄)
    = bigSep Finset.univ fun j : Fin 28 => semVal (dCell c ⟨j.val + 2, Nat.lt_of_lt_of_le (Nat.add_lt_add_right j.isLt 2) (by decide)⟩) 0 := rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; first | done | rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 29 => semVal (kcell (c, k)) 0 : sProp 𝕄) := by
  have e : (Pipeline.ownSems0 (Ix := Unit) (Name := ℕ) (U := UU) (Lvl := ℕ) (Val := Elt F) (τ := τ) osem c : sProp 𝕄)
      = bigSep Finset.univ fun k : Fin 28 => (semVal (kcell (c, k.succ)) 0 : sProp 𝕄) :=
    bigSep_congr fun k _ => by show semVal ((c : Thread nD τ), osem k) 0 = semVal ((c : Thread nD τ), csem k.succ) 0; rw [csem_succ]
  rw [unscopedSems0_eq, bigSep_fin_succ]
  iintro ⟨HS, HB⟩
  isplitl [HB]; · iexact HB
  iapply (Entails.of_eq e); iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 29 => iprop(∃ κ : ℕ, cellInv ER (sched m) κ (kcell (c, k))))
          ∗ (bigSep Finset.univ fun k : Fin 29 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 29 => semVal (kcell (c, k)) 0) ∗ bigSep Finset.univ fun k : Fin 29 => roundState ER (sched m) (kcell (c, k)) 0)
      ⊢ (|={Set.univ}=> bigSep Finset.univ fun k : Fin 29 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens of the duties IT pays. -/
def linear (c : Dev nD) : sProp 𝕄 := iprop(ownPos c ∗ payToks c)

theorem ghost_intro (K : Dev nD × Fin 29 → ℕ) (c : Dev nD) : iprop(records m K ∗ linear c) ⊢ G' m c := by
  unfold linear G' ghost
  iintro ⟨HR, HP, HT⟩
  iexists K
  isplitl [HR]; · iexact HR
  isplitl [HP] <;> iassumption

/-- The tokens dealt to their payers: a barrier's first unit and a first-exchange receive cell's duty go to the partner
    along the second axis, a barrier's second unit and a second-exchange receive cell's duty to the partner along the
    first; each partner map is its own inverse. -/
theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv ypE (fun c : Dev nD => (tokB c false : sProp 𝕄)),
    bigSep_univ_equiv xpE (fun c : Dev nD => (tokB c true : sProp 𝕄)),
    bigSep_univ_equiv ypE (fun c : Dev nD => (tokYr c : sProp 𝕄)),
    bigSep_univ_equiv xpE (fun c : Dev nD => (tokXr c : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 29 => iprop(∃ κ : ℕ, cellInv ER (sched m) κ (kcell (c, k))))
          ∗ (bigSep Finset.univ fun k : Fin 29 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 29 => iprop(∃ κ : ℕ, cellInv ER (sched m) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok⟩
  ihave HK := (BI.bigSep_exists_pi Finset.univ (fun (ck : Dev nD × Fin 29) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 29 => (atPos ER (kcell (c, k)) 0 ∅ 0 : sProp 𝕄)) payToks).symm).trans
      (bigSep_mono fun c _ => show _ ⊢ linear c from Entails.of_eq rfl))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What device `d` owes at launch, transfer by transfer and signal by signal. -/
abbrev dueX (k : Fin 6) (d : Dev nD) : CellTallies nD τ sig Unit := tallyAt (dCell (xp d) (xrS k)) () NxA
abbrev dueY (k : Fin 8) (d : Dev nD) : CellTallies nD τ sig Unit := tallyAt (dCell (yp d) (yrS k)) () (dmaAmt (10 + k.val))
abbrev dueBX (d : Dev nD) : CellTallies nD τ sig Unit := tallyAt (barCell (xp d)) () 1
abbrev dueBY (d : Dev nD) : CellTallies nD τ sig Unit := tallyAt (barCell (yp d)) () 1

theorem owedX_eq (d : Dev nD) : owedX d = ∑ k : Fin 6, dueX k d := by
  rw [Fin.sum_univ_six]
  show owedX d = tallyAt (dCell (xp d) (xrS 0)) () NxA + tallyAt (dCell (xp d) (xrS 1)) () NxA + tallyAt (dCell (xp d) (xrS 2)) () NxA
    + tallyAt (dCell (xp d) (xrS 3)) () NxA + tallyAt (dCell (xp d) (xrS 4)) () NxA + tallyAt (dCell (xp d) (xrS 5)) () NxA
  unfold owedX
  first | ac_rfl | simp only [add_comm, add_left_comm, add_assoc]

theorem owedY_eq (d : Dev nD) : owedY d = owedX d + ∑ k : Fin 8, dueY k d := by
  rw [Fin.sum_univ_eight]
  show owedY d = owedX d + (tallyAt (dCell (yp d) (yrS 0)) () NyA + tallyAt (dCell (yp d) (yrS 1)) () NyA + tallyAt (dCell (yp d) (yrS 2)) () NyA
    + tallyAt (dCell (yp d) (yrS 3)) () NyA + tallyAt (dCell (yp d) (yrS 4)) () NyA + tallyAt (dCell (yp d) (yrS 5)) () NyA
    + tallyAt (dCell (yp d) (yrS 6)) () NyB + tallyAt (dCell (yp d) (yrS 7)) () NyB)
  unfold owedY
  first | ac_rfl | simp only [add_comm, add_left_comm, add_assoc]

theorem O₀_eq : (O₀ : Dev nD → CellTallies nD τ sig Unit)
    = fun d => (((∑ k : Fin 6, dueX k d) + ∑ k : Fin 8, dueY k d) + dueBX d) + dueBY d := by
  funext d; unfold O₀ O₁; rw [owedY_eq, owedX_eq]; first | done | rfl

theorem launch_x (k : Fin 6) (c : Dev nD) : (Pipeline.launchCred (dueX k) c : sProp 𝕄) ⊢ cred (tallyAt (dCell c (xrS k)) () NxA) :=
  Pipeline.launchCred_tallyAt (.dma (xrS k)) xp xp xp_xp xp_xp () NxA c
theorem launch_y (k : Fin 8) (c : Dev nD) : (Pipeline.launchCred (dueY k) c : sProp 𝕄) ⊢ cred (tallyAt (dCell c (yrS k)) () (dmaAmt (10 + k.val))) :=
  Pipeline.launchCred_tallyAt (.dma (yrS k)) yp yp yp_yp yp_yp () (dmaAmt (10 + k.val)) c
theorem launch_bx (c : Dev nD) : (Pipeline.launchCred dueBX c : sProp 𝕄) ⊢ cred (tallyAt (barCell c) () 1) :=
  Pipeline.launchCred_tallyAt (.reg barS) xp xp xp_xp xp_xp () 1 c
theorem launch_by (c : Dev nD) : (Pipeline.launchCred dueBY c : sProp 𝕄) ⊢ cred (tallyAt (barCell c) () 1) :=
  Pipeline.launchCred_tallyAt (.reg barS) yp yp yp_yp yp_yp () 1 c

/-- The barrier's two units of credit, one from each partner, are one token of two. -/
theorem cred_two (c : Dev nD) :
    (iprop(cred (tallyAt (barCell c) () 1) ∗ cred (tallyAt (barCell c) () 1)) : sProp 𝕄) ⊢ cred (tallyAt (barCell c) () 2) := by
  rw [show (tallyAt (barCell c) () 2 : CellTallies nD τ sig Unit) = tallyAt (barCell c) () 1 + tallyAt (barCell c) () 1 from (tallyAt_add _ _ 1 1).symm]
  exact (cred_add _ _).2

/-- Summed over the payers, what is owed to device `c`'s cells: its launch credit. -/
theorem creds_intro (c : Dev nD) : (Pipeline.launchCred O₀ c : sProp 𝕄) ⊢ creds c := by
  rw [O₀_eq,
    Pipeline.launchCred_add (fun d => ((∑ k : Fin 6, dueX k d) + ∑ k : Fin 8, dueY k d) + dueBX d) dueBY c,
    Pipeline.launchCred_add (fun d => (∑ k : Fin 6, dueX k d) + ∑ k : Fin 8, dueY k d) dueBX c,
    Pipeline.launchCred_add (fun d => ∑ k : Fin 6, dueX k d) (fun d => ∑ k : Fin 8, dueY k d) c,
    Pipeline.launchCred_sum Finset.univ dueX c, Pipeline.launchCred_sum Finset.univ dueY c]
  have hY : (bigSep Finset.univ fun k : Fin 8 => (Pipeline.launchCred (dueY k) c : sProp 𝕄))
      ⊢ bigSep Finset.univ fun k : Fin 8 => cred (tallyAt (dCell c (yrS k)) () (dmaAmt (10 + k.val))) :=
    bigSep_mono fun k _ => launch_y (F := F) k c
  have hX : (bigSep Finset.univ fun k : Fin 6 => (Pipeline.launchCred (dueX k) c : sProp 𝕄))
      ⊢ bigSep Finset.univ fun k : Fin 6 => cred (tallyAt (dCell c (xrS k)) () NxA) :=
    bigSep_mono fun k _ => launch_x (F := F) k c
  unfold creds
  iintro ⟨⟨⟨HX, HY⟩, HBX⟩, HBY⟩
  ihave HBX' := (launch_bx (F := F) c) $$ HBX
  ihave HBY' := (launch_by (F := F) c) $$ HBY
  isplitl [HBX' HBY']
  · iapply (cred_two (F := F) c)
    isplitl [HBX'] <;> iassumption
  isplitl [HY]
  · iapply hY; iexact HY
  · iapply hX; iexact HX

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  iintro ⟨Hr, Hz⟩
  isplitr; · iempintro
  isplitl [Hz]; · iexact Hz
  iexact Hr

/-- The staging cells sit at the lowest level: a device may wait on them whatever it still owes. -/
theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), SemLoc.dma (((cfgs 0).win w).sem s)) () = 0 := by
      fin_cases w <;> fin_cases s <;> rfl
    refine mayWait_above c _ _ (above_mono (Nat.le_of_eq hl) ?_)
    rcases t with ⟨_ | _, ht⟩
    · exact above_O₀ c
    · exact above_zero 0

/-! ### The run -/

set_option maxRecDepth 8000 in
/-- At the compiled mesh of four devices, for any float values, from any memory with zero counters: given the body
    obligation of every device, every weakly fair execution of @main — the four kernels handshaking on the barrier
    semaphore, exchanging along the second axis, forwarding along the first — terminates, and in every final state
    each window's array on each device holds what the proof data say. -/
theorem run_main (hbody : ∀ c, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The arrays after the run -/

/-- The input array is never written. -/
theorem finalA_in (c : Dev nD) :
    (dats m ρ 0 c).arrAt (0 : Fin 2) cfg0.N = (s₀ m ρ).mem (win0_0.arr.view.loc (c : Thread nD τ)) :=
  (dats (F := F) m ρ 0 c).arrAt_in (0 : Fin 2) rfl _

/-- The result array: its one block written back over what the array held. -/
theorem finalA_out_write (c : Dev nD) :
    (dats m ρ 0 c).arrAt (1 : Fin 2) cfg0.N
      = ((cfg0.win (1 : Fin 2)).blk t₀).view.write (Elt F) ((s₀ m ρ).mem ((cfg0.win (1 : Fin 2)).arr.view.loc (c : Thread nD τ))) (OUT m c) Finset.univ := by
  have h := (dats (F := F) m ρ 0 c).arrAt_succ (1 : Fin 2) t₀
  have hf : (cfg0.win (1 : Fin 2)).flush t₀ = true := flush0_1 t₀
  rw [hf, if_pos rfl] at h
  exact h

/-- Read through its one block, the result array holds the device's result. -/
theorem finalA_out_read (c : Dev nD) :
    ((cfg0.win (1 : Fin 2)).blk t₀).view.read (Elt F) ((dats m ρ 0 c).arrAt (1 : Fin 2) cfg0.N) = OUT m c := by
  rw [finalA_out_write]; exact View.read_write_univ _ _

/-- The one block of the result window is the whole array: reading through it reads the array. -/
theorem read_blk_out (c : Dev nD) (f : Buf (Elt F) ((cfg0.win (1 : Fin 2)).arr.view.loc (c : Thread nD τ))) :
    ((cfg0.win (1 : Fin 2)).blk t₀).view.read (Elt F) f = f :=
  Memref.read_access_unit_zero (Elt F) main_v1 (funext fun a => Nat.zero_mul _) _ f

/-- After the run the result array of device `c` holds the device's result. -/
theorem finalA_out (c : Dev nD) : (dats m ρ 0 c).arrAt (1 : Fin 2) cfg0.N = OUT m c :=
  (read_blk_out (F := F) c _).symm.trans (finalA_out_read m ρ c)

/-- info: 'Cert.KernelIdeal.AllReduce.run_main' depends on axioms: [propext, Classical.choice, Quot.sound] -/
#guard_msgs in #print axioms run_main

end Cert.KernelIdeal.AllReduce

end
-- ==== Proof.Close.lean ====
/-
  After their one round the device's 28 own DMA cells close: each cell's counter, at zero, is the device's again. The
  cells' invariants are read off the records; cell `j + 1` of the device is its DMA semaphore `j + 2`.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.BodyDefs
import proofs.«900150_g7700000000000151_dist_ar_v7x_xy2x2_y_m512_n512_bf16_1_alg».proof.Proof.Launch
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One own DMA cell: its invariant off the records, its position after the round. -/
theorem close_one (K : Dev nD × Fin 29 → ℕ) (c : Dev nD) (j : Fin 28) :
    iprop(records m K ∗ atPos ER (dCell c ⟨j.val + 2, Nat.lt_of_lt_of_le (Nat.add_lt_add_right j.isLt 2) (by decide)⟩) 1 ∅ 0)
      ⊢ (|={Set.univ}=> semVal (dCell c ⟨j.val + 2, Nat.lt_of_lt_of_le (Nat.add_lt_add_right j.isLt 2) (by decide)⟩) 0 : sProp 𝕄) := by
  have hk : kcell (c, j.succ) = dCell c ⟨j.val + 2, Nat.lt_of_lt_of_le (Nat.add_lt_add_right j.isLt 2) (by decide)⟩ := by
    show ((c : Thread nD τ), csem j.succ) = ((c : Thread nD τ), osem j); rw [csem_succ]
  have hI : records m K ⊢ cellInv ER (sched m) (K (c, j.succ)) (dCell c ⟨j.val + 2, Nat.lt_of_lt_of_le (Nat.add_lt_add_right j.isLt 2) (by decide)⟩) :=
    hk ▸ inv_at m K (c, j.succ)
  iintro ⟨#HR, Hat⟩
  iapply (close_dma m c ⟨j.val + 2, Nat.lt_of_lt_of_le (Nat.add_lt_add_right j.isLt 2) (by decide)⟩ (K (c, j.succ)))
  isplitr
  · iapply hI; iexact HR
  · iexact Hat

/-- All 28 at once. -/
theorem close_all (K : Dev nD × Fin 29 → ℕ) (c : Dev nD) :
    iprop(records m K ∗ bigSep Finset.univ fun j : Fin 28 =>
        atPos ER (dCell c ⟨j.val + 2, Nat.lt_of_lt_of_le (Nat.add_lt_add_right j.isLt 2) (by decide)⟩) 1 ∅ 0)
      ⊢ (|={Set.univ}=> bigSep Finset.univ fun j : Fin 28 =>
          semVal (dCell c ⟨j.val + 2, Nat.lt_of_lt_of_le (Nat.add_lt_add_right j.isLt 2) (by decide)⟩) 0 : sProp 𝕄) :=
  (bigSep_with_persistent (R := records m K) fun j _ => close_one m K c j).trans (bigSep_fupd _ _)

/-- info: 'Cert.KernelIdeal.AllReduce.close_all' depends on axioms: [propext, Classical.choice, Quot.sound] -/
#guard_msgs in #print axioms close_all

end Cert.KernelIdeal.AllReduce

end
-- ==== Proof.Teardown.lean ====
/-
  The end of the kernel body. Every transfer has been waited for, so each of the device's 28 DMA cells stands after its
  one round and closes, its counter at zero; the chunks lent to the send cells and the chunks landed come together
  again as the four scratch buffers, each whole at the full share; the device owes nothing; the staged input block is
  untouched, and the result block, after its fourteen stores, holds the sum on all 512 rows.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Mesh
import proofs.«900150_g7700000000000151_dist_ar_v7x_xy2x2_y_m512_n512_bf16_1_alg».proof.Proof.Proto
import proofs.«900150_g7700000000000151_dist_ar_v7x_xy2x2_y_m512_n512_bf16_1_alg».proof.Proof.Sched
import proofs.«900150_g7700000000000151_dist_ar_v7x_xy2x2_y_m512_n512_bf16_1_alg».proof.Proof.Steps
import proofs.«900150_g7700000000000151_dist_ar_v7x_xy2x2_y_m512_n512_bf16_1_alg».proof.Proof.Chunks
import proofs.«900150_g7700000000000151_dist_ar_v7x_xy2x2_y_m512_n512_bf16_1_alg».proof.Proof.StoreValues
import proofs.«900150_g7700000000000151_dist_ar_v7x_xy2x2_y_m512_n512_bf16_1_alg».proof.Proof.BodyDefs
import proofs.«900150_g7700000000000151_dist_ar_v7x_xy2x2_y_m512_n512_bf16_1_alg».proof.Proof.Rejoin
import proofs.«900150_g7700000000000151_dist_ar_v7x_xy2x2_y_m512_n512_bf16_1_alg».proof.Proof.Close
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- From what the body's last wait leaves to the state the staging pipeline takes over. -/
theorem teardown (K : Dev nD × Fin 29 → ℕ) (c : Dev nD) (g1 : Buf (Elt F) ((c : Thread nD τ).loc cc0_stg1_0)) :
    iprop(records m K
        ∗ (bigSep Finset.univ fun j : Fin 28 => atPos ER (dCell c ⟨j.val + 2, Nat.lt_of_lt_of_le (Nat.add_lt_add_right j.isLt 2) (by decide)⟩) 1 ∅ 0)
        ∗ (pYsA m c 0 ∗ pYsA m c 1 ∗ pYsA m c 2 ∗ pYsA m c 3 ∗ pYsA m c 4 ∗ pYsA m c 5 ∗ pYsB m c 0 ∗ pYsB m c 1
            ∗ (((c : Thread nD τ).loc cc0_scratch0) ↦{fullShare.right} YS m c))
        ∗ (pYrA m c 0 ∗ pYrA m c 1 ∗ pYrA m c 2 ∗ pYrA m c 3 ∗ pYrA m c 4 ∗ pYrA m c 5 ∗ pYrB m c 0 ∗ pYrB m c 1)
        ∗ ((pXs m c 0 ∗ ((rdC 0).view.loc (c : Thread nD τ) ↦[(rdC 0).view.set]{fullShare.right} RD m c)) ∗
            (pXs m c 1 ∗ ((rdC 1).view.loc (c : Thread nD τ) ↦[(rdC 1).view.set]{fullShare.right} RD m c)) ∗
            (pXs m c 2 ∗ ((rdC 2).view.loc (c : Thread nD τ) ↦[(rdC 2).view.set]{fullShare.right} RD m c)) ∗
            (pXs m c 3 ∗ ((rdC 3).view.loc (c : Thread nD τ) ↦[(rdC 3).view.set]{fullShare.right} RD m c)) ∗
            (pXs m c 4 ∗ ((rdC 4).view.loc (c : Thread nD τ) ↦[(rdC 4).view.set]{fullShare.right} RD m c)) ∗
            (pXs m c 5 ∗ ((rdC 5).view.loc (c : Thread nD τ) ↦[(rdC 5).view.set]{fullShare.right} RD m c)))
        ∗ (pXr m c 0 ∗ pXr m c 1 ∗ pXr m c 2 ∗ pXr m c 3 ∗ pXr m c 4 ∗ pXr m c 5)
        ∗ (∃ W', owes (c : Thread nD τ) 0 W')
        ∗ (((c : Thread nD τ).loc cc0_stg0_0) ↦{fullShare} xblk m c)
        ∗ (((c : Thread nD τ).loc cc0_stg1_0) ↦{fullShare}
            stXC m c 5 (stXC m c 4 (stXC m c 3 (stXC m c 2 (stXC m c 1 (stXB m c 1 (stXC m c 0 (stXB m c 0
              (stXA m c 5 (stXA m c 4 (stXA m c 3 (stXA m c 2 (stXA m c 1 (stXA m c 0 g1)))))))))))))))
      ⊢ (|={Set.univ}=> bodyPost m ρ c : sProp 𝕄) := by
  unfold bodyPost Φ₁ scratch Dat.owesAt Pipeline.owesWithin
  rw [show (dats m ρ 0 c).owed t₀.succ = 0 from rfl]
  iintro ⟨#HR, Hat, Hys, Hyr, Hrd, Hxr, ⟨%W', HO⟩, Hx, Hout⟩
  imod (close_all m K c) $$ [Hat] with Hz
  · isplitr; · iexact HR
    iexact Hat
  imodintro
  ihave Hys := (rejoin_ys m c) $$ Hys
  ihave Hyr := (rejoin_yr m c) $$ Hyr
  ihave Hrd := (rejoin_rd m c) $$ Hrd
  ihave Hxr := (rejoin_xr m c) $$ Hxr
  isplitl [Hys Hyr Hrd Hxr Hz]
  · isplitl [Hys Hyr Hrd Hxr]
    · isplitl [Hys]; · iexact Hys
      isplitl [Hyr]; · iexact Hyr
      isplitl [Hrd]; · iexact Hrd
      iexact Hxr
    · iexact Hz
  isplitl [HO]
  · iexists W'; isplitr; · ipureintro; exact fun _ _ => Or.inl trivial
    iexact HO
  isplitl [Hx]
  · iexists _; isplitr; · (ipureintro; rfl)
    iexact Hx
  iexists _; isplitr; · (ipureintro; exact out_filled m c g1)
  iexact Hout

/-- info: 'Cert.KernelIdeal.AllReduce.teardown' depends on axioms: [propext, Classical.choice, Quot.sound] -/
#guard_msgs in #print axioms teardown

end Cert.KernelIdeal.AllReduce

end
-- ==== Proof.Oblig.lean ====
/-
  From a proof of the kernel body in continuation form — from the body's precondition, and given that its postcondition
  yields the continuation, the body runs to the continuation — to the staging pipeline's body obligation on a device:
  the pipeline has one grid point and two windows, each staged in one whole buffer.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.BodyDefs
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
theorem body_obligation_of
    (hsound : ∀ (c : Dev nD) (Kt : PUnit → sProp 𝕄),
      iprop(bodyPre m ρ c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7) Kt)
    (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7) (fun _ => bodyPost m ρ c)
  iintro H
  iapply (hsound c fun _ => bodyPost m ρ c)
  isplitl [H]
  · iexact H
  · iintro H; iexact H

end Cert.KernelIdeal.AllReduce

end
-- ==== Proof.Body.lean ====
/-
  One device's kernel body from what the launch hands it to what it hands back: the entry handshake, the send buffer
  filled, eight chunks exchanged with the partner along the second axis, each summed as it lands, six of the sums
  forwarded to the partner along the first axis while the rest are stored, the forwarded rows of that partner stored
  as they land, every send waited, every cell closed, the four scratch buffers rejoined.
-/
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.PartDefs
import proofs.«900150_g7700000000000151_dist_ar_v7x_xy2x2_y_m512_n512_bf16_1_alg».proof.Proof.Part1
import proofs.«900150_g7700000000000151_dist_ar_v7x_xy2x2_y_m512_n512_bf16_1_alg».proof.Proof.Part2
import proofs.«900150_g7700000000000151_dist_ar_v7x_xy2x2_y_m512_n512_bf16_1_alg».proof.Proof.Part3
import proofs.«900150_g7700000000000151_dist_ar_v7x_xy2x2_y_m512_n512_bf16_1_alg».proof.Proof.Part4
import proofs.«900150_g7700000000000151_dist_ar_v7x_xy2x2_y_m512_n512_bf16_1_alg».proof.Proof.Part5
import proofs.«900150_g7700000000000151_dist_ar_v7x_xy2x2_y_m512_n512_bf16_1_alg».proof.Proof.Part6
import proofs.«900150_g7700000000000151_dist_ar_v7x_xy2x2_y_m512_n512_bf16_1_alg».proof.Proof.Rejoin
import proofs.«900150_g7700000000000151_dist_ar_v7x_xy2x2_y_m512_n512_bf16_1_alg».proof.Proof.Part7
import proofs.«900150_g7700000000000151_dist_ar_v7x_xy2x2_y_m512_n512_bf16_1_alg».proof.Proof.Part8
import proofs.«900150_g7700000000000151_dist_ar_v7x_xy2x2_y_m512_n512_bf16_1_alg».proof.Proof.Part9
import proofs.«900150_g7700000000000151_dist_ar_v7x_xy2x2_y_m512_n512_bf16_1_alg».proof.Proof.Part10
import proofs.«900150_g7700000000000151_dist_ar_v7x_xy2x2_y_m512_n512_bf16_1_alg».proof.Proof.Part11
import proofs.«900150_g7700000000000151_dist_ar_v7x_xy2x2_y_m512_n512_bf16_1_alg».proof.Proof.Part12
import proofs.«900150_g7700000000000151_dist_ar_v7x_xy2x2_y_m512_n512_bf16_1_alg».proof.Proof.Part13
import proofs.«900150_g7700000000000151_dist_ar_v7x_xy2x2_y_m512_n512_bf16_1_alg».proof.Proof.Part14
import proofs.«900150_g7700000000000151_dist_ar_v7x_xy2x2_y_m512_n512_bf16_1_alg».proof.Proof.Part15
import proofs.«900150_g7700000000000151_dist_ar_v7x_xy2x2_y_m512_n512_bf16_1_alg».proof.Proof.Part16
import proofs.«900150_g7700000000000151_dist_ar_v7x_xy2x2_y_m512_n512_bf16_1_alg».proof.Proof.Part17
import proofs.«900150_g7700000000000151_dist_ar_v7x_xy2x2_y_m512_n512_bf16_1_alg».proof.Proof.PartTail
import proofs.«900150_g7700000000000151_dist_ar_v7x_xy2x2_y_m512_n512_bf16_1_alg».proof.Proof.Teardown
import proofs.«900150_g7700000000000151_dist_ar_v7x_xy2x2_y_m512_n512_bf16_1_alg».proof.Proof.Oblig
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
set_option maxRecDepth 8000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  unfold bodyPre Φ₀ start scratch ghost ownPos payToks creds
  rw [bigSep_fin29, bigSep_fin8, bigSep_fin8, bigSep_fin6, bigSep_fin6, bigSep_fin8, bigSep_fin6]
  rw [cc0_body_eq_skeleton, cc0_body_skel_parts_tail]
  simp only [wp_bind]
  iintro ⟨⟨⟨⟨⟨%K, #HR, ⟨HaB, HaYs0, HaYs1, HaYs2, HaYs3, HaYs4, HaYs5, HaYs6, HaYs7, HaYr0, HaYr1, HaYr2, HaYr3, HaYr4, HaYr5, HaYr6, HaYr7, HaXs0, HaXs1, HaXs2, HaXs3, HaXs4, HaXs5, HaXr0, HaXr1, HaXr2, HaXr3, HaXr4, HaXr5⟩,
      HtBY, HtBX, ⟨HtYs0, HtYs1, HtYs2, HtYs3, HtYs4, HtYs5, HtYs6, HtYs7⟩, ⟨HtYr0, HtYr1, HtYr2, HtYr3, HtYr4, HtYr5, HtYr6, HtYr7⟩, ⟨HtXs0, HtXs1, HtXs2, HtXs3, HtXs4, HtXs5⟩, ⟨HtXr0, HtXr1, HtXr2, HtXr3, HtXr4, HtXr5⟩⟩,
      ⟨HcB, ⟨HcYr0, HcYr1, HcYr2, HcYr3, HcYr4, HcYr5, HcYr6, HcYr7⟩, ⟨HcXr0, HcXr1, HcXr2, HcXr3, HcXr4, HcXr5⟩⟩, #Hlev⟩,
      ⟨%f0, Hys⟩, ⟨%f1, Hyr⟩, ⟨%f2, Hrd⟩, ⟨%f3, Hxr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁
  -- the entry handshake and the first chunk of the send buffer
  ihave #HIbY := (inv_at m K (yp c, 0)) $$ HR
  ihave #HIbX := (inv_at m K (xp c, 0)) $$ HR
  ihave #HrbY := (reached_at m K (yp c, 0)) $$ HR
  ihave #HrbX := (reached_at m K (xp c, 0)) $$ HR
  iapply (part1 m c (K (yp c, 0)) (K (xp c, 0)) _ (owedY c) W f0 f1 f3) $$ [HO HtBY HtBX Hyr Hxr Hx Hys]
  · isplitr; · iexact HIbY
    isplitr; · iexact HIbX
    isplitr; · iexact HrbY
    isplitr; · iexact HrbX
    isplitl [HtBY]; · iexact HtBY
    isplitl [HtBX]; · iexact HtBX
    isplitl [HO]; · iexact HO
    isplitl [Hyr]; · iexact Hyr
    isplitl [Hxr]; · iexact Hxr
    isplitl [Hx]; · iexact Hx
    iexact Hys
  iintro ⟨HO, Hx, Hys⟩
  -- the rest of the send buffer
  iapply (part2 m c _ _ _ (stYA m c 0 f0)) $$ [Hx Hys]
  · isplitl [Hx]; · iexact Hx
    iexact Hys
  iintro ⟨Hx, Hys⟩
  -- its last three chunks; then both partners are known to be inside the kernel
  ihave #HIb := (inv_at m K (c, 0)) $$ HR
  iapply (part3 m c _ _ _ _ _ _ (K (c, 0)) _ (owedY c) W (above_owedY c) (stYA m c 4 (stYA m c 3 (stYA m c 2 (stYA m c 1 (stYA m c 0 f0)))))) $$ [HcB HaB HO Hx Hys]
  · isplitr; · iexact HIb
    isplitr; · iexact Hlev
    isplitl [HcB]; · iexact HcB
    isplitl [HaB]; · iexact HaB
    isplitl [HO]; · iexact HO
    isplitl [Hx]; · iexact Hx
    iexact Hys
  iintro ⟨HO, HaB, HpY, HpX, Hx, Hys⟩
  unfold pBarY pBarX
  icases HpY with ⟨%fy, HyrP⟩
  icases HpX with ⟨%fx, HxrP⟩
  -- the send buffer holds the exchanged rows; half of each chunk's share will travel with its departure
  ihave Hys := (Entails.of_eq (congrArg (fun f => (((c : Thread nD τ).loc cc0_scratch0) ↦{fullShare} f : sProp 𝕄)) (ys_filled m c f0))) $$ Hys
  ihave Hch := (split_ys m c) $$ Hys
  icases Hch with ⟨HsA0, HsA1, HsA2, HsA3, HsA4, HsA5, HsB0, HsB1, HysR⟩
  -- the partners' receive buffers, and the own forwarded-rows buffer, chunk by chunk
  ihave Hch := (split_yr c fy) $$ HyrP
  icases Hch with ⟨HdA0, HdA1, HdA2, HdA3, HdA4, HdA5, HdB0, HdB1⟩
  ihave Hch := (split_xr c fx) $$ HxrP
  icases Hch with ⟨HdX0, HdX1, HdX2, HdX3, HdX4, HdX5⟩
  ihave Hch := (split_rd c f2) $$ Hrd
  icases Hch with ⟨Hrd0, Hrd1, Hrd2, Hrd3, Hrd4, Hrd5⟩
  -- every cell this device touches: its invariant, and that its round is reached
  ihave #HIys0 := (inv_at m K (c, 1)) $$ HR
  ihave #Hrys0 := (reached_at m K (c, 1)) $$ HR
  ihave #HIyr0 := (inv_at m K (c, 9)) $$ HR
  ihave #HJyr0 := (inv_at m K (yp c, 9)) $$ HR
  ihave #Hsyr0 := (reached_at m K (yp c, 9)) $$ HR
  ihave #HIys1 := (inv_at m K (c, 2)) $$ HR
  ihave #Hrys1 := (reached_at m K (c, 2)) $$ HR
  ihave #HIyr1 := (inv_at m K (c, 10)) $$ HR
  ihave #HJyr1 := (inv_at m K (yp c, 10)) $$ HR
  ihave #Hsyr1 := (reached_at m K (yp c, 10)) $$ HR
  ihave #HIys2 := (inv_at m K (c, 3)) $$ HR
  ihave #Hrys2 := (reached_at m K (c, 3)) $$ HR
  ihave #HIyr2 := (inv_at m K (c, 11)) $$ HR
  ihave #HJyr2 := (inv_at m K (yp c, 11)) $$ HR
  ihave #Hsyr2 := (reached_at m K (yp c, 11)) $$ HR
  ihave #HIys3 := (inv_at m K (c, 4)) $$ HR
  ihave #Hrys3 := (reached_at m K (c, 4)) $$ HR
  ihave #HIyr3 := (inv_at m K (c, 12)) $$ HR
  ihave #HJyr3 := (inv_at m K (yp c, 12)) $$ HR
  ihave #Hsyr3 := (reached_at m K (yp c, 12)) $$ HR
  ihave #HIys4 := (inv_at m K (c, 5)) $$ HR
  ihave #Hrys4 := (reached_at m K (c, 5)) $$ HR
  ihave #HIyr4 := (inv_at m K (c, 13)) $$ HR
  ihave #HJyr4 := (inv_at m K (yp c, 13)) $$ HR
  ihave #Hsyr4 := (reached_at m K (yp c, 13)) $$ HR
  ihave #HIys5 := (inv_at m K (c, 6)) $$ HR
  ihave #Hrys5 := (reached_at m K (c, 6)) $$ HR
  ihave #HIyr5 := (inv_at m K (c, 14)) $$ HR
  ihave #HJyr5 := (inv_at m K (yp c, 14)) $$ HR
  ihave #Hsyr5 := (reached_at m K (yp c, 14)) $$ HR
  ihave #HIys6 := (inv_at m K (c, 7)) $$ HR
  ihave #Hrys6 := (reached_at m K (c, 7)) $$ HR
  ihave #HIyr6 := (inv_at m K (c, 15)) $$ HR
  ihave #HJyr6 := (inv_at m K (yp c, 15)) $$ HR
  ihave #Hsyr6 := (reached_at m K (yp c, 15)) $$ HR
  ihave #HIys7 := (inv_at m K (c, 8)) $$ HR
  ihave #Hrys7 := (reached_at m K (c, 8)) $$ HR
  ihave #HIyr7 := (inv_at m K (c, 16)) $$ HR
  ihave #HJyr7 := (inv_at m K (yp c, 16)) $$ HR
  ihave #Hsyr7 := (reached_at m K (yp c, 16)) $$ HR
  ihave #HIxs0 := (inv_at m K (c, 17)) $$ HR
  ihave #Hrxs0 := (reached_at m K (c, 17)) $$ HR
  ihave #HIxr0 := (inv_at m K (c, 23)) $$ HR
  ihave #HJxr0 := (inv_at m K (xp c, 23)) $$ HR
  ihave #Hsxr0 := (reached_at m K (xp c, 23)) $$ HR
  ihave #HIxs1 := (inv_at m K (c, 18)) $$ HR
  ihave #Hrxs1 := (reached_at m K (c, 18)) $$ HR
  ihave #HIxr1 := (inv_at m K (c, 24)) $$ HR
  ihave #HJxr1 := (inv_at m K (xp c, 24)) $$ HR
  ihave #Hsxr1 := (reached_at m K (xp c, 24)) $$ HR
  ihave #HIxs2 := (inv_at m K (c, 19)) $$ HR
  ihave #Hrxs2 := (reached_at m K (c, 19)) $$ HR
  ihave #HIxr2 := (inv_at m K (c, 25)) $$ HR
  ihave #HJxr2 := (inv_at m K (xp c, 25)) $$ HR
  ihave #Hsxr2 := (reached_at m K (xp c, 25)) $$ HR
  ihave #HIxs3 := (inv_at m K (c, 20)) $$ HR
  ihave #Hrxs3 := (reached_at m K (c, 20)) $$ HR
  ihave #HIxr3 := (inv_at m K (c, 26)) $$ HR
  ihave #HJxr3 := (inv_at m K (xp c, 26)) $$ HR
  ihave #Hsxr3 := (reached_at m K (xp c, 26)) $$ HR
  ihave #HIxs4 := (inv_at m K (c, 21)) $$ HR
  ihave #Hrxs4 := (reached_at m K (c, 21)) $$ HR
  ihave #HIxr4 := (inv_at m K (c, 27)) $$ HR
  ihave #HJxr4 := (inv_at m K (xp c, 27)) $$ HR
  ihave #Hsxr4 := (reached_at m K (xp c, 27)) $$ HR
  ihave #HIxs5 := (inv_at m K (c, 22)) $$ HR
  ihave #Hrxs5 := (reached_at m K (c, 22)) $$ HR
  ihave #HIxr5 := (inv_at m K (c, 28)) $$ HR
  ihave #HJxr5 := (inv_at m K (xp c, 28)) $$ HR
  ihave #Hsxr5 := (reached_at m K (xp c, 28)) $$ HR
  unfold owedY
  -- the first exchange: six 32-row chunks leave
  iapply (part4 m c _ _ _ (fun k => K (c, ⟨k.val + 1, by have := k.isLt; omega⟩)) (fun k => K (yp c, ⟨k.val + 9, by have := k.isLt; omega⟩)) _ _ _ fy fy fy
      (fun k fd => landed_yrA m c k fd)) $$ [HtYs0 HtYr0 HsA0 HdA0 HtYs1 HtYr1 HsA1 HdA1 HtYs2 HtYr2 HsA2 HdA2 HO]
  · unfold yAin
    isplitl [HtYs0 HtYr0 HsA0 HdA0]
    · isplitr; · iexact HIys0
      isplitr; · iexact HJyr0
      isplitr; · iexact Hrys0
      isplitr; · iexact Hsyr0
      isplitl [HtYs0]; · iexact HtYs0
      isplitl [HtYr0]; · iexact HtYr0
      isplitl [HsA0]; · iexact HsA0
      iexact HdA0
    isplitl [HtYs1 HtYr1 HsA1 HdA1]
    · isplitr; · iexact HIys1
      isplitr; · iexact HJyr1
      isplitr; · iexact Hrys1
      isplitr; · iexact Hsyr1
      isplitl [HtYs1]; · iexact HtYs1
      isplitl [HtYr1]; · iexact HtYr1
      isplitl [HsA1]; · iexact HsA1
      iexact HdA1
    isplitl [HtYs2 HtYr2 HsA2 HdA2]
    · isplitr; · iexact HIys2
      isplitr; · iexact HJyr2
      isplitr; · iexact Hrys2
      isplitr; · iexact Hsyr2
      isplitl [HtYs2]; · iexact HtYs2
      isplitl [HtYr2]; · iexact HtYr2
      isplitl [HsA2]; · iexact HsA2
      iexact HdA2
    iexact HO
  iintro ⟨HcYs0, HcYs1, HcYs2, HO⟩
  iapply (part5 m c _ _ _ _ (fun k => K (c, ⟨k.val + 1, by have := k.isLt; omega⟩)) (fun k => K (yp c, ⟨k.val + 9, by have := k.isLt; omega⟩)) _ _ _ fy fy fy)
    $$ [HtYs3 HtYr3 HsA3 HdA3 HtYs4 HtYr4 HsA4 HdA4 HtYs5 HtYr5 HsA5 HdA5 HO]
  · unfold yAin
    isplitl [HtYs3 HtYr3 HsA3 HdA3]
    · isplitr; · iexact HIys3
      isplitr; · iexact HJyr3
      isplitr; · iexact Hrys3
      isplitr; · iexact Hsyr3
      isplitl [HtYs3]; · iexact HtYs3
      isplitl [HtYr3]; · iexact HtYr3
      isplitl [HsA3]; · iexact HsA3
      iexact HdA3
    isplitl [HtYs4 HtYr4 HsA4 HdA4]
    · isplitr; · iexact HIys4
      isplitr; · iexact HJyr4
      isplitr; · iexact Hrys4
      isplitr; · iexact Hsyr4
      isplitl [HtYs4]; · iexact HtYs4
      isplitl [HtYr4]; · iexact HtYr4
      isplitl [HsA4]; · iexact HsA4
      iexact HdA4
    isplitl [HtYs5 HtYr5 HsA5 HdA5]
    · isplitr; · iexact HIys5
      isplitr; · iexact HJyr5
      isplitr; · iexact Hrys5
      isplitr; · iexact Hsyr5
      isplitl [HtYs5]; · iexact HtYs5
      isplitl [HtYr5]; · iexact HtYr5
      isplitl [HsA5]; · iexact HsA5
      iexact HdA5
    iexact HO
  iintro ⟨HcYs3, HcYs4, HcYs5, HO⟩
  -- the two 64-row chunks leave; the first chunk lands, is summed and put in the forwarded-rows buffer
  iapply (part6 m c _ _ _ _ _ _ (fun k => K (c, ⟨k.val + 7, by have := k.isLt; omega⟩)) (fun k => K (yp c, ⟨k.val + 15, by have := k.isLt; omega⟩)) (K (c, 9)) _
      (owedX c) _ (above_owedX c) fy fy f2)
    $$ [HtYs6 HtYr6 HsB0 HdB0 HtYs7 HtYr7 HsB1 HdB1 HO HcYr0 HaYr0 HysR Hrd0]
  · unfold p6_yBin waitIn
    isplitl [HtYs6 HtYr6 HsB0 HdB0]
    · isplitr; · iexact HIys6
      isplitr; · iexact HJyr6
      isplitr; · iexact Hrys6
      isplitr; · iexact Hsyr6
      isplitl [HtYs6]; · iexact HtYs6
      isplitl [HtYr6]; · iexact HtYr6
      isplitl [HsB0]; · iexact HsB0
      iexact HdB0
    isplitl [HtYs7 HtYr7 HsB1 HdB1]
    · isplitr; · iexact HIys7
      isplitr; · iexact HJyr7
      isplitr; · iexact Hrys7
      isplitr; · iexact Hsyr7
      isplitl [HtYs7]; · iexact HtYs7
      isplitl [HtYr7]; · iexact HtYr7
      isplitl [HsB1]; · iexact HsB1
      iexact HdB1
    isplitl [HO]; · iexact HO
    isplitr; · iexact Hlev
    isplitl [HcYr0 HaYr0]
    · isplitr; · iexact HIyr0
      isplitl [HcYr0]; · iexact HcYr0
      iexact HaYr0
    isplitl [HysR]; · iexact HysR
    iexact Hrd0
  iintro ⟨HcYs6, HcYs7, HO, HaYr0, Hyr0, HysR, Hrd0⟩
  ihave Hrd0 := (Entails.of_eq (pointsTo_congr (stRD_on m c 0 f2))) $$ Hrd0
  unfold owedX
  -- forwarded chunk 0 leaves and is stored; chunk 1 of the first exchange lands and is summed
  iapply (part7 m c _ _ _ _ _ _ _ _ _ (K (c, 17)) (K (xp c, 23)) (K (c, 10)) _ (tallyAt (dCell (xp c) (xrS 5)) () NxA + tallyAt (dCell (xp c) (xrS 4)) () NxA + tallyAt (dCell (xp c) (xrS 3)) () NxA + tallyAt (dCell (xp c) (xrS 2)) () NxA + tallyAt (dCell (xp c) (xrS 1)) () NxA) _ (by first | exact above_tally _ _ _ (by dsimp only [lv]; decide) | ((repeat' apply above_add) <;> exact above_tally _ _ _ (by dsimp only [lv]; decide))) fx _ f2)
    $$ [HtXs0 HtXr0 HO Hrd0 HdX0 Hout HcYr1 HaYr1 HysR Hrd1]
  · isplitr; · iexact HIxs0
    isplitr; · iexact HJxr0
    isplitr; · iexact HIyr1
    isplitr; · iexact Hrxs0
    isplitr; · iexact Hsxr0
    isplitr; · iexact Hlev
    isplitl [HtXs0]; · iexact HtXs0
    isplitl [HtXr0]; · iexact HtXr0
    isplitl [HO]; · iexact HO
    isplitl [Hrd0]; · iexact Hrd0
    isplitl [HdX0]; · iexact HdX0
    isplitl [Hout]; · iexact Hout
    isplitl [HcYr1]; · iexact HcYr1
    isplitl [HaYr1]; · iexact HaYr1
    isplitl [HysR]; · iexact HysR
    iexact Hrd1
  iintro ⟨HcXs0, HO, HrdR0, Hout, HaYr1, Hyr1, HysR, Hrd1⟩
  ihave Hrd1 := (Entails.of_eq (pointsTo_congr (stRD_on m c 1 f2))) $$ Hrd1
  -- forwarded chunk 1 leaves and is stored; chunk 2 of the first exchange lands and is summed
  iapply (part8 m c _ _ _ _ _ _ _ (K (c, 18)) (K (xp c, 24)) (K (c, 11)) _ (tallyAt (dCell (xp c) (xrS 5)) () NxA + tallyAt (dCell (xp c) (xrS 4)) () NxA + tallyAt (dCell (xp c) (xrS 3)) () NxA + tallyAt (dCell (xp c) (xrS 2)) () NxA) _ (by first | exact above_tally _ _ _ (by dsimp only [lv]; decide) | ((repeat' apply above_add) <;> exact above_tally _ _ _ (by dsimp only [lv]; decide))) fx (landed_xrC m c 1 fx (RD m c) (fun _ _ => rfl)) _ f2 (rd_setOn_sub 1) (yr_setOn_A_sub c 2) (rd_setOn_sub 2) (rd_access_setOn_sub 2))
    $$ [HtXs1 HtXr1 HO Hrd1 HdX1 Hout HcYr2 HaYr2 HysR Hrd2]
  · isplitr; · iexact HIxs1
    isplitr; · iexact HJxr1
    isplitr; · iexact HIyr2
    isplitr; · iexact Hrxs1
    isplitr; · iexact Hsxr1
    isplitr; · iexact Hlev
    isplitl [HtXs1]; · iexact HtXs1
    isplitl [HtXr1]; · iexact HtXr1
    isplitl [HO]; · iexact HO
    isplitl [Hrd1]; · iexact Hrd1
    isplitl [HdX1]; · iexact HdX1
    isplitl [Hout]; · iexact Hout
    isplitl [HcYr2]; · iexact HcYr2
    isplitl [HaYr2]; · iexact HaYr2
    isplitl [HysR]; · iexact HysR
    iexact Hrd2
  iintro ⟨HcXs1, HO, HrdR1, Hout, HaYr2, Hyr2, HysR, Hrd2⟩
  ihave Hrd2 := (Entails.of_eq (pointsTo_congr (stRD_on m c 2 f2))) $$ Hrd2
  -- forwarded chunk 2 leaves and is stored; chunk 3 of the first exchange lands and is summed
  iapply (part9 m c _ _ _ _ _ _ _ (K (c, 19)) (K (xp c, 25)) (K (c, 12)) _ (tallyAt (dCell (xp c) (xrS 5)) () NxA + tallyAt (dCell (xp c) (xrS 4)) () NxA + tallyAt (dCell (xp c) (xrS 3)) () NxA) _ (by first | exact above_tally _ _ _ (by dsimp only [lv]; decide) | ((repeat' apply above_add) <;> exact above_tally _ _ _ (by dsimp only [lv]; decide))) fx _ f2)
    $$ [HtXs2 HtXr2 HO Hrd2 HdX2 Hout HcYr3 HaYr3 HysR Hrd3]
  · isplitr; · iexact HIxs2
    isplitr; · iexact HJxr2
    isplitr; · iexact HIyr3
    isplitr; · iexact Hrxs2
    isplitr; · iexact Hsxr2
    isplitr; · iexact Hlev
    isplitl [HtXs2]; · iexact HtXs2
    isplitl [HtXr2]; · iexact HtXr2
    isplitl [HO]; · iexact HO
    isplitl [Hrd2]; · iexact Hrd2
    isplitl [HdX2]; · iexact HdX2
    isplitl [Hout]; · iexact Hout
    isplitl [HcYr3]; · iexact HcYr3
    isplitl [HaYr3]; · iexact HaYr3
    isplitl [HysR]; · iexact HysR
    iexact Hrd3
  iintro ⟨HcXs2, HO, HrdR2, Hout, HaYr3, Hyr3, HysR, Hrd3⟩
  ihave Hrd3 := (Entails.of_eq (pointsTo_congr (stRD_on m c 3 f2))) $$ Hrd3
  -- forwarded chunk 3 leaves and is stored; chunk 4 of the first exchange lands and is summed
  iapply (part10 m c _ _ _ _ _ _ _ (K (c, 20)) (K (xp c, 26)) (K (c, 13)) _ (tallyAt (dCell (xp c) (xrS 5)) () NxA + tallyAt (dCell (xp c) (xrS 4)) () NxA) _ (by first | exact above_tally _ _ _ (by dsimp only [lv]; decide) | ((repeat' apply above_add) <;> exact above_tally _ _ _ (by dsimp only [lv]; decide))) fx _ f2)
    $$ [HtXs3 HtXr3 HO Hrd3 HdX3 Hout HcYr4 HaYr4 HysR Hrd4]
  · isplitr; · iexact HIxs3
    isplitr; · iexact HJxr3
    isplitr; · iexact HIyr4
    isplitr; · iexact Hrxs3
    isplitr; · iexact Hsxr3
    isplitr; · iexact Hlev
    isplitl [HtXs3]; · iexact HtXs3
    isplitl [HtXr3]; · iexact HtXr3
    isplitl [HO]; · iexact HO
    isplitl [Hrd3]; · iexact Hrd3
    isplitl [HdX3]; · iexact HdX3
    isplitl [Hout]; · iexact Hout
    isplitl [HcYr4]; · iexact HcYr4
    isplitl [HaYr4]; · iexact HaYr4
    isplitl [HysR]; · iexact HysR
    iexact Hrd4
  iintro ⟨HcXs3, HO, HrdR3, Hout, HaYr4, Hyr4, HysR, Hrd4⟩
  ihave Hrd4 := (Entails.of_eq (pointsTo_congr (stRD_on m c 4 f2))) $$ Hrd4
  -- forwarded chunk 4 leaves and is stored; chunk 5 of the first exchange lands and is summed
  iapply (part11 m c _ _ _ _ _ _ _ (K (c, 21)) (K (xp c, 27)) (K (c, 14)) _ (tallyAt (dCell (xp c) (xrS 5)) () NxA) _ (by first | exact above_tally _ _ _ (by dsimp only [lv]; decide) | ((repeat' apply above_add) <;> exact above_tally _ _ _ (by dsimp only [lv]; decide))) fx _ f2)
    $$ [HtXs4 HtXr4 HO Hrd4 HdX4 Hout HcYr5 HaYr5 HysR Hrd5]
  · isplitr; · iexact HIxs4
    isplitr; · iexact HJxr4
    isplitr; · iexact HIyr5
    isplitr; · iexact Hrxs4
    isplitr; · iexact Hsxr4
    isplitr; · iexact Hlev
    isplitl [HtXs4]; · iexact HtXs4
    isplitl [HtXr4]; · iexact HtXr4
    isplitl [HO]; · iexact HO
    isplitl [Hrd4]; · iexact Hrd4
    isplitl [HdX4]; · iexact HdX4
    isplitl [Hout]; · iexact Hout
    isplitl [HcYr5]; · iexact HcYr5
    isplitl [HaYr5]; · iexact HaYr5
    isplitl [HysR]; · iexact HysR
    iexact Hrd5
  iintro ⟨HcXs4, HO, HrdR4, Hout, HaYr5, Hyr5, HysR, Hrd5⟩
  ihave Hrd5 := (Entails.of_eq (pointsTo_congr (stRD_on m c 5 f2))) $$ Hrd5
  -- the last forwarded chunk leaves and is stored; the first 64-row chunk lands, is summed and stored
  iapply (part12 m c _ _ _ _ _ _ _ (K (c, 22)) (K (xp c, 28)) (K (c, 15)) _ _ fx _)
    $$ [HtXs5 HtXr5 HO Hrd5 HdX5 Hout HcYr6 HaYr6 HysR]
  · isplitr; · iexact HIxs5
    isplitr; · iexact HJxr5
    isplitr; · iexact HIyr6
    isplitr; · iexact Hrxs5
    isplitr; · iexact Hsxr5
    isplitr; · iexact Hlev
    isplitl [HtXs5]; · iexact HtXs5
    isplitl [HtXr5]; · iexact HtXr5
    isplitl [HO]; · iexact HO
    isplitl [Hrd5]; · iexact Hrd5
    isplitl [HdX5]; · iexact HdX5
    isplitl [Hout]; · iexact Hout
    isplitl [HcYr6]; · iexact HcYr6
    isplitl [HaYr6]; · iexact HaYr6
    iexact HysR
  iintro ⟨HcXs5, HO, HrdR5, Hout, HaYr6, Hyr6, HysR⟩
  -- the second exchange's chunks land and are stored; the last 64-row chunk lands, is summed and stored
  iapply (part13 m c _ _ _ _ _ _ _ (K (c, 23)) (K (c, 16)) (K (c, 24)) _ _ _ (xr_setOn_sub 0) (yr_setOn_B_sub c 1))
    $$ [HO HcXr0 HaXr0 HcYr7 HaYr7 HcXr1 HaXr1 Hout HysR]
  · unfold waitIn
    isplitr; · iexact Hlev
    isplitl [HO]; · iexact HO
    isplitl [HcXr0 HaXr0]
    · isplitr; · iexact HIxr0
      isplitl [HcXr0]; · iexact HcXr0
      iexact HaXr0
    isplitl [HcYr7 HaYr7]
    · isplitr; · iexact HIyr7
      isplitl [HcYr7]; · iexact HcYr7
      iexact HaYr7
    isplitl [HcXr1 HaXr1]
    · isplitr; · iexact HIxr1
      isplitl [HcXr1]; · iexact HcXr1
      iexact HaXr1
    isplitl [Hout]; · iexact Hout
    iexact HysR
  iintro ⟨⟨%W13, HO⟩, HaXr0, HaYr7, HaXr1, Hxr0, Hyr7, Hxr1, Hout, HysR⟩
  iapply (part14 m c _ _ _ (K (c, 25)) (K (c, 26)) _ _ _) $$ [HO Hxr1 HcXr2 HaXr2 HcXr3 HaXr3 Hout]
  · unfold waitIn
    isplitr; · iexact Hlev
    isplitl [HO]; · iexact HO
    isplitl [Hxr1]; · iexact Hxr1
    isplitl [HcXr2 HaXr2]
    · isplitr; · iexact HIxr2
      isplitl [HcXr2]; · iexact HcXr2
      iexact HaXr2
    isplitl [HcXr3 HaXr3]
    · isplitr; · iexact HIxr3
      isplitl [HcXr3]; · iexact HcXr3
      iexact HaXr3
    iexact Hout
  iintro ⟨⟨%W14, HO⟩, HaXr2, HaXr3, Hxr1, Hxr2, Hxr3, Hout⟩
  iapply (part15 m c _ _ _ _ (K (c, 27)) (K (c, 28)) _ _ _) $$ [HO HcXr4 HaXr4 HcXr5 HaXr5 Hout]
  · unfold waitIn
    isplitr; · iexact Hlev
    isplitl [HO]; · iexact HO
    isplitl [HcXr4 HaXr4]
    · isplitr; · iexact HIxr4
      isplitl [HcXr4]; · iexact HcXr4
      iexact HaXr4
    isplitl [HcXr5 HaXr5]
    · isplitr; · iexact HIxr5
      isplitl [HcXr5]; · iexact HcXr5
      iexact HaXr5
    iexact Hout
  iintro ⟨⟨%W15, HO⟩, HaXr4, HaXr5, Hxr4, Hxr5, Hout⟩
  -- every departure is waited: the lent rows come back
  iapply (part16 m c (fun k => K (c, ⟨k.val + 1, by have := k.isLt; omega⟩)) _ _)
    $$ [HO HcYs0 HaYs0 HcYs1 HaYs1 HcYs2 HaYs2 HcYs3 HaYs3 HcYs4 HaYs4 HcYs5 HaYs5]
  · unfold waitIn
    isplitr; · iexact Hlev
    isplitl [HO]; · iexact HO
    isplitl [HcYs0 HaYs0]
    · isplitr; · iexact HIys0
      isplitl [HcYs0]; · iexact HcYs0
      iexact HaYs0
    isplitl [HcYs1 HaYs1]
    · isplitr; · iexact HIys1
      isplitl [HcYs1]; · iexact HcYs1
      iexact HaYs1
    isplitl [HcYs2 HaYs2]
    · isplitr; · iexact HIys2
      isplitl [HcYs2]; · iexact HcYs2
      iexact HaYs2
    isplitl [HcYs3 HaYs3]
    · isplitr; · iexact HIys3
      isplitl [HcYs3]; · iexact HcYs3
      iexact HaYs3
    isplitl [HcYs4 HaYs4]
    · isplitr; · iexact HIys4
      isplitl [HcYs4]; · iexact HcYs4
      iexact HaYs4
    isplitr; · iexact HIys5
    isplitl [HcYs5]; · iexact HcYs5
    iexact HaYs5
  unfold waitOut
  iintro ⟨⟨%W16, HO⟩, ⟨HaYs0, HsA0⟩, ⟨HaYs1, HsA1⟩, ⟨HaYs2, HsA2⟩, ⟨HaYs3, HsA3⟩, ⟨HaYs4, HsA4⟩, ⟨HaYs5, HsA5⟩⟩
  iapply (part17 m c (fun k => K (c, ⟨(if k.val < 2 then k.val + 7 else k.val + 15), by have := k.isLt; split <;> omega⟩)) _ _)
    $$ [HO HcYs6 HaYs6 HcYs7 HaYs7 HcXs0 HaXs0 HcXs1 HaXs1 HcXs2 HaXs2]
  · unfold waitIn
    isplitr; · iexact Hlev
    isplitl [HO]; · iexact HO
    isplitl [HcYs6 HaYs6]
    · isplitr; · iexact HIys6
      isplitl [HcYs6]; · iexact HcYs6
      iexact HaYs6
    isplitl [HcYs7 HaYs7]
    · isplitr; · iexact HIys7
      isplitl [HcYs7]; · iexact HcYs7
      iexact HaYs7
    isplitl [HcXs0 HaXs0]
    · isplitr; · iexact HIxs0
      isplitl [HcXs0]; · iexact HcXs0
      iexact HaXs0
    isplitl [HcXs1 HaXs1]
    · isplitr; · iexact HIxs1
      isplitl [HcXs1]; · iexact HcXs1
      iexact HaXs1
    isplitr; · iexact HIxs2
    isplitl [HcXs2]; · iexact HcXs2
    iexact HaXs2
  unfold waitOut
  iintro ⟨⟨%W17, HO⟩, ⟨HaYs6, HsB0⟩, ⟨HaYs7, HsB1⟩, ⟨HaXs0, HrdL0⟩, ⟨HaXs1, HrdL1⟩, ⟨HaXs2, HrdL2⟩⟩
  -- the last three departures
  simp only [Prog.lift, Prog.pure_eq_ret]
  iapply (wait_dma m c (xsS 3) (by decide) (K (c, 20)) (by rfl) 0 _ (above_zero _)) $$ [HcXs3 HO HaXs3]
  · isplitr; · iexact HIxs3
    isplitl [HcXs3]; · iexact HcXs3
    isplitl [HO]; · iexact HO
    isplitr; · iexact Hlev
    iexact HaXs3
  iintro ⟨HO, HaXs3, -, HrdL3⟩
  rw [wp_ret]; imodintro
  iapply (wait_dma m c (xsS 4) (by decide) (K (c, 21)) (by rfl) 0 _ (above_zero _)) $$ [HcXs4 HO HaXs4]
  · isplitr; · iexact HIxs4
    isplitl [HcXs4]; · iexact HcXs4
    isplitl [HO]; · iexact HO
    isplitr; · iexact Hlev
    iexact HaXs4
  iintro ⟨HO, HaXs4, -, HrdL4⟩
  rw [wp_ret]; imodintro
  iapply (wait_dma m c (xsS 5) (by decide) (K (c, 22)) (by rfl) 0 _ (above_zero _)) $$ [HcXs5 HO HaXs5]
  · isplitr; · iexact HIxs5
    isplitl [HcXs5]; · iexact HcXs5
    isplitl [HO]; · iexact HO
    isplitr; · iexact Hlev
    iexact HaXs5
  iintro ⟨HO, HaXs5, -, HrdL5⟩
  rw [wp_ret]; imodintro
  rw [wp_ret]
  -- every cell closes, every buffer is whole again, the result block is the sum
  ihave HsA0 := (Entails.of_eq (show dmaPay m c ↑(ysSA 0) = pYsA m c 0 from rfl)) $$ HsA0
  ihave HsA1 := (Entails.of_eq (show dmaPay m c ↑(ysSA 1) = pYsA m c 1 from rfl)) $$ HsA1
  ihave HsA2 := (Entails.of_eq (show dmaPay m c ↑(ysSA 2) = pYsA m c 2 from rfl)) $$ HsA2
  ihave HsA3 := (Entails.of_eq (show dmaPay m c ↑(ysSA 3) = pYsA m c 3 from rfl)) $$ HsA3
  ihave HsA4 := (Entails.of_eq (show dmaPay m c ↑(ysSA 4) = pYsA m c 4 from rfl)) $$ HsA4
  ihave HsA5 := (Entails.of_eq (show dmaPay m c ↑(ysSA 5) = pYsA m c 5 from rfl)) $$ HsA5
  ihave HsB0 := (Entails.of_eq (show dmaPay m c ↑(ysSB 0) = pYsB m c 0 from rfl)) $$ HsB0
  ihave HsB1 := (Entails.of_eq (show dmaPay m c ↑(ysSB 1) = pYsB m c 1 from rfl)) $$ HsB1
  ihave HrdL0 := (Entails.of_eq (show dmaPay m c ↑(xsS 0) = pXs m c 0 from rfl)) $$ HrdL0
  ihave HrdL1 := (Entails.of_eq (show dmaPay m c ↑(xsS 1) = pXs m c 1 from rfl)) $$ HrdL1
  ihave HrdL2 := (Entails.of_eq (show dmaPay m c ↑(xsS 2) = pXs m c 2 from rfl)) $$ HrdL2
  ihave HrdL3 := (Entails.of_eq (show dmaPay m c ↑(xsS 3) = pXs m c 3 from rfl)) $$ HrdL3
  ihave HrdL4 := (Entails.of_eq (show dmaPay m c ↑(xsS 4) = pXs m c 4 from rfl)) $$ HrdL4
  ihave HrdL5 := (Entails.of_eq (show dmaPay m c ↑(xsS 5) = pXs m c 5 from rfl)) $$ HrdL5
  have htd := teardown m ρ K c g1
  rw [bigSep_fin28] at htd
  imod htd $$ [HaYs0 HaYs1 HaYs2 HaYs3 HaYs4 HaYs5 HaYs6 HaYs7 HaYr0 HaYr1 HaYr2 HaYr3 HaYr4 HaYr5 HaYr6 HaYr7
      HaXs0 HaXs1 HaXs2 HaXs3 HaXs4 HaXs5 HaXr0 HaXr1 HaXr2 HaXr3 HaXr4 HaXr5
      HsA0 HsA1 HsA2 HsA3 HsA4 HsA5 HsB0 HsB1 HysR Hyr0 Hyr1 Hyr2 Hyr3 Hyr4 Hyr5 Hyr6 Hyr7
      HrdL0 HrdR0 HrdL1 HrdR1 HrdL2 HrdR2 HrdL3 HrdR3 HrdL4 HrdR4 HrdL5 HrdR5
      Hxr0 Hxr1 Hxr2 Hxr3 Hxr4 Hxr5 HO Hx Hout] with Hpost
  · isplitr; · iexact HR
    isplitl [HaYs0 HaYs1 HaYs2 HaYs3 HaYs4 HaYs5 HaYs6 HaYs7 HaYr0 HaYr1 HaYr2 HaYr3 HaYr4 HaYr5 HaYr6 HaYr7
      HaXs0 HaXs1 HaXs2 HaXs3 HaXs4 HaXs5 HaXr0 HaXr1 HaXr2 HaXr3 HaXr4 HaXr5]
    · skip
      isplitl [HaYs0]; · iexact HaYs0
      isplitl [HaYs1]; · iexact HaYs1
      isplitl [HaYs2]; · iexact HaYs2
      isplitl [HaYs3]; · iexact HaYs3
      isplitl [HaYs4]; · iexact HaYs4
      isplitl [HaYs5]; · iexact HaYs5
      isplitl [HaYs6]; · iexact HaYs6
      isplitl [HaYs7]; · iexact HaYs7
      isplitl [HaYr0]; · iexact HaYr0
      isplitl [HaYr1]; · iexact HaYr1
      isplitl [HaYr2]; · iexact HaYr2
      isplitl [HaYr3]; · iexact HaYr3
      isplitl [HaYr4]; · iexact HaYr4
      isplitl [HaYr5]; · iexact HaYr5
      isplitl [HaYr6]; · iexact HaYr6
      isplitl [HaYr7]; · iexact HaYr7
      isplitl [HaXs0]; · iexact HaXs0
      isplitl [HaXs1]; · iexact HaXs1
      isplitl [HaXs2]; · iexact HaXs2
      isplitl [HaXs3]; · iexact HaXs3
      isplitl [HaXs4]; · iexact HaXs4
      isplitl [HaXs5]; · iexact HaXs5
      isplitl [HaXr0]; · iexact HaXr0
      isplitl [HaXr1]; · iexact HaXr1
      isplitl [HaXr2]; · iexact HaXr2
      isplitl [HaXr3]; · iexact HaXr3
      isplitl [HaXr4]; · iexact HaXr4
      iexact HaXr5
    isplitl [HsA0 HsA1 HsA2 HsA3 HsA4 HsA5 HsB0 HsB1 HysR]
    · isplitl [HsA0]; · iexact HsA0
      isplitl [HsA1]; · iexact HsA1
      isplitl [HsA2]; · iexact HsA2
      isplitl [HsA3]; · iexact HsA3
      isplitl [HsA4]; · iexact HsA4
      isplitl [HsA5]; · iexact HsA5
      isplitl [HsB0]; · iexact HsB0
      isplitl [HsB1]; · iexact HsB1
      iexact HysR
    isplitl [Hyr0 Hyr1 Hyr2 Hyr3 Hyr4 Hyr5 Hyr6 Hyr7]
    · isplitl [Hyr0]; · iexact Hyr0
      isplitl [Hyr1]; · iexact Hyr1
      isplitl [Hyr2]; · iexact Hyr2
      isplitl [Hyr3]; · iexact Hyr3
      isplitl [Hyr4]; · iexact Hyr4
      isplitl [Hyr5]; · iexact Hyr5
      isplitl [Hyr6]; · iexact Hyr6
      iexact Hyr7
    isplitl [HrdL0 HrdR0 HrdL1 HrdR1 HrdL2 HrdR2 HrdL3 HrdR3 HrdL4 HrdR4 HrdL5 HrdR5]
    · isplitl [HrdL0 HrdR0]; · (isplitl [HrdL0] <;> iassumption)
      isplitl [HrdL1 HrdR1]; · (isplitl [HrdL1] <;> iassumption)
      isplitl [HrdL2 HrdR2]; · (isplitl [HrdL2] <;> iassumption)
      isplitl [HrdL3 HrdR3]; · (isplitl [HrdL3] <;> iassumption)
      isplitl [HrdL4 HrdR4]; · (isplitl [HrdL4] <;> iassumption)
      isplitl [HrdL5] <;> iassumption
    isplitl [Hxr0 Hxr1 Hxr2 Hxr3 Hxr4 Hxr5]
    · isplitl [Hxr0]; · iexact Hxr0
      isplitl [Hxr1]; · iexact Hxr1
      isplitl [Hxr2]; · iexact Hxr2
      isplitl [Hxr3]; · iexact Hxr3
      isplitl [Hxr4]; · iexact Hxr4
      iexact Hxr5
    isplitl [HO]; · iexists _; iexact HO
    isplitl [Hx]; · iexact Hx
    iexact Hout
  imodintro
  iapply Hk
  iexact Hpost

/-- The staging pipeline's body obligation on device `c`. -/
theorem body_obligation (c : Dev nD) : BodyObligation (dats (F := F) m ρ 0 c) (defs₀ (F := F)) 𝒱₀ () Set.univ :=
  body_obligation_of m ρ (sound_body m ρ) c

end Cert.KernelIdeal.AllReduce

end
-- ==== Proof.FrameRun.lean ====
/-
  The run of the two-stage sum read at the claim's arrays: on every device the argument array ends as it began (no
  window ever writes it) and the result array ends holding the device's result block, the sum on the rows the device
  exchanged and its first-axis partner's forwarded sum on the others.
-/
import proofs.«900150_g7700000000000151_dist_ar_v7x_xy2x2_y_m512_n512_bf16_1_alg».proof.Proof.Launch

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staged block of the argument is the argument array itself: its one block is the whole array. -/
theorem xblk_eq (c : Dev nD) : xblk m c = m ((c.tc : Thread nD τ).loc main_arg0) :=
  Memref.read_access_unit_zero (Elt F) main_arg0 (funext fun a => Nat.zero_mul _) _ _

/-- Given every device's body obligation, every weakly fair execution terminates with each device's result array at its
    result block and its argument array unchanged. -/
theorem value_run (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m c
      ∧ r.2.mem ((c.tc : Thread nD τ).loc main_arg0) = m ((c.tc : Thread nD τ).loc main_arg0)) :=
  (θ_run defs _ _).mono
    (fun _ h c => ⟨(h c (1 : Fin 2)).trans (finalA_out m ρ c), (h c (0 : Fin 2)).trans (finalA_in m ρ c)⟩)
    (run_main m ρ hbody)

/-- The same run with the result forgotten: the argument arrays end unchanged. -/
theorem frame_run (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (value_run m ρ hbody)

end Cert.KernelIdeal.AllReduce

end
-- ==== Proof.RefValue.lean ====
/-
  The reference side of the certificate, and the bridge between the two results.

  The whole input `X` has 1024 rows of 512 columns. The reference adds its upper half to its lower half:
  its result at row `r`, column `l` is `X (r, l) + X (512 + r, l)` (the final change of format is the identity on
  extended reals, and the sum starts from the zero word, the extended real `0`).
  On the 2 x 2 mesh device `c` holds block `c % 2` of `X` along the rows, and its partner along the second axis
  holds the other block; so the sum of a device's block and its partner's block is the reference's result, the two
  summands in one order when `c % 2 = 0` and in the other when `c % 2 = 1`. Addition of extended reals is
  commutative at every value, infinite ones included, so nothing is asked of the input.
-/
import proofs.«900150_g7700000000000151_dist_ar_v7x_xy2x2_y_m512_n512_bf16_1_alg».proof.Defs
import proofs.«900150_g7700000000000151_dist_ar_v7x_xy2x2_y_m512_n512_bf16_1_alg».proof.Proof.Mesh
import proofs.«900150_g7700000000000151_dist_ar_v7x_xy2x2_y_m512_n512_bf16_1_alg».proof.Proof.Gen.ReferenceIdeal
import proofs.«900150_g7700000000000151_dist_ar_v7x_xy2x2_y_m512_n512_bf16_1_alg».proof.Proof.Gen.ReferenceIdeal.Run
import proofs.«900150_g7700000000000151_dist_ar_v7x_xy2x2_y_m512_n512_bf16_1_alg».proof.Proof.Gen.ReferenceIdeal.Read
import proofs.«900150_g7700000000000151_dist_ar_v7x_xy2x2_y_m512_n512_bf16_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem Idealize.ShloMosaic.StableHlo
open Idealize.ShloMosaic.ValueIdx
open Cert.KernelIdeal.AllReduce (yp)

/-! ## The reference's result, index by index -/

/-- The contents of the whole input: 1024 rows of 512 columns. -/
abbrev XTy : Type := (⟨S1024x512, .f32⟩ : BufTy).Contents (Elt Ideal)
/-- The contents of a result: 512 rows of 512 columns. -/
abbrev RTy : Type := (⟨S512x512, .bf16⟩ : BufTy).Contents (Elt Ideal)

/-- Row `k * 512 + r` of the whole input, where `r` is the row of the result index `i`: the row of half `k`. -/
def row (k : Fin 2) (i : S512x512.Idx) : Fin 1024 :=
  ⟨k.val * 512 + (i 0).val, by
    have h0 : (i 0).val < 512 := (i 0).isLt
    have hk : k.val < 2 := k.isLt
    omega⟩

/-- The reference's result as a function of the whole input: at `(r, l)` the sum `X (r, l) + X (512 + r, l)`. -/
def Rsum (X : XTy) : RTy :=
  fun i => (show EReal from X (ix2 (row 0 i) (i 1 : Fin 512))) + (show EReal from X (ix2 (row 1 i) (i 1 : Fin 512)))

theorem Rsum_apply (X : XTy) (i : S512x512.Idx) :
    Rsum X i = (show EReal from X (ix2 (row 0 i) (i 1 : Fin 512))) + (show EReal from X (ix2 (row 1 i) (i 1 : Fin 512))) := rfl

/-- Reading half `k` of the reshaped input at the result index `i` reads the whole input at row `k * 512 + r`. -/
theorem idx_comp (i : S512x512.Idx) (k : Fin 2) :
    Read.idx_main_v0 (Read.idx_main_v1 i k) = ix2 (row k i) (i 1 : Fin 512) := by
  have h0 : (i 0).val < 512 := (i 0).isLt
  have h1 : (i 1).val < 512 := (i 1).isLt
  have hk : k.val < 2 := k.isLt
  funext a
  match a with
  | ⟨0, _⟩ =>
    apply Fin.ext
    show ((k.val * 512 + (i 0).val) * 512 + (i 1).val) / 512 = k.val * 512 + (i 0).val
    omega
  | ⟨1, _⟩ =>
    apply Fin.ext
    show ((k.val * 512 + (i 0).val) * 512 + (i 1).val) % 512 = (i 1).val
    omega

/-- The reference's last stage is `Rsum`. -/
theorem val_eq_Rsum (X : XTy) : Read.val_main_v2 (F := Ideal) X = Rsum X := by
  funext i
  rw [Read.val_main_v2_apply, Read.val_main_v1_apply, Read.val_main_cst_apply, Fin.sum_univ_two,
    Read.val_main_v0_apply, Read.val_main_v0_apply, idx_comp, idx_comp]
  simp only [Ideal.truncf_def, Ideal.ofBits_def, Ideal.ofBits_zero_f32]
  exact zero_add _

/-! ## The reference's run and its frame -/

/-- Every weakly fair execution of the reference terminates with its result at `Rsum` of its argument and the
    argument unchanged. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v2) = Rsum (m' (((0 : Dev nD).tc : Thread nD τ).loc main_arg0))
      ∧ r.2.mem (((0 : Dev nD).tc : Thread nD τ).loc main_arg0) = m' (((0 : Dev nD).tc : Thread nD τ).loc main_arg0)) :=
  (θ_run defs _ _).mono
    (fun _ h => ⟨(h 0).1.trans ((Read.val_main_v2_eq _).trans (val_eq_Rsum _)), (h 0).2⟩)
    (Value.run (F := Ideal) m' g')

/-- The reference runs and leaves its argument unchanged. -/
theorem frame_ri : Cert.frame_ReferenceIdeal :=
  fun m ρ _ => (θ_run Cert.ReferenceIdeal.defs _ _).mono (fun _ h c => (h c).2) (Cert.ReferenceIdeal.Value.run (F := Ideal) m ρ)

/-! ## A device's block and its partner's -/

/-- Device `c`'s block of the whole input: its coordinate on the second mesh axis names the half. -/
abbrev blk (X : XTy) (c : Dev KernelIdeal.nD) : (⟨S512x512, .f32⟩ : BufTy).Contents (Elt Ideal) :=
  Layout.blockN ⟨2, ![512, 512]⟩ ⟨2, ![1024, 512]⟩ (Layout.meshBlock [2, 2] ![[1], []] c) X

/-- The half of the input device `c` holds: its second mesh coordinate. -/
def col (c : Dev KernelIdeal.nD) : Fin 2 := ⟨c.val % 2, Nat.mod_lt _ (by decide)⟩

/-- The block coordinate along the rows is the second mesh coordinate. -/
theorem meshLin_col : ∀ c : Dev KernelIdeal.nD, Layout.meshLin [2, 2] c.val [1] = c.val % 2 := by decide

/-- A device and its partner along the second axis hold the two different halves. -/
theorem col_cases (c : Dev KernelIdeal.nD) :
    (col c = 0 ∧ col (yp c) = 1) ∨ (col c = 1 ∧ col (yp c) = 0) := by
  revert c; decide

/-- Device `c`'s block at `(r, l)` is the whole input at row `(c % 2) * 512 + r`, column `l`. -/
theorem blk_apply (X : XTy) (c : Dev KernelIdeal.nD) (i : S512x512.Idx) :
    blk X c i = X (ix2 (row (col c) i) (i 1 : Fin 512)) := by
  show X _ = X _
  refine congrArg X (funext fun a => ?_)
  match a with
  | ⟨0, _⟩ =>
    apply Fin.ext
    show Layout.meshLin [2, 2] c.val [1] * 512 + (i 0).val = c.val % 2 * 512 + (i 0).val
    rw [meshLin_col]
  | ⟨1, _⟩ =>
    apply Fin.ext
    show 0 * 512 + (i 1).val = (i 1).val
    omega

/-- The sum of a device's block and its partner's block is the reference's result. -/
theorem block_sum (X : XTy) (c : Dev KernelIdeal.nD) :
    (fun i : S512x512.Idx => (show EReal from blk X c i) + (show EReal from blk X (yp c) i)) = Rsum X := by
  funext i
  show (show EReal from blk X c i) + (show EReal from blk X (yp c) i) = Rsum X i
  rw [blk_apply, blk_apply, Rsum_apply]
  rcases col_cases c with ⟨h0, h1⟩ | ⟨h0, h1⟩
  · rw [h0, h1]
  · rw [h0, h1]; exact add_comm (G := EReal) _ _

/-- The same with the sum and the two changes of format spelt as the vector operations. -/
theorem block_sum_vec (X : XTy) (c : Dev KernelIdeal.nD) (h h' : FTy.bits .bf16 < FTy.bits .f32) :
    addf (F := Ideal) (φ := .bf16) (truncf (F := Ideal) (φ := .f32) .bf16 (blk X c) h) (truncf (F := Ideal) (φ := .f32) .bf16 (blk X (yp c)) h') = Rsum X :=
  block_sum X c

/-- The same at the type of the kernel's result buffer on device `c`. -/
theorem block_sum_buf (X : XTy) (c : Dev KernelIdeal.nD) (h h' : FTy.bits .bf16 < FTy.bits .f32) :
    (addf (F := Ideal) (φ := .bf16) (truncf (F := Ideal) (φ := .f32) .bf16 (blk X c) h) (truncf (F := Ideal) (φ := .f32) .bf16 (blk X (yp c)) h')
        : Buf (Elt Ideal) ((c.tc : Thread KernelIdeal.nD KernelIdeal.τ).loc KernelIdeal.main_v1))
      = (Rsum X : Buf (Elt Ideal) ((c.tc : Thread KernelIdeal.nD KernelIdeal.τ).loc KernelIdeal.main_v1)) :=
  block_sum X c

/-- From memories in which every device's argument buffer is its block of the reference's argument: on every
    device the sum of its own argument and its partner's, each changed to the result's format, is the reference's
    result. -/
theorem kernel_sum_eq
    (m : (ℓ : Loc KernelIdeal.nD KernelIdeal.τ KernelIdeal.sig) → Buf (Elt Ideal) ℓ)
    (m' : (ℓ : Loc nD τ sig) → Buf (Elt Ideal) ℓ)
    (hB : ∀ c : Dev KernelIdeal.nD,
      m ((c.tc : Thread KernelIdeal.nD KernelIdeal.τ).loc KernelIdeal.main_arg0) =
        Layout.blockN ⟨2, ![512, 512]⟩ ⟨2, ![1024, 512]⟩ (Layout.meshBlock [2, 2] ![[1], []] c)
          (m' (((0 : Dev nD).tc : Thread nD τ).loc main_arg0)))
    (c : Dev KernelIdeal.nD) (h h' : FTy.bits .bf16 < FTy.bits .f32) :
    (addf (F := Ideal) (φ := .bf16) (truncf (F := Ideal) (φ := .f32) .bf16 (m ((c.tc : Thread KernelIdeal.nD KernelIdeal.τ).loc KernelIdeal.main_arg0)) h)
          (truncf (F := Ideal) (φ := .f32) .bf16 (m (((yp c).tc : Thread KernelIdeal.nD KernelIdeal.τ).loc KernelIdeal.main_arg0)) h')
        : Buf (Elt Ideal) ((c.tc : Thread KernelIdeal.nD KernelIdeal.τ).loc KernelIdeal.main_v1))
      = Rsum (m' (((0 : Dev nD).tc : Thread nD τ).loc main_arg0)) := by
  rw [hB c, hB (yp c)]
  exact block_sum_vec _ c h h'

end Cert.ReferenceIdeal.RefValue

end
-- ==== Proof.KernelValue.lean ====
/-
  The last step of the certificate at the ideal values. Every device's result block is the reference's result:
  on the rows the device exchanged it is the sum of its own block and its second-axis partner's, on the other rows
  the same sum as its first-axis partner formed it, and either sum is the whole input's upper half plus its lower half.
-/
import proofs.«900150_g7700000000000151_dist_ar_v7x_xy2x2_y_m512_n512_bf16_1_alg».proof.Defs
import proofs.«900150_g7700000000000151_dist_ar_v7x_xy2x2_y_m512_n512_bf16_1_alg».proof.Proof.FrameRun
import proofs.«900150_g7700000000000151_dist_ar_v7x_xy2x2_y_m512_n512_bf16_1_alg».proof.Proof.RefValue
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.ReferenceIdeal
import proofs.«900150_g7700000000000151_dist_ar_v7x_xy2x2_y_m512_n512_bf16_1_alg».proof.Proof.Gen.Pre_finite_inputs_Kernel

noncomputable section

namespace Cert.Proof.KV

open Idealize.ShloMosaic Idealize.ShloMosaic.TcCoe Idealize.SL.Sem
open Idealize.ShloMosaic.Pipeline (BodyObligation)
open Cert.KernelIdeal Cert.KernelIdeal.Gen Cert.KernelIdeal.AllReduce
open Cert.ReferenceIdeal.RefValue (Rsum kernel_sum_eq ref_run)

/-- From memories in which every device's argument is its block of the reference's argument, every device's result
    block is the reference's result. -/
theorem out_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hB : ∀ c : Dev nD,
      m ((c.tc : Thread nD τ).loc main_arg0) = Layout.blockN ⟨2, ![512, 512]⟩ ⟨2, ![1024, 512]⟩ (Layout.meshBlock [2, 2] ![[1], []] c)
        (m' (((0 : Dev Cert.ReferenceIdeal.nD).tc : Thread Cert.ReferenceIdeal.nD Cert.ReferenceIdeal.τ).loc Cert.ReferenceIdeal.main_arg0)))
    (c : Dev nD) :
    (OUT m c : Buf (Elt Ideal) ((c.tc : Thread nD τ).loc main_v1)) = Rsum (m' (((0 : Dev Cert.ReferenceIdeal.nD).tc : Thread Cert.ReferenceIdeal.nD Cert.ReferenceIdeal.τ).loc Cert.ReferenceIdeal.main_arg0)) := by
  have hS : ∀ d : Dev nD, (Sm m d : Buf (Elt Ideal) ((d.tc : Thread nD τ).loc main_v1)) = Rsum (m' (((0 : Dev Cert.ReferenceIdeal.nD).tc : Thread Cert.ReferenceIdeal.nD Cert.ReferenceIdeal.τ).loc Cert.ReferenceIdeal.main_arg0)) := fun d => by
    unfold Sm Tx
    rw [xblk_eq, xblk_eq]
    exact kernel_sum_eq m m' hB d _ _
  funext i
  show (if 192 * (c.val / 2) ≤ (i 0).val ∧ (i 0).val < 192 * (c.val / 2) + 320 then Sm m c i else Sm m (xp c) i) = Rsum (m' (((0 : Dev Cert.ReferenceIdeal.nD).tc : Thread Cert.ReferenceIdeal.nD Cert.ReferenceIdeal.τ).loc Cert.ReferenceIdeal.main_arg0)) i
  split
  · exact congrFun (hS c) i
  · exact congrFun (hS (xp c)) i

/-- The value conjunct, given every device's body obligation. -/
theorem algebraic_of
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.algebraic_KernelIdeal_ReferenceIdeal := by
  intro m g m' g' _ hB
  exact ⟨Rsum (m' (((0 : Dev Cert.ReferenceIdeal.nD).tc : Thread Cert.ReferenceIdeal.nD Cert.ReferenceIdeal.τ).loc Cert.ReferenceIdeal.main_arg0)),
    (θ_run defs _ _).mono (fun _ h c => ⟨(h c).1.trans (out_eq m m' hB c), (h c).2⟩) (value_run m g (hbody m g)),
    ref_run m' g'⟩

/-- The frame conjunct of the idealized kernel, given every device's body obligation. -/
theorem frame_ki_of
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.frame_KernelIdeal :=
  fun m g _ => frame_run m g (hbody m g)

end Cert.Proof.KV

end
-- ==== Proof.WordFrame.lean ====
/-
  The frame conjunct of the kernel as printed, at the word-level values: the same run as at the ideal values, read at
  the argument arrays, which no window ever writes.
-/
import proofs.«900150_g7700000000000151_dist_ar_v7x_xy2x2_y_m512_n512_bf16_1_alg».proof.Defs
import proofs.«900150_g7700000000000151_dist_ar_v7x_xy2x2_y_m512_n512_bf16_1_alg».proof.Proof.WFrameRun
import proofs.«900150_g7700000000000151_dist_ar_v7x_xy2x2_y_m512_n512_bf16_1_alg».proof.Proof.Gen.Kernel
import proofs.«900150_g7700000000000151_dist_ar_v7x_xy2x2_y_m512_n512_bf16_1_alg».proof.Proof.Gen.Pre_finite_inputs_Kernel

noncomputable section

namespace Cert.Proof.KV

open Idealize.ShloMosaic Idealize.ShloMosaic.TcCoe Idealize.SL.Sem
open Idealize.ShloMosaic.Pipeline (BodyObligation)

/-- The frame conjunct of the kernel as printed, given every device's body obligation. -/
theorem frame_k_of
    (hbody : ∀ (m : (ℓ : Loc Cert.Kernel.nD Cert.Kernel.τ Cert.Kernel.sig) → Buf (Elt Bits) ℓ) (ρ : Dev Cert.Kernel.nD → PrngReg)
      (c : Dev Cert.Kernel.nD),
      BodyObligation (Cert.Kernel.AllReduce.dats (F := Bits) m ρ 0 c) (Cert.Kernel.defs₀ (F := Bits)) Cert.Kernel.AllReduce.𝒱₀ () Set.univ) :
    Cert.frame_Kernel :=
  fun m g _ => Cert.Kernel.AllReduce.frame_run m g (hbody m g)

end Cert.Proof.KV

end
-- ==== Proof.lean ====
/-
  The certificate of the two-stage sum over a 2 x 2 mesh against the one-device sum of the two row blocks.

  Both printed kernels (word level and idealized) run the same protocol: one frame theorem each, from the launch
  theorem over every device's body obligation. The reference's frame is its run with the result dropped. The
  idealization rewrote nothing. Over the extended reals every device's result block is, row by row, the sum of the two
  blocks of the whole input (its own and its partner's along the second axis, in either order), which is the
  reference's result.
-/
import proofs.«900150_g7700000000000151_dist_ar_v7x_xy2x2_y_m512_n512_bf16_1_alg».proof.Defs
import proofs.«900150_g7700000000000151_dist_ar_v7x_xy2x2_y_m512_n512_bf16_1_alg».proof.Proof.Gen.Kernel
import proofs.«900150_g7700000000000151_dist_ar_v7x_xy2x2_y_m512_n512_bf16_1_alg».proof.Proof.Gen.Kernel.Skeleton
import proofs.«900150_g7700000000000151_dist_ar_v7x_xy2x2_y_m512_n512_bf16_1_alg».proof.Proof.Gen.Kernel.Launch
import proofs.«900150_g7700000000000151_dist_ar_v7x_xy2x2_y_m512_n512_bf16_1_alg».proof.Proof.Gen.Kernel.Points
import proofs.«900150_g7700000000000151_dist_ar_v7x_xy2x2_y_m512_n512_bf16_1_alg».proof.Proof.Gen.Kernel.Frame
import proofs.«900150_g7700000000000151_dist_ar_v7x_xy2x2_y_m512_n512_bf16_1_alg».proof.Proof.Gen.KernelIdeal
import proofs.«900150_g7700000000000151_dist_ar_v7x_xy2x2_y_m512_n512_bf16_1_alg».proof.Proof.Gen.KernelIdeal.Skeleton
import proofs.«900150_g7700000000000151_dist_ar_v7x_xy2x2_y_m512_n512_bf16_1_alg».proof.Proof.Gen.KernelIdeal.Launch
import proofs.«900150_g7700000000000151_dist_ar_v7x_xy2x2_y_m512_n512_bf16_1_alg».proof.Proof.Gen.KernelIdeal.Points
import proofs.«900150_g7700000000000151_dist_ar_v7x_xy2x2_y_m512_n512_bf16_1_alg».proof.Proof.Gen.KernelIdeal.Frame
import proofs.«900150_g7700000000000151_dist_ar_v7x_xy2x2_y_m512_n512_bf16_1_alg».proof.Proof.Gen.ReferenceIdeal
import proofs.«900150_g7700000000000151_dist_ar_v7x_xy2x2_y_m512_n512_bf16_1_alg».proof.Proof.Gen.Pre_finite_inputs_Kernel
import proofs.«900150_g7700000000000151_dist_ar_v7x_xy2x2_y_m512_n512_bf16_1_alg».proof.Proof.Gen.Pre_finite_inputs_ReferenceIdeal
import proofs.«900150_g7700000000000151_dist_ar_v7x_xy2x2_y_m512_n512_bf16_1_alg».proof.Proof.Body
import proofs.«900150_g7700000000000151_dist_ar_v7x_xy2x2_y_m512_n512_bf16_1_alg».proof.Proof.WBody
import proofs.«900150_g7700000000000151_dist_ar_v7x_xy2x2_y_m512_n512_bf16_1_alg».proof.Proof.KernelValue
import proofs.«900150_g7700000000000151_dist_ar_v7x_xy2x2_y_m512_n512_bf16_1_alg».proof.Proof.WordFrame
import proofs.«900150_g7700000000000151_dist_ar_v7x_xy2x2_y_m512_n512_bf16_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.KV.frame_k_of (fun m ρ c => Cert.Kernel.AllReduce.body_obligation m ρ c),
  Cert.Proof.KV.frame_ki_of (fun m ρ c => Cert.KernelIdeal.AllReduce.body_obligation m ρ c),
  Cert.ReferenceIdeal.RefValue.frame_ri,
  trivial,
  Cert.Proof.KV.algebraic_of (fun m ρ c => Cert.KernelIdeal.AllReduce.body_obligation m ρ c)⟩

end Cert.Proof

end
